-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S20000x768 : Shape := ⟨2, ![20000, 768]⟩
abbrev S4096 : Shape := ⟨1, ![4096]⟩
abbrev S768x768 : Shape := ⟨2, ![768, 768]⟩
abbrev S768 : Shape := ⟨1, ![768]⟩
abbrev S256x768 : Shape := ⟨2, ![256, 768]⟩
abbrev S256 : Shape := ⟨1, ![256]⟩
abbrev S4096x256 : Shape := ⟨2, ![4096, 256]⟩
abbrev S50x256 : Shape := ⟨2, ![50, 256]⟩
abbrev S50 : Shape := ⟨1, ![50]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S20000x768 : S_.BroadcastsInDim S20000x768 (![] : Fin 0 → Fin S20000x768.rank)
  reducesTo_S20000x768_S_d0_1 : S20000x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S4096x256 : S_.BroadcastsInDim S4096x256 (![] : Fin 0 → Fin S4096x256.rank)
  reducesTo_S4096x256_S_d0_1 : S4096x256.ReducesTo [0, 1] S_
  bcast_S_S4096 : S_.BroadcastsInDim S4096 (![] : Fin 0 → Fin S4096.rank)
  reducesTo_S4096_S_d0 : S4096.ReducesTo [0] S_
  bcast_S_S50x256 : S_.BroadcastsInDim S50x256 (![] : Fin 0 → Fin S50x256.rank)
  reducesTo_S50x256_S_d0_1 : S50x256.ReducesTo [0, 1] S_
  bcast_S_S50 : S_.BroadcastsInDim S50 (![] : Fin 0 → Fin S50.rank)
  reducesTo_S50_S_d0 : S50.ReducesTo [0] S_

variable [Facts]

def fn_part3 {F : FTy → Type} [FloatOps F] (main_arg2 : IVec S4096 32) (main_arg12 : FVec F S50 .f32) (main_v48 : IVec S_ 1) (main_v49 : FVec F S50x256 .f32) (main_v50 : FVec F S50x256 .f32) : IVec S_ 1 :=
  let main_v51 : IVec S50x256 1 := cmpf .olt main_v49 main_v50
  let main_c_19 : IVec S_ 1 := constantI S_ 1 1#1
  let main_v52 : IVec S_ 1 := (fun x v => Host.reduce IntOp.andi x v reducesTo_S50x256_S_d0_1 h_S_) main_v51 main_c_19
  let main_v53 : IVec S_ 1 := andi main_v48 main_v52
  let main_v54 : FVec F S50 .f32 := Host.absf main_arg12
  let main_cst_20 : FVec F S_ .f32 := constant S_ .f32 0x7F800000#32
  let main_v55 : FVec F S50 .f32 := broadcastInDim S50 ![] bcast_S_S50 main_cst_20
  let main_v56 : IVec S50 1 := cmpf .olt main_v54 main_v55
  let main_c_21 : IVec S_ 1 := constantI S_ 1 1#1
  let main_v57 : IVec S_ 1 := (fun x v => Host.reduce IntOp.andi x v reducesTo_S50_S_d0 h_S_) main_v56 main_c_21
  let main_v58 : IVec S_ 1 := andi main_v53 main_v57
  let main_c_22 : IVec S_ 32 := constantI S_ 32 4294947296#32
  let main_v59 : IVec S4096 32 := broadcastInDim S4096 ![] bcast_S_S4096 main_c_22
  let main_v60 : IVec S4096 1 := cmpi .sge main_arg2 main_v59
  let main_c_23 : IVec S_ 32 := constantI S_ 32 20000#32
  let main_v61 : IVec S4096 32 := broadcastInDim S4096 ![] bcast_S_S4096 main_c_23
  let main_v62 : IVec S4096 1 := cmpi .slt main_arg2 main_v61
  let main_v63 : IVec S4096 1 := andi main_v60 main_v62
  let main_c_24 : IVec S_ 1 := constantI S_ 1 1#1
  let main_v64 : IVec S_ 1 := (fun x v => Host.reduce IntOp.andi x v reducesTo_S4096_S_d0 h_S_) main_v63 main_c_24
  let main_v65 : IVec S_ 1 := andi main_v58 main_v64
  main_v65

def fn_part2 {F : FTy → Type} [FloatOps F] (main_arg2 : IVec S4096 32) (main_arg8 : FVec F S256 .f32) (main_arg9 : FVec F S4096x256 .f32) (main_arg10 : FVec F S4096 .f32) (main_arg11 : FVec F S50x256 .f32) (main_arg12 : FVec F S50 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S4096x256 .f32 := Host.absf main_arg9
  let main_cst_14 : FVec F S_ .f32 := constant S_ .f32 0x7F800000#32
  let main_v40 : FVec F S4096x256 .f32 := broadcastInDim S4096x256 ![] bcast_S_S4096x256 main_cst_14
  let main_v41 : IVec S4096x256 1 := cmpf .olt main_v39 main_v40
  let main_c_15 : IVec S_ 1 := constantI S_ 1 1#1
  let main_v42 : IVec S_ 1 := (fun x v => Host.reduce IntOp.andi x v reducesTo_S4096x256_S_d0_1 h_S_) main_v41 main_c_15
  let main_v43 : IVec S_ 1 := andi main_v38 main_v42
  let main_v44 : FVec F S4096 .f32 := Host.absf main_arg10
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S50x256 .f32 := Host.absf main_arg11
  let main_cst_18 : FVec F S_ .f32 := constant S_ .f32 0x7F800000#32
  let main_v50 : FVec F S50x256 .f32 := broadcastInDim S50x256 ![] bcast_S_S50x256 main_cst_18
  fn_part3 (F := F) main_arg2 main_arg12 main_v48 main_v49 main_v50

def fn_part1 {F : FTy → Type} [FloatOps F] (main_arg2 : IVec S4096 32) (main_arg5 : FVec F S256x768 .f32) (main_arg6 : FVec F S256 .f32) (main_arg7 : FVec F S256x768 .f32) (main_arg8 : FVec F S256 .f32) (main_arg9 : FVec F S4096x256 .f32) (main_arg10 : FVec F S4096 .f32) (main_arg11 : FVec F S50x256 .f32) (main_arg12 : FVec F S50 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S256x768 .f32 := Host.absf main_arg5
  let main_cst_6 : FVec F S_ .f32 := constant S_ .f32 0x7F800000#32
  let main_v20 : FVec F S256x768 .f32 := broadcastInDim S256x768 ![] bcast_S_S256x768 main_cst_6
  let main_v21 : IVec S256x768 1 := cmpf .olt main_v19 main_v20
  let main_c_7 : IVec S_ 1 := constantI S_ 1 1#1
  let main_v22 : IVec S_ 1 := (fun x v => Host.reduce IntOp.andi x v reducesTo_S256x768_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x768 .f32 := Host.absf main_arg7
  let main_cst_10 : FVec F S_ .f32 := constant S_ .f32 0x7F800000#32
  let main_v30 : FVec F S256x768 .f32 := broadcastInDim S256x768 ![] bcast_S_S256x768 main_cst_10
  let main_v31 : IVec S256x768 1 := cmpf .olt main_v29 main_v30
  let main_c_11 : IVec S_ 1 := constantI S_ 1 1#1
  let main_v32 : IVec S_ 1 := (fun x v => Host.reduce IntOp.andi x v reducesTo_S256x768_S_d0_1 h_S_) main_v31 main_c_11
  let main_v33 : IVec S_ 1 := andi main_v28 main_v32
  fn_part2 (F := F) main_arg2 main_arg8 main_arg9 main_arg10 main_arg11 main_arg12 main_v33

def fn {F : FTy → Type} [FloatOps F] (main_arg0 : FVec F S8192x768 .f32) (main_arg1 : FVec F S20000x768 .f32) (main_arg2 : IVec S4096 32) (main_arg3 : FVec F S768x768 .f32) (main_arg4 : FVec F S768 .f32) (main_arg5 : FVec F S256x768 .f32) (main_arg6 : FVec F S256 .f32) (main_arg7 : FVec F S256x768 .f32) (main_arg8 : FVec F S256 .f32) (main_arg9 : FVec F S4096x256 .f32) (main_arg10 : FVec F S4096 .f32) (main_arg11 : FVec F S50x256 .f32) (main_arg12 : FVec F S50 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S20000x768 .f32 := Host.absf main_arg1
  let main_cst_0 : FVec F S_ .f32 := constant S_ .f32 0x7F800000#32
  let main_v5 : FVec F S20000x768 .f32 := broadcastInDim S20000x768 ![] bcast_S_S20000x768 main_cst_0
  let main_v6 : IVec S20000x768 1 := cmpf .olt main_v4 main_v5
  let main_c_1 : IVec S_ 1 := constantI S_ 1 1#1
  let main_v7 : IVec S_ 1 := (fun x v => Host.reduce IntOp.andi x v reducesTo_S20000x768_S_d0_1 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg2 main_arg5 main_arg6 main_arg7 main_arg8 main_arg9 main_arg10 main_arg11 main_arg12 main_v13 main_v16
-- ==== Kernel.lean ====
abbrev S8192x768 : Shape := ⟨2, ![8192, 768]⟩
abbrev S20000x768 : Shape := ⟨2, ![20000, 768]⟩
abbrev S4096 : Shape := ⟨1, ![4096]⟩
abbrev S768x768 : Shape := ⟨2, ![768, 768]⟩
abbrev S768 : Shape := ⟨1, ![768]⟩
abbrev S256x768 : Shape := ⟨2, ![256, 768]⟩
abbrev S256 : Shape := ⟨1, ![256]⟩
abbrev S4096x256 : Shape := ⟨2, ![4096, 256]⟩
abbrev S50x256 : Shape := ⟨2, ![50, 256]⟩
abbrev S50 : Shape := ⟨1, ![50]⟩
abbrev S768x256 : Shape := ⟨2, ![768, 256]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x768 : Shape := ⟨2, ![4096, 768]⟩
abbrev S1024x768 : Shape := ⟨2, ![1024, 768]⟩
abbrev S1024x256 : Shape := ⟨2, ![1024, 256]⟩
abbrev S1x768 : Shape := ⟨2, ![1, 768]⟩
abbrev S1024 : Shape := ⟨1, ![1024]⟩
abbrev S1024x1 : Shape := ⟨2, ![1024, 1]⟩
abbrev S1x256 : Shape := ⟨2, ![1, 256]⟩
abbrev S8192x4096 : Shape := ⟨2, ![8192, 4096]⟩
abbrev S8192x50 : Shape := ⟨2, ![8192, 50]⟩
abbrev S1024x1024 : Shape := ⟨2, ![1024, 1024]⟩
abbrev S1024x50 : Shape := ⟨2, ![1024, 50]⟩
abbrev S1x1024 : Shape := ⟨2, ![1, 1024]⟩
abbrev S1x50 : Shape := ⟨2, ![1, 50]⟩

abbrev nBuf : Space → Nat
  | .hbm => 42
  | .vmem => 24
  | .smem => 0
  | _ => 0

abbrev bufTy : (tb : Table) → Fin (tcTables nBuf tb) → BufTy
  | .hbm, ⟨0, _⟩ => ⟨S8192x768, .f32⟩
  | .hbm, ⟨1, _⟩ => ⟨S20000x768, .f32⟩
  | .hbm, ⟨2, _⟩ => ⟨S4096, .i32⟩
  | .hbm, ⟨3, _⟩ => ⟨S768x768, .f32⟩
  | .hbm, ⟨4, _⟩ => ⟨S768, .f32⟩
  | .hbm, ⟨5, _⟩ => ⟨S256x768, .f32⟩
  | .hbm, ⟨6, _⟩ => ⟨S256, .f32⟩
  | .hbm, ⟨7, _⟩ => ⟨S256x768, .f32⟩
  | .hbm, ⟨8, _⟩ => ⟨S256, .f32⟩
  | .hbm, ⟨9, _⟩ => ⟨S4096x256, .f32⟩
  | .hbm, ⟨10, _⟩ => ⟨S4096, .f32⟩
  | .hbm, ⟨11, _⟩ => ⟨S50x256, .f32⟩
  | .hbm, ⟨12, _⟩ => ⟨S50, .f32⟩
  | .hbm, ⟨13, _⟩ => ⟨S768x768, .f32⟩
  | .hbm, ⟨14, _⟩ => ⟨S768x256, .f32⟩
  | .hbm, ⟨15, _⟩ => ⟨S768x256, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S1, .i32⟩
  | .hbm, ⟨25, _⟩ => ⟨S_, .i32⟩
  | .hbm, ⟨26, _⟩ => ⟨S4096x1, .i32⟩
  | .hbm, ⟨27, _⟩ => ⟨S4096x1, .i1⟩
  | .hbm, ⟨28, _⟩ => ⟨S1x1, .i32⟩
  | .hbm, ⟨29, _⟩ => ⟨S4096x1, .i32⟩
  | .hbm, ⟨30, _⟩ => ⟨S4096x1, .i1⟩
  | .hbm, ⟨31, _⟩ => ⟨S4096x1, .i1⟩
  | .hbm, ⟨32, _⟩ => ⟨S_, .i1⟩
  | .hbm, ⟨33, _⟩ => ⟨S4096, .i1⟩
  | .hbm, ⟨34, _⟩ => ⟨S4096x768, .f32⟩
  | .hbm, ⟨35, _⟩ => ⟨S4096x768, .i1⟩
  | .hbm, ⟨36, _⟩ => ⟨S_, .f32⟩
  | .hbm, ⟨37, _⟩ => ⟨S4096x768, .f32⟩
  | .hbm, ⟨38, _⟩ => ⟨S4096x768, .f32⟩
  | .hbm, ⟨39, _⟩ => ⟨S4096x256, .bf16⟩
  | .hbm, ⟨40, _⟩ => ⟨S8192x4096, .f32⟩
  | .hbm, ⟨41, _⟩ => ⟨S8192x50, .f32⟩
  | .local _ .vmem, ⟨0, _⟩ => ⟨S1024x768, .f32⟩
  | .local _ .vmem, ⟨1, _⟩ => ⟨S1024x768, .f32⟩
  | .local _ .vmem, ⟨2, _⟩ => ⟨S768x768, .f32⟩
  | .local _ .vmem, ⟨3, _⟩ => ⟨S768, .f32⟩
  | .local _ .vmem, ⟨4, _⟩ => ⟨S768x256, .f32⟩
  | .local _ .vmem, ⟨5, _⟩ => ⟨S256, .f32⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | .local _ .vmem, ⟨10, _⟩ => ⟨S1024x768, .f32⟩
  | .local _ .vmem, ⟨11, _⟩ => ⟨S1024x768, .f32⟩
  | .local _ .vmem, ⟨12, _⟩ => ⟨S768x256, .f32⟩
  | .local _ .vmem, ⟨13, _⟩ => ⟨S256, .f32⟩
  | .local _ .vmem, ⟨14, _⟩ => ⟨S4096x256, .bf16⟩
  | .local _ .vmem, ⟨15, _⟩ => ⟨S1024, .f32⟩
  | .local _ .vmem, ⟨16, _⟩ => ⟨S1024, .f32⟩
  | .local _ .vmem, ⟨17, _⟩ => ⟨S50x256, .f32⟩
  | .local _ .vmem, ⟨18, _⟩ => ⟨S50, .f32⟩
  | .local _ .vmem, ⟨19, _⟩ => ⟨S1024x1024, .f32⟩
  | .local _ .vmem, ⟨20, _⟩ => ⟨S1024x1024, .f32⟩
  | .local _ .vmem, ⟨21, _⟩ => ⟨S1024x50, .f32⟩
  | .local _ .vmem, ⟨22, _⟩ => ⟨S1024x50, .f32⟩
  | .local _ .vmem, ⟨23, _⟩ => ⟨S1024x256, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v3 : Ref sig .tc := ⟨.hbm, 38, rfl⟩
abbrev main_v4 : Ref sig .tc := ⟨.hbm, 39, rfl⟩
abbrev main_v5_0 : Ref sig .tc := ⟨.hbm, 40, rfl⟩
abbrev main_v5_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem6_0 : DmaSem sig := 18
abbrev cc1_sem7_0 : DmaSem sig := 19
abbrev cc1_sem7_1 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 4], ![false, false]⟩

def k1_mult1 (i : grid1.Coords) : BitVec 32 :=
  let arg1 : BitVec 32 := BitVec.ofNat 32 (i 1).val
  let c1024_i32 : BitVec 32 := 1024#32
  let v4 : BitVec 32 := Scalar.muli arg1 c1024_i32
  v4
def k1_off1 (i : grid1.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  let c0_2 : Index := 0#32
  ![v6.toNat, 0]
def k1_cond2 (i : grid1.Coords) : BitVec 1 :=
  let arg1 : BitVec 32 := BitVec.ofNat 32 (i 1).val
  let c0_i32_6 : BitVec 32 := 0#32
  let v15 : BitVec 1 := Scalar.cmpi .eq arg1 c0_i32_6
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S768x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S4096x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 1 → Memref sig .tc .vmem S50x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S50 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x50 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  transposes_S768x768_S768x768_1_0 : S768x768.Transposes [1, 0] S768x768
  transposes_S256x768_S768x256_1_0 : S256x768.Transposes [1, 0] S768x256
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x768_0 : S4096.BroadcastsInDim S4096x768 (![0] : Fin 1 → Fin S4096x768.rank)
  bcast_S_S4096x768 : S_.BroadcastsInDim S4096x768 (![] : Fin 0 → Fin S4096x768.rank)
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  reduces_S1024x768_S1024 : S1024x768.Reduces [1] S1024
  shapeCasts_S1024_S1024x1 : S1024.ShapeCasts S1024x1
  broadcasts_S1024x1_S1024x768 : S1024x1.Broadcasts S1024x768
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  inb_S50x256_S50x256_0_0 : ∀ a, (![0, 0] : Fin 2 → Nat) a + S50x256.size a ≤ S50x256.size a
  h_S50x256 : 0 < S50x256.numel
  inb_S50_S50_0 : ∀ a, (![0] : Fin 1 → Nat) a + S50.size a ≤ S50.size a
  h_S50 : 0 < S50.numel
  shapeCasts_S50_S1x50 : S50.ShapeCasts S1x50
  broadcasts_S1x50_S1024x50 : S1x50.Broadcasts S1024x50
  inb_S1024x50_S1024x50_0_0 : ∀ a, (![0, 0] : Fin 2 → Nat) a + S1024x50.size a ≤ S1024x50.size a
  h_S1024x50 : 0 < S1024x50.numel
  gather_S20000x768_S4096x1_S4096x768_1_0_n_n_0_1_1768_wf : GatherDims.WF S20000x768 S4096x1 S4096x768 [1] [0] [] [0] [] 1 ![1, 768]
  dot_S1024x768_S768x768_S1024x768_1_0_0_1_n_n_wf : DotDims.WF S1024x768 S768x768 S1024x768 [1] [0] [0] [1] [] []
  dot_S1024x768_S768x256_S1024x256_1_0_0_1_n_n_wf : DotDims.WF S1024x768 S768x256 S1024x256 [1] [0] [0] [1] [] []
  dot_S1024x256_S1024x256_S1024x1024_1_1_0_0_n_n_wf : DotDims.WF S1024x256 S1024x256 S1024x1024 [1] [1] [0] [0] [] []
  dot_S1024x256_S50x256_S1024x50_1_1_0_0_n_n_wf : DotDims.WF S1024x256 S50x256 S1024x50 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S4096x768.size a
  hwx0_0 : ∀ i : grid0.Coords, EltTy.bits .f32 = 32 ∨ (Rect.block (s := S4096x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x256.size a ≤ S768x256.size a
  hwx0_3 : ∀ i : grid0.Coords, EltTy.bits .f32 = 32 ∨ (Rect.block (s := S768x256) S768x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x256.size a
  hwx0_5 : ∀ i : grid0.Coords, EltTy.bits .f32 = 32 ∨ (Rect.block (s := S4096x256) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S4096x256.size a
  hwx0_6 : ∀ i : grid0.Coords, EltTy.bits .bf16 = 32 ∨ (Rect.block (s := S4096x256) S1024x256.size (cc0_transform_6 i) (hinb0_6 i)).WholeWords (EltTy.packing .bf16)
  hrank1 : 0 < grid1.rank
  k1_mult1_dvd : ∀ i : grid1.Coords, 1024 ∣ (k1_mult1 i).toNat
  k1_off1_inb : ∀ i : grid1.Coords, ∀ a, (k1_off1 i) a + S1024x256.size a ≤ S4096x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S8192x768.size a
  hwx1_0 : ∀ i : grid1.Coords, EltTy.bits .f32 = 32 ∨ (Rect.block (s := S8192x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x256.size a ≤ S768x256.size a
  hwx1_1 : ∀ i : grid1.Coords, EltTy.bits .f32 = 32 ∨ (Rect.block (s := S768x256) S768x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x256.size a ≤ S4096x256.size a
  hwx1_3 : ∀ i : grid1.Coords, EltTy.bits .bf16 = 32 ∨ (Rect.block (s := S4096x256) S4096x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S4096.size a
  hwx1_4 : ∀ i : grid1.Coords, EltTy.bits .f32 = 32 ∨ (Rect.block (s := S4096) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S50x256.size a ≤ S50x256.size a
  hwx1_5 : ∀ i : grid1.Coords, EltTy.bits .f32 = 32 ∨ (Rect.block (s := S50x256) S50x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S50.size a ≤ S50.size a
  hwx1_6 : ∀ i : grid1.Coords, EltTy.bits .f32 = 32 ∨ (Rect.block (s := S50) S50.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x1024.size a ≤ S8192x4096.size a
  hwx1_7 : ∀ i : grid1.Coords, EltTy.bits .f32 = 32 ∨ (Rect.block (s := S8192x4096) S1024x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x50.size a ≤ S8192x50.size a
  hwx1_8 : ∀ i : grid1.Coords, EltTy.bits .f32 = 32 ∨ (Rect.block (s := S8192x50) S1024x50.size (cc1_transform_8 i) (hinb1_8 i)).WholeWords (EltTy.packing .f32)

variable [Facts₀]

def gather_S20000x768_S4096x1_S4096x768_1_0_n_n_0_1_1768 : GatherDims S20000x768 S4096x1 S4096x768 where
  offsetDims := [1]
  collapsedSliceDims := [0]
  operandBatchingDims := []
  startIndicesBatchingDims := []
  startIndexMap := [0]
  indexVectorDim := 1
  sliceSizes := ![1, 768]
  wf := gather_S20000x768_S4096x1_S4096x768_1_0_n_n_0_1_1768_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x256_S50x256_S1024x50_1_1_0_0_n_n : DotDims S1024x256 S50x256 S1024x50 where
  lhsContracting := [1]
  rhsContracting := [1]
  lhsNonContracting := [0]
  rhsNonContracting := [0]
  lhsBatch := []
  rhsBatch := []
  wf := dot_S1024x256_S50x256_S1024x50_1_1_0_0_n_n_wf

abbrev win0_0 : Pipeline.Window sig grid0 :=
  Pipeline.Window.ofSpec (Memref.whole main_v3) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S768x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S768x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S4096x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S50x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S50.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5_0) S1024x1024.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v5_1) S1024x50.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S8192x768 : Shape := ⟨2, ![8192, 768]⟩
abbrev S20000x768 : Shape := ⟨2, ![20000, 768]⟩
abbrev S4096 : Shape := ⟨1, ![4096]⟩
abbrev S768x768 : Shape := ⟨2, ![768, 768]⟩
abbrev S768 : Shape := ⟨1, ![768]⟩
abbrev S256x768 : Shape := ⟨2, ![256, 768]⟩
abbrev S256 : Shape := ⟨1, ![256]⟩
abbrev S4096x256 : Shape := ⟨2, ![4096, 256]⟩
abbrev S50x256 : Shape := ⟨2, ![50, 256]⟩
abbrev S50 : Shape := ⟨1, ![50]⟩
abbrev S1x768 : Shape := ⟨2, ![1, 768]⟩
abbrev S_ : Shape := ⟨0, ![]⟩
abbrev S20000 : Shape := ⟨1, ![20000]⟩
abbrev S20000x1 : Shape := ⟨2, ![20000, 1]⟩
abbrev S768x256 : Shape := ⟨2, ![768, 256]⟩
abbrev S8192x256 : Shape := ⟨2, ![8192, 256]⟩
abbrev S1x256 : Shape := ⟨2, ![1, 256]⟩
abbrev S4096x1 : Shape := ⟨2, ![4096, 1]⟩
abbrev S4096x768 : Shape := ⟨2, ![4096, 768]⟩
abbrev S256x4096 : Shape := ⟨2, ![256, 4096]⟩
abbrev S8192x4096 : Shape := ⟨2, ![8192, 4096]⟩
abbrev S1x4096 : Shape := ⟨2, ![1, 4096]⟩
abbrev S256x50 : Shape := ⟨2, ![256, 50]⟩
abbrev S8192x50 : Shape := ⟨2, ![8192, 50]⟩
abbrev S1x50 : Shape := ⟨2, ![1, 50]⟩

abbrev nBuf : Space → Nat
  | .hbm => 71
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S20000x768, .f32⟩
  | .hbm, ⟨2, _⟩ => ⟨S4096, .i32⟩
  | .hbm, ⟨3, _⟩ => ⟨S768x768, .f32⟩
  | .hbm, ⟨4, _⟩ => ⟨S768, .f32⟩
  | .hbm, ⟨5, _⟩ => ⟨S256x768, .f32⟩
  | .hbm, ⟨6, _⟩ => ⟨S256, .f32⟩
  | .hbm, ⟨7, _⟩ => ⟨S256x768, .f32⟩
  | .hbm, ⟨8, _⟩ => ⟨S256, .f32⟩
  | .hbm, ⟨9, _⟩ => ⟨S4096x256, .f32⟩
  | .hbm, ⟨10, _⟩ => ⟨S4096, .f32⟩
  | .hbm, ⟨11, _⟩ => ⟨S50x256, .f32⟩
  | .hbm, ⟨12, _⟩ => ⟨S50, .f32⟩
  | .hbm, ⟨13, _⟩ => ⟨S768x768, .f32⟩
  | .hbm, ⟨14, _⟩ => ⟨S20000x768, .f32⟩
  | .hbm, ⟨15, _⟩ => ⟨S1x768, .f32⟩
  | .hbm, ⟨16, _⟩ => ⟨S20000x768, .f32⟩
  | .hbm, ⟨17, _⟩ => ⟨S20000x768, .f32⟩
  | .hbm, ⟨18, _⟩ => ⟨S_, .f32⟩
  | .hbm, ⟨19, _⟩ => ⟨S20000, .f32⟩
  | .hbm, ⟨20, _⟩ => ⟨S20000x1, .f32⟩
  | .hbm, ⟨21, _⟩ => ⟨S_, .f32⟩
  | .hbm, ⟨22, _⟩ => ⟨S20000, .f32⟩
  | .hbm, ⟨23, _⟩ => ⟨S20000x1, .f32⟩
  | .hbm, ⟨24, _⟩ => ⟨S20000x768, .f32⟩
  | .hbm, ⟨25, _⟩ => ⟨S20000x768, .f32⟩
  | .hbm, ⟨26, _⟩ => ⟨S20000x1, .f32⟩
  | .hbm, ⟨27, _⟩ => ⟨S20000x768, .f32⟩
  | .hbm, ⟨28, _⟩ => ⟨S20000x768, .f32⟩
  | .hbm, ⟨29, _⟩ => ⟨S20000x768, .f32⟩
  | .hbm, ⟨30, _⟩ => ⟨S_, .f32⟩
  | .hbm, ⟨31, _⟩ => ⟨S20000, .f32⟩
  | .hbm, ⟨32, _⟩ => ⟨S20000x1, .f32⟩
  | .hbm, ⟨33, _⟩ => ⟨S20000x1, .f32⟩
  | .hbm, ⟨34, _⟩ => ⟨S_, .f32⟩
  | .hbm, ⟨35, _⟩ => ⟨S20000x1, .f32⟩
  | .hbm, ⟨36, _⟩ => ⟨S20000x1, .f32⟩
  | .hbm, ⟨37, _⟩ => ⟨S20000x768, .f32⟩
  | .hbm, ⟨38, _⟩ => ⟨S20000x768, .f32⟩
  | .hbm, ⟨39, _⟩ => ⟨S768x256, .f32⟩
  | .hbm, ⟨40, _⟩ => ⟨S8192x256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S8192x256, .f32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x768, .f32⟩
  | .hbm, ⟨54, _⟩ => ⟨S768x256, .f32⟩
  | .hbm, ⟨55, _⟩ => ⟨S4096x256, .f32⟩
  | .hbm, ⟨56, _⟩ => ⟨S1x256, .f32⟩
  | .hbm, ⟨57, _⟩ => ⟨S4096x256, .f32⟩
  | .hbm, ⟨58, _⟩ => ⟨S4096x256, .f32⟩
  | .hbm, ⟨59, _⟩ => ⟨S4096x256, .f32⟩
  | .hbm, ⟨60, _⟩ => ⟨S4096x256, .f32⟩
  | .hbm, ⟨61, _⟩ => ⟨S256x4096, .f32⟩
  | .hbm, ⟨62, _⟩ => ⟨S8192x4096, .f32⟩
  | .hbm, ⟨63, _⟩ => ⟨S1x4096, .f32⟩
  | .hbm, ⟨64, _⟩ => ⟨S8192x4096, .f32⟩
  | .hbm, ⟨65, _⟩ => ⟨S8192x4096, .f32⟩
  | .hbm, ⟨66, _⟩ => ⟨S256x50, .f32⟩
  | .hbm, ⟨67, _⟩ => ⟨S8192x50, .f32⟩
  | .hbm, ⟨68, _⟩ => ⟨S1x50, .f32⟩
  | .hbm, ⟨69, _⟩ => ⟨S8192x50, .f32⟩
  | .hbm, ⟨70, _⟩ => ⟨S8192x50, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c : Ref sig .tc := ⟨.hbm, 45, rfl⟩
abbrev main_v28 : Ref sig .tc := ⟨.hbm, 46, rfl⟩
abbrev main_v29 : Ref sig .tc := ⟨.hbm, 47, rfl⟩
abbrev main_c_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]

class Facts₀ : Prop where
  transposes_S768x768_S768x768_1_0 : S768x768.Transposes [1, 0] S768x768
  bcast_S768_S1x768_1 : S768.BroadcastsInDim S1x768 (![1] : Fin 1 → Fin S1x768.rank)
  bcast_S1x768_S20000x768_0_1 : S1x768.BroadcastsInDim S20000x768 (![0, 1] : Fin 2 → Fin S20000x768.rank)
  reducesTo_S20000x768_S20000_d1 : S20000x768.ReducesTo [1] S20000
  h_S_ : 0 < S_.numel
  bcast_S20000_S20000x1_0 : S20000.BroadcastsInDim S20000x1 (![0] : Fin 1 → Fin S20000x1.rank)
  bcast_S20000x1_S20000x768_0_1 : S20000x1.BroadcastsInDim S20000x768 (![0, 1] : Fin 2 → Fin S20000x768.rank)
  bcast_S_S20000x1 : S_.BroadcastsInDim S20000x1 (![] : Fin 0 → Fin S20000x1.rank)
  transposes_S256x768_S768x256_1_0 : S256x768.Transposes [1, 0] S768x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S1x256_S4096x256_0_1 : S1x256.BroadcastsInDim S4096x256 (![0, 1] : Fin 2 → Fin S4096x256.rank)
  transposes_S4096x256_S256x4096_1_0 : S4096x256.Transposes [1, 0] S256x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  transposes_S50x256_S256x50_1_0 : S50x256.Transposes [1, 0] S256x50
  bcast_S50_S1x50_1 : S50.BroadcastsInDim S1x50 (![1] : Fin 1 → Fin S1x50.rank)
  bcast_S1x50_S8192x50_0_1 : S1x50.BroadcastsInDim S8192x50 (![0, 1] : Fin 2 → Fin S8192x50.rank)
  dot_S20000x768_S768x768_S20000x768_1_0_0_1_n_n_wf : DotDims.WF S20000x768 S768x768 S20000x768 [1] [0] [0] [1] [] []
  dot_S8192x768_S768x256_S8192x256_1_0_0_1_n_n_wf : DotDims.WF S8192x768 S768x256 S8192x256 [1] [0] [0] [1] [] []
  gather_S20000x768_S4096x1_S4096x768_1_0_n_n_0_1_1768_wf : GatherDims.WF S20000x768 S4096x1 S4096x768 [1] [0] [] [0] [] 1 ![1, 768]
  dot_S4096x768_S768x256_S4096x256_1_0_0_1_n_n_wf : DotDims.WF S4096x768 S768x256 S4096x256 [1] [0] [0] [1] [] []
  dot_S8192x256_S256x4096_S8192x4096_1_0_0_1_n_n_wf : DotDims.WF S8192x256 S256x4096 S8192x4096 [1] [0] [0] [1] [] []
  dot_S8192x256_S256x50_S8192x50_1_0_0_1_n_n_wf : DotDims.WF S8192x256 S256x50 S8192x50 [1] [0] [0] [1] [] []

variable [Facts₀]

def dot_S20000x768_S768x768_S20000x768_1_0_0_1_n_n : DotDims S20000x768 S768x768 S20000x768 where
  lhsContracting := [1]
  rhsContracting := [0]
  lhsNonContracting := [0]
  rhsNonContracting := [1]
  lhsBatch := []
  rhsBatch := []
  wf := dot_S20000x768_S768x768_S20000x768_1_0_0_1_n_n_wf
def dot_S8192x768_S768x256_S8192x256_1_0_0_1_n_n : DotDims S8192x768 S768x256 S8192x256 where
  lhsContracting := [1]
  rhsContracting := [0]
  lhsNonContracting := [0]
  rhsNonContracting := [1]
  lhsBatch := []
  rhsBatch := []
  wf := dot_S8192x768_S768x256_S8192x256_1_0_0_1_n_n_wf
def gather_S20000x768_S4096x1_S4096x768_1_0_n_n_0_1_1768 : GatherDims S20000x768 S4096x1 S4096x768 where
  offsetDims := [1]
  collapsedSliceDims := [0]
  operandBatchingDims := []
  startIndicesBatchingDims := []
  startIndexMap := [0]
  indexVectorDim := 1
  sliceSizes := ![1, 768]
  wf := gather_S20000x768_S4096x1_S4096x768_1_0_n_n_0_1_1768_wf
def dot_S4096x768_S768x256_S4096x256_1_0_0_1_n_n : DotDims S4096x768 S768x256 S4096x256 where
  lhsContracting := [1]
  rhsContracting := [0]
  lhsNonContracting := [0]
  rhsNonContracting := [1]
  lhsBatch := []
  rhsBatch := []
  wf := dot_S4096x768_S768x256_S4096x256_1_0_0_1_n_n_wf
def dot_S8192x256_S256x4096_S8192x4096_1_0_0_1_n_n : DotDims S8192x256 S256x4096 S8192x4096 where
  lhsContracting := [1]
  rhsContracting := [0]
  lhsNonContracting := [0]
  rhsNonContracting := [1]
  lhsBatch := []
  rhsBatch := []
  wf := dot_S8192x256_S256x4096_S8192x4096_1_0_0_1_n_n_wf
def dot_S8192x256_S256x50_S8192x50_1_0_0_1_n_n : DotDims S8192x256 S256x50 S8192x50 where
  lhsContracting := [1]
  rhsContracting := [0]
  lhsNonContracting := [0]
  rhsNonContracting := [1]
  lhsBatch := []
  rhsBatch := []
  wf := dot_S8192x256_S256x50_S8192x50_1_0_0_1_n_n_wf

class Facts : Prop extends Facts₀ where

variable [Facts]
-- ==== Proof.K.Region0.lean ====
/-
  Region 0 (the fused LinTrans / E-projection kernel, a grid of 4 row tiles), at the contents `V` the core's buffers hold
  when the region is entered: each window's block at a point, what the body leaves in the output's staging buffer
  (its one store of the payload of the six loaded blocks), the body's triple, the proof data and the body obligation.
-/
import proofs.«406561_j274877907022_3_alg».proof.Proof.Gen.Kernel.Launch
import proofs.«406561_j274877907022_3_alg».proof.Proof.Gen.Kernel.Skeleton
import proofs.«406561_j274877907022_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole staging buffer -/

abbrev r0_0 : Rect S1024x768 := Rect.unit (s := S1024x768) ![0, 0] S1024x768.size inb_S1024x768_S1024x768_0_0
abbrev r0_1 : Rect S768x768 := Rect.unit (s := S768x768) ![0, 0] S768x768.size inb_S768x768_S768x768_0_0
abbrev r0_2 : Rect S768 := Rect.unit (s := S768) ![0] S768.size inb_S768_S768_0
abbrev r0_3 : Rect S768x256 := Rect.unit (s := S768x256) ![0, 0] S768x256.size inb_S768x256_S768x256_0_0
abbrev r0_4 : Rect S256 := Rect.unit (s := S256) ![0] S256.size inb_S256_S256_0
abbrev r0_5 : Rect S1024x256 := Rect.unit (s := S1024x256) ![0, 0] S1024x256.size inb_S1024x256_S1024x256_0_0
abbrev r0_6 : Rect S1024x256 := Rect.unit (s := S1024x256) ![0, 0] S1024x256.size inb_S1024x256_S1024x256_0_0

/-- The output's staging buffer after the body, from the input windows' blocks: its one store, of the payload. -/
def out0_6 (x0 : Vec F S1024x768 .f32) (x1 : Vec F S768x768 .f32) (x2 : Vec F S768 .f32) (x3 : Vec F S768x256 .f32) (x4 : Vec F S256 .f32) (x5 : Vec F S1024x256 .f32) : Vec F S1024x256 .bf16 :=
  View.canon [⟨r0_6, k0_pay1 (View.ld x0 r0_0) (View.ld x1 r0_1) (View.ld x2 r0_2) (View.ld x3 r0_3) (View.ld x4 r0_4) (View.ld x5 r0_5)⟩]

/-- The store takes the whole buffer, so it covers it. -/
theorem cover0_6 (p0 : Vec F S1024x256 .bf16) (y : S1024x256.Idx) :
    ∃ pc ∈ ([⟨r0_6, p0⟩] : List (View.Piece (Elt F) S1024x256 .bf16)), y ∈ pc.1.set :=
  View.cover_of_tiled [⟨r0_6, p0⟩] S1024x256.size (by rfl) y

set_option maxHeartbeats 1000000 in
/-- The kernel body on whole staging memrefs, the inputs' at contents `xW` and the output's at anything, runs to the
    continuation holding the inputs' as they were and the output's at `out0_6` of the inputs'. -/
theorem sound_kernel0 (c : Dev nD) (E : Set ℕ) (i : grid0.Coords)
    (arg1 : Memref sig .tc .vmem S1024x768 .f32) (harg1 : arg1.IsWhole) (arg2 : Memref sig .tc .vmem S768x768 .f32) (harg2 : arg2.IsWhole)
    (arg3 : Memref sig .tc .vmem S768 .f32) (harg3 : arg3.IsWhole) (arg4 : Memref sig .tc .vmem S768x256 .f32) (harg4 : arg4.IsWhole)
    (arg5 : Memref sig .tc .vmem S256 .f32) (harg5 : arg5.IsWhole) (arg6 : Memref sig .tc .vmem S1024x256 .f32) (harg6 : arg6.IsWhole)
    (arg7 : Memref sig .tc .vmem S1024x256 .bf16) (harg7 : arg7.IsWhole)
    (x0 : Vec F S1024x768 .f32) (x1 : Vec F S768x768 .f32) (x2 : Vec F S768 .f32) (x3 : Vec F S768x256 .f32) (x4 : Vec F S256 .f32) (x5 : Vec F S1024x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__fused_age_e_kernel i arg1 harg1 arg2 harg2 arg3 harg3 arg4 harg4 arg5 harg5 arg6 harg6 arg7 harg7) K := by
  simp only [cc0__fused_age_e_kernel_eq_skeleton]; unfold cc0__fused_age_e_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at `out0_6` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Region1Runs.lean ====
/-
  Region 1 (the main kernel, a grid of 8 row tiles by 4 column tiles, the column axis innermost): the body's two cases.
  At a point with column tile 0 (case A) both branches are taken: the body computes the row tile's `h` into the scratch, stores the
  `o_c` tile from it, and stores the `o_f` tile. At the other points (case B) neither is: the body reads `h` back from the
  scratch, stores the `o_c` tile, and leaves the `o_f` buffer and the scratch as it found them.
-/
import proofs.«406561_j274877907022_3_alg».proof.Proof.Gen.Kernel.Launch
import proofs.«406561_j274877907022_3_alg».proof.Proof.Gen.Kernel.Skeleton
import proofs.«406561_j274877907022_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## The body's branch conditions -/

/-- The condition of the first branch (compute `h`), from the grid coordinates. -/
abbrev cond1_0 (i : grid1.Coords) : Prop := (Scalar.cmpi .ne (Scalar.extui (Scalar.cmpi .eq (BitVec.ofNat 32 (i 1).val) 0#32)) 0#32) = 1#1
/-- It holds at the points with column tile 0. -/
theorem hcond1_0 : ∀ t : Fin cfg1.N, cond1_0 (grid1.coords t) ↔ t.val % 4 = 0 :=
  (by decide +kernel : ∀ t : Fin grid1.N, cond1_0 (grid1.coords t) ↔ t.val % 4 = 0)
/-- The condition of the second branch (store `o_f`). -/
abbrev cond1_1 (i : grid1.Coords) : Prop := k1_cond2 i = 1#1
theorem hcond1_1 : ∀ t : Fin cfg1.N, cond1_1 (grid1.coords t) ↔ t.val % 4 = 0 :=
  (by decide +kernel : ∀ t : Fin grid1.N, cond1_1 (grid1.coords t) ↔ t.val % 4 = 0)

set_option maxHeartbeats 2000000 in
/-- CASE A. On whole staging memrefs — the inputs' at contents `xW`, the outputs' and the scratch at anything — the body runs to
    the continuation holding the inputs' as they were and the two outputs' buffers and the scratch with their pieces written. -/
noncomputable def kernelRun1_A (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole)
    (hc0 : cond1_0 i) (hc1 : cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) :
    Σ' (L7 : List (View.Piece (Elt F) S1024x1024 .f32)) (L8 : List (View.Piece (Elt F) S1024x50 .f32)), { LS : List (View.Piece (Elt F) S1024x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS

set_option maxHeartbeats 2000000 in
/-- CASE B. The inputs' memrefs at contents `xW`, the `o_f` buffer at contents `xi8` handed back untouched, the scratch at the contents
    `xs` the point before left and handed back untouched, the `o_c` buffer at anything: the body runs to the continuation holding
    the `o_c` buffer with its pieces written. -/
noncomputable def kernelRun1_B (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole)
    (hc0 : ¬cond1_0 i) (hc1 : ¬cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) (xs : Vec F S1024x256 .bf16) :
    { L7 : List (View.Piece (Elt F) S1024x1024 .f32) //
      ∀ (xi8 : Vec F S1024x50 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ owns (c : Thread nD τ) arg10 fullShare xi8 ∗ owns (c : Thread nD τ) arg11 fullShare xs) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K } := by
  refine ⟨?_, fun xi8 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact HS

end Cert.Kernel.Hand

end
-- ==== Proof.K.Region1.lean ====
/-
  Region 1 (the main kernel) at the contents `V` the core's buffers hold when the region is entered: each window's block at a
  point; what the two output buffers and the scratch hold after each point, by recursion on the point — at a point with
  column tile 0 what case A's stores leave, at the others the `o_c` tile case B stores, the `o_f` buffer and the scratch as
  the point before left them —; the invariant that carries the scratch from point to point; the proof data; and the body
  obligation. The `o_f` window is written back at column tile 3, where the body stores nothing into it: its buffer still
  holds what column tile 0 stored, which is what the recursion records.
-/
import proofs.«406561_j274877907022_3_alg».proof.Proof.K.Region1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle, and where the `o_f` window is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- At column tile 0 the body stores the `o_f` tile: the window is live. -/
theorem liveAt1_8 : ∀ t : Fin cfg1.N, t.val % 4 = 0 → cfg1.idle 8 (grid1.coords t) = false := by decide +kernel
/-- At the other column tiles it stores nothing into it: the window is idle. -/
theorem idleAt1_8 : ∀ t : Fin cfg1.N, ¬ t.val % 4 = 0 → cfg1.idle 8 (grid1.coords t) = true := by decide +kernel

/-! ## The memrefs the body is called with -/

abbrev ms1_0 (t : Fin cfg1.N) : Memref sig .tc .vmem S1024x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S50x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S50 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x50 .f32 := win1_8.stage (cfg1.slots t 8)
abbrev hs1_8 (t : Fin cfg1.N) : (ms1_8 t).IsWhole := hstage1_8 ((cfg1.slots t 8).cast nbuf1_8)
/-- The scratch that carries `h` over the column tiles of a row tile: a whole scoped buffer of the kernel's own. -/
abbrev scM1 : Memref sig .tc .vmem S1024x256 .bf16 := Memref.whole cc1_scratch0
abbrev VS1 : View sig .tc .vmem S1024x256 .bf16 := scM1.view
/-- One staging buffer of each output window, through which its contents are stated (the choice does not matter). -/
abbrev VO1_7 : View sig .tc .vmem S1024x1024 .f32 := (Memref.whole cc1_stg7_0 : Memref sig .tc .vmem S1024x1024 .f32).view
abbrev VO1_8 : View sig .tc .vmem S1024x50 .f32 := (Memref.whole cc1_stg8_0 : Memref sig .tc .vmem S1024x50 .f32).view

/-- The core's scoped buffers that are neither a staging buffer of this region nor its scratch, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant as the launch hands it over: the other scoped buffers, the scratch at anything, the generator register. -/
theorem PhiA1_split (c : Dev nD) :
    (Pipeline.ΦA spec1 c : sProp 𝕄) ⊢ iprop(others1 (F := F) c ∗ (∃ d, owns (c : Thread nD τ) scM1 fullShare d) ∗ (∃ r, prngReg c r)) := by
  unfold Pipeline.ΦA others1; rw [scopedRest1_eq]
  iintro ⟨⟨H0, H1, H2, H3, H4, H5, H6, H7, H8, H9, ⟨%fs, HS⟩⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]
  · iexists fs; rw [owns_whole]; iexact HS
  iexact Hg

/-- And back: with the scratch at any contents the invariant is the launch's again. -/
theorem PhiA1_join (c : Dev nD) :
    iprop(others1 (F := F) c ∗ (∃ d, owns (c : Thread nD τ) scM1 fullShare d) ∗ (∃ r, prngReg c r)) ⊢ (Pipeline.ΦA spec1 c : sProp 𝕄) := by
  unfold Pipeline.ΦA others1; rw [scopedRest1_eq]; simp only [scM1, owns_whole]
  iintro ⟨⟨H0, H1, H2, H3, H4, H5, H6, H7, H8, H9⟩, ⟨%d, HS⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d; iexact HS

/-! ## What each case's stores cover -/

theorem coverA_7 (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole) (hc0 : cond1_0 i) (hc1 : cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) (y : S1024x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).1 S1024x1024.size (by sl_kernel_rfl) y
theorem coverA_8 (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole) (hc0 : cond1_0 i) (hc1 : cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) (y : S1024x50.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.1 S1024x50.size (by sl_kernel_rfl) y
theorem coverA_S (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole) (hc0 : cond1_0 i) (hc1 : cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) (y : S1024x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S1024x256.size (by sl_kernel_rfl) y
theorem coverB_7 (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole) (hc0 : ¬cond1_0 i) (hc1 : ¬cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) (xs : Vec F S1024x256 .bf16) (y : S1024x1024.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs).1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs).1 S1024x1024.size (by sl_kernel_rfl) y

/-! ## What the outputs and the scratch hold after each point -/

/-- Case A's run at point `t`, on the point's memrefs and input blocks. -/
abbrev runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) ((hcond1_1 t).mpr h0) (iblk1 V c 0 t) (iblk1 V c 1 t) (iblk1 V c 2 t) (iblk1 V c 3 t) (iblk1 V c 4 t) (iblk1 V c 5 t) (iblk1 V c 6 t)
/-- Case B's run at point `t`, the scratch at `xs`. -/
abbrev runB (c : Dev nD) (t : Fin cfg1.N) (h0 : ¬ t.val % 4 = 0) (xs : Vec F S1024x256 .bf16) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h0 ((hcond1_1 t).mp h)) (iblk1 V c 0 t) (iblk1 V c 1 t) (iblk1 V c 2 t) (iblk1 V c 3 t) (iblk1 V c 4 t) (iblk1 V c 5 t) (iblk1 V c 6 t) xs

/-- What case A leaves in the `o_c` buffer, the `o_f` buffer and the scratch: its pieces read back over junk. -/
def outA_7 (c : Dev nD) (t : Fin cfg1.N) (h0 : t.val % 4 = 0) : Vec F S1024x1024 .f32 :=
  VO1_7.read (Elt F) (VO1_7.writes (Elt F) VO1_7.junk (runA V c t h0).1)
def outA_8 (c : Dev nD) (t : Fin cfg1.N) (h0 : t.val % 4 = 0) : Vec F S1024x50 .f32 :=
  VO1_8.read (Elt F) (VO1_8.writes (Elt F) VO1_8.junk (runA V c t h0).2.1)
def soutA (c : Dev nD) (t : Fin cfg1.N) (h0 : t.val % 4 = 0) : Vec F S1024x256 .bf16 :=
  VS1.read (Elt F) (VS1.writes (Elt F) VS1.junk (runA V c t h0).2.2.1)
/-- What case B leaves in the `o_c` buffer. -/
def outB_7 (c : Dev nD) (t : Fin cfg1.N) (h0 : ¬ t.val % 4 = 0) (xs : Vec F S1024x256 .bf16) : Vec F S1024x1024 .f32 :=
  VO1_7.read (Elt F) (VO1_7.writes (Elt F) VO1_7.junk (runB V c t h0 xs).1)

/-- After the body at position `n`: the `o_c` buffer, the `o_f` buffer, the scratch. At column tile 0 what case A leaves; at
    the others the `o_c` tile of case B over the scratch the point before left, and the `o_f` buffer and the scratch as that
    point left them. -/
def outsAt1 (c : Dev nD) : (n : ℕ) → n < cfg1.N → Vec F S1024x1024 .f32 × Vec F S1024x50 .f32 × Vec F S1024x256 .bf16
  | 0, hn => (outA_7 V c ⟨0, hn⟩ (Nat.zero_mod _), outA_8 V c ⟨0, hn⟩ (Nat.zero_mod _), soutA V c ⟨0, hn⟩ (Nat.zero_mod _))
  | n + 1, hn =>
    if h0 : (n + 1) % 4 = 0 then
      (outA_7 V c ⟨n + 1, hn⟩ h0, outA_8 V c ⟨n + 1, hn⟩ h0, soutA V c ⟨n + 1, hn⟩ h0)
    else
      (outB_7 V c ⟨n + 1, hn⟩ h0 (outsAt1 c n (Nat.lt_of_succ_lt hn)).2.2, (outsAt1 c n (Nat.lt_of_succ_lt hn)).2.1, (outsAt1 c n (Nat.lt_of_succ_lt hn)).2.2)

theorem outsAt1_A (c : Dev nD) (t : Fin cfg1.N) (h0 : t.val % 4 = 0) :
    outsAt1 V c t.val t.isLt = (outA_7 V c t h0, outA_8 V c t h0, soutA V c t h0) := by
  obtain ⟨n, hn⟩ := t
  cases n with
  | zero => exact rfl
  | succ n => exact (dif_pos h0).trans rfl

theorem outsAt1_B (c : Dev nD) (t : Fin cfg1.N) (h0 : ¬ t.val % 4 = 0) :
    outsAt1 V c t.val t.isLt = (outB_7 V c t h0 (outsAt1 V c (t.val - 1) (Nat.lt_of_le_of_lt (Nat.sub_le _ _) t.isLt)).2.2,
      (outsAt1 V c (t.val - 1) (Nat.lt_of_le_of_lt (Nat.sub_le _ _) t.isLt)).2.1,
      (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans rfl

/-- The region invariant before position `n`: before the first point the launch's; afterwards the other scoped buffers, the
    scratch at what the point before left in it, and the generator register. -/
def PhiS1 (c : Dev nD) : (n : ℕ) → n ≤ cfg1.N → sProp 𝕄
  | 0, _ => Pipeline.ΦA spec1 c
  | n + 1, hn => iprop(others1 (F := F) c ∗ owns (c : Thread nD τ) scM1 fullShare ((outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 (F := F) c ∗ owns (c : Thread nD τ) scM1 fullShare ((outsAt1 V c n hn).2.2) ∗ (∃ r, prngReg c r)) := rfl
theorem PhiS1_pos (c : Dev nD) (n : ℕ) (h : n ≤ cfg1.N) (hz : n ≠ 0) :
    PhiS1 V c n h = iprop(others1 (F := F) c ∗ owns (c : Thread nD τ) scM1 fullShare ((outsAt1 V c (n - 1) (by omega)).2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Region1

end Cert.Kernel.Hand

end
-- ==== Proof.K.Region1Body.lean ====
/-
  Region 1: the body obligation. At a point with column tile 0 case A's run applies (the outputs' buffers and the scratch at
  anything); at the others case B's (the scratch at what the point before left, the `o_f` buffer handed back as found). At
  column tile 3 the `o_f` window is written back: its buffer holds what the point before left, by induction back to the
  store at column tile 0.
-/
import proofs.«406561_j274877907022_3_alg».proof.Proof.K.Region1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region1Body

variable (V : (c : Dev nD) → (b : Ref sig .tc) → Buf (Elt F) ((c : Thread nD τ).loc b))

/-- The `o_f` window's block is never cut. -/
theorem hclip1_8 : ∀ (i : grid1.Coords) a, (cfg1.win 8).clip i a = none := fun _ _ => rfl

/-- At a point that is not at column tile 0 the `o_f` buffer holds what the point before left in it: after column tile 0
    the tile stored there, afterwards (the window idle, not written back) the same again. -/
theorem before1_8_B (c : Dev nD) (d) : ∀ (n : ℕ) (hn : n < cfg1.N) (h0 : ¬ n % 4 = 0),
    (dat1 V c).before 8 ⟨n, hn⟩ d = (outsAt1 V c (n - 1) (Nat.lt_of_le_of_lt (Nat.sub_le _ _) hn)).2.1 := by
  intro n
  induction n with
  | zero => intro hn h0; exact absurd (Nat.zero_mod _) h0
  | succ n ih =>
    intro hn h0
    have hn' : n < cfg1.N := Nat.lt_of_succ_lt hn
    have hfl : (cfg1.win 8).flush ⟨n, hn'⟩ = false := by
      cases hb : (cfg1.win 8).flush ⟨n, hn'⟩ with
      | false => rfl
      | true => exact absurd ((flush1_8 ⟨n, hn'⟩).mp hb) (by dsimp only; omega)
    rw [(dat1 V c).before_of_pos 8 ⟨n + 1, hn⟩ (Nat.succ_ne_zero n) ((cfg1.win 8).fetch_out rfl _)]
    show (if (cfg1.win 8).flush ⟨n, hn'⟩ = true then d else (dat1 V c).left 8 ⟨n, hn'⟩ d) = (outsAt1 V c n hn').2.1
    rw [hfl, if_neg Bool.false_ne_true]
    unfold Dat.left
    by_cases hp : n % 4 = 0
    · rw [liveAt1_8 ⟨n, hn'⟩ hp]
      dsimp only
      unfold Dat.kept
      rw [Pipeline.fill_of_clip_none 8 _ (hclip1_8 _) d ((dat1 V c).after 8 ⟨n, hn'⟩), Window.fill_cut, after1_8]
    · rw [idleAt1_8 ⟨n, hn'⟩ hp]
      dsimp only
      rw [ih hn' hp, outsAt1_B V c ⟨n, hn'⟩ hp]

theorem before1_8_B' (c : Dev nD) (t : Fin cfg1.N) (h0 : ¬ t.val % 4 = 0) (d) :
    (dat1 V c).before 8 t d = (outsAt1 V c (t.val - 1) (Nat.lt_of_le_of_lt (Nat.sub_le _ _) t.isLt)).2.1 :=
  before1_8_B V c d t.val t.isLt h0

/-- Before any point the invariant holds the other scoped buffers, the scratch at some contents, and the generator register. -/
theorem Phi_pre (c : Dev nD) (t : Fin cfg1.N) :
    (dat1 V c).Φ t.castSucc ⊢ iprop(others1 (F := F) c ∗ (∃ d, owns (c : Thread nD τ) scM1 fullShare d) ∗ (∃ r, prngReg c r)) := by
  rw [PhiS1_castSucc]
  by_cases hz : t.val = 0
  · rw [PhiS1_zero V c _ _ hz]; exact PhiA1_split c
  · rw [PhiS1_pos V c _ _ hz]
    iintro ⟨Ho, HS, Hg⟩
    isplitl [Ho]; · iexact Ho
    isplitl [HS]; · iexists _; iexact HS
    iexact Hg

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t]]
  rw [show (dat1 V c).leavesExact 1 t = owns (c : Thread nD τ) (ms1_1 t) fullShare ((dat1 V c).after 1 t) from by
    unfold Dat.leavesExact; rw [liveAt1_1 t]]
  rw [show (dat1 V c).leavesExact 2 t = owns (c : Thread nD τ) (ms1_2 t) fullShare ((dat1 V c).after 2 t) from by
    unfold Dat.leavesExact; rw [liveAt1_2 t]]
  rw [show (dat1 V c).leavesExact 3 t = owns (c : Thread nD τ) (ms1_3 t) fullShare ((dat1 V c).after 3 t) from by
    unfold Dat.leavesExact; rw [liveAt1_3 t]]
  rw [show (dat1 V c).leavesExact 4 t = owns (c : Thread nD τ) (ms1_4 t) fullShare ((dat1 V c).after 4 t) from by
    unfold Dat.leavesExact; rw [liveAt1_4 t]]
  rw [show (dat1 V c).leavesExact 5 t = owns (c : Thread nD τ) (ms1_5 t) fullShare ((dat1 V c).after 5 t) from by
    unfold Dat.leavesExact; rw [liveAt1_5 t]]
  rw [show (dat1 V c).leavesExact 6 t = owns (c : Thread nD τ) (ms1_6 t) fullShare ((dat1 V c).after 6 t) from by
    unfold Dat.leavesExact; rw [liveAt1_6 t]]
  rw [show (dat1 V c).leavesExact 7 t = owns (c : Thread nD τ) (ms1_7 t) fullShare ((dat1 V c).after 7 t) from by
    unfold Dat.leavesExact; rw [liveAt1_7 t]]
  rw [after1_0, after1_1, after1_2, after1_3, after1_4, after1_5, after1_6, after1_7]
  by_cases h0 : t.val % 4 = 0
  · rw [show (dat1 V c).leavesExact 8 t = owns (c : Thread nD τ) (ms1_8 t) fullShare ((dat1 V c).after 8 t) from by
      unfold Dat.leavesExact; rw [liveAt1_8 t h0], after1_8]
    rw [outsAt1_A V c t h0]
    dsimp only
    unfold outA_7 outA_8 soutA
    have hΦ := Phi_pre V c t
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := hΦ $$ HΦ
    icases HΦ' with ⟨Hoth, ⟨%ds, HS⟩, Hg⟩
    iapply ((runA V c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexists _; iexact HS
    iintro ⟨H0, H1, H2, H3, H4, H5, H6, ⟨%e7, H7⟩, ⟨%e8, H8⟩, ⟨%es, HS⟩⟩
    isplitl [Hoth HS Hg]
    · isplitl [Hoth]; · iexact Hoth
      isplitl [HS]
      · unfold owns; iexists _; isplitr
        swap; · iexact HS
        ipureintro; exact View.read_writes_of_cover _ _ _ _ _ (coverA_S c _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA_7 c _ _ _ _ _ _ _ _ _ _ _ _ _ _ _ _ _ _ _ _ _ _ _ _ _ _ _ _ _ _)
    unfold owns; iexists _; isplitr
    swap; · iexact H8
    ipureintro; exact View.read_writes_of_cover _ _ _ _ _ (coverA_8 c _ _ _ _ _ _ _ _ _ _ _ _ _ _ _ _ _ _ _ _ _ _ _ _ _ _ _ _ _ _)
  · have hz : t.val ≠ 0 := fun h => h0 (by rw [h])
    rw [PhiS1_castSucc V c t, PhiS1_pos V c _ _ hz]
    rw [outsAt1_B V c t h0]
    dsimp only
    unfold outB_7
    by_cases h3 : t.val % 4 = 3
    · rw [show (dat1 V c).leavesExact 8 t = owns (c : Thread nD τ) (ms1_8 t) fullShare ((dat1 V c).after 8 t) from by
        unfold Dat.leavesExact; rw [idleAt1_8 t h0, (flush1_8 t).mpr h3], after1_8, outsAt1_B V c t h0]
      dsimp only
      simp only [before1_8_B' V c t h0]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB V c t h0 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, ⟨%e7, H7⟩, H8, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverB_7 c _ _ _ _ _ _ _ _ _ _ _ _ _ _ _ _ _ _ _ _ _ _ _ _ _ _ _ _ _ _ _)
      iexact H8
    · have hnf : (cfg1.win 8).flush t = false := by
        cases hb : (cfg1.win 8).flush t with
        | false => rfl
        | true => exact absurd ((flush1_8 t).mp hb) h3
      rw [Dat.leavesExact_idle (dat1 V c) 8 t (idleAt1_8 t h0) hnf]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB V c t h0 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, ⟨%e7, H7⟩, H8, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverB_7 c _ _ _ _ _ _ _ _ _ _ _ _ _ _ _ _ _ _ _ _ _ _ _ _ _ _ _ _ _ _ _)
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- With the scratch's named contents forgotten the invariant is the launch's. -/
theorem scratch_forget (c : Dev nD) (x : Vec F S1024x256 .bf16) :
    iprop(others1 (F := F) c ∗ owns (c : Thread nD τ) scM1 fullShare x ∗ (∃ r, prngReg c r)) ⊢ (Pipeline.ΦA spec1 c : sProp 𝕄) := by
  have h : iprop(others1 (F := F) c ∗ owns (c : Thread nD τ) scM1 fullShare x ∗ (∃ r, prngReg c r))
      ⊢ (iprop(others1 (F := F) c ∗ (∃ d, owns (c : Thread nD τ) scM1 fullShare d) ∗ (∃ r, prngReg c r)) : sProp 𝕄) := by
    iintro ⟨Ho, HS, Hg⟩
    isplitl [Ho]; · iexact Ho
    isplitl [HS]; · iexists _; iexact HS
    iexact Hg
  exact h.trans (PhiA1_join c)

/-- After the last point the invariant gives the launch's back. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ hne]
  exact scratch_forget c _

end Region1Body

end Cert.Kernel.Hand

end
-- ==== Proof.K.Run.lean ====
/-
  The launch of the whole program over its four segments: the three host transposes, the host gather of the indexed
  rows (the callee inlined), region 0 and region 1; nothing follows region 1.

  The core's buffer contents at the segment boundaries are a fold from the launch memory: after a host stretch, the
  stretch's operations applied in order; after a region, its windows' arrays at what the pipeline's write-backs leave
  (an input window's array as entered) and every other buffer as entered. No stretch and no region writes an argument
  array, so the fold at an argument walks back to the launch memory: that is the frame claim. Region 1 carries a
  scratch in its invariant, so its invariant at the first and after the last point is not the launch's by definition:
  the two are joined by the region's own entry and exit lemmas.
-/
import proofs.«406561_j274877907022_3_alg».proof.Proof.K.Region0
import proofs.«406561_j274877907022_3_alg».proof.Proof.K.Region1Body
import proofs.«406561_j274877907022_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary: a fold from the launch memory -/

/-- Core `c`'s buffers at launch. -/
abbrev W0 : Dev nD → Valuation τ sig (Elt F) := fun c b => m (c, b)
/-- After the three transposes. -/
abbrev W1 : Dev nD → Valuation τ sig (Elt F) := fun c => StableHlo.after hostOps0 (W0 m c)
/-- After the host gather (region 0's entry). -/
abbrev W2 : Dev nD → Valuation τ sig (Elt F) := fun c => StableHlo.after hostOps0_1 (W1 m c)
/-- The same read at the TensorCore's references (what region 0's proof data take). -/
abbrev V2 : (c : Dev nD) → (b : Ref sig .tc) → Buf (Elt F) ((c : Thread nD τ).loc b) := fun c b => W2 m c b
/-- At region 0's exit (region 1's entry): region 0's arrays at what its pipeline leaves, every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
/-- The same read at the TensorCore's references (what region 1's proof data take). -/
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At region 1's exit (the program's end): region 1's arrays at what its pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What each segment leaves unchanged -/

/-- Region 0 changes one buffer only, its output's array: an input window's array is read, never written back. -/
theorem V3_eq_V2 (c : Dev nD) (b : Ref sig .tc) (hb : b ≠ main_v4) : V3 m c b = V2 m c b := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W3_arr m c w).trans (((dat0 (V2 m) c).arrAt_in w hin _).trans (A_eq0 (V2 m) c w))
  · exact W3_of_ne m c b fun w e => h ⟨w, e⟩

/-- Region 0's output array at region 1's entry: what the pipeline's write-backs leave. -/
theorem V3_main_v4 (c : Dev nD) : V3 m c main_v4 = (dat0 (V2 m) c).arrAt 6 cfg0.N := W3_arr m c 6

/-- A buffer that is no array of region 0's is as region 0 found it. -/
theorem V3_of_ne (c : Dev nD) (b : Ref sig .tc) (hb : ∀ w, Pipeline.arrRef spec0 w ≠ b) : V3 m c b = V2 m c b :=
  W3_of_ne m c b hb

/-- Region 1 changes two buffers only, its outputs' arrays. -/
theorem V4_eq_V3 (c : Dev nD) (b : Ref sig .tc) (hb0 : b ≠ main_v5_0) (hb1 : b ≠ main_v5_1) : V4 m c b = V3 m c b := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => exact absurd rfl hb0
      | ⟨8, _⟩ => exact absurd rfl hb1
    exact (W4_arr m c w).trans (((dat1 (V3 m) c).arrAt_in w hin _).trans (A_eq1 (V3 m) c w))
  · exact W4_of_ne m c b fun w e => h ⟨w, e⟩

/-- The two results at the program's end: what region 1's write-backs leave in its output windows' arrays. -/
theorem W4_out0 (c : Dev nD) : W4 m c (Proc.devRef .tc main_v5_0) = (dat1 (V3 m) c).arrAt 7 cfg1.N := W4_arr m c 7
theorem W4_out1 (c : Dev nD) : W4 m c (Proc.devRef .tc main_v5_1) = (dat1 (V3 m) c).arrAt 8 cfg1.N := W4_arr m c 8

/-- A buffer that no host stretch writes and that is no output array of a region ends as launched. -/
theorem W4_of_unwritten (c : Dev nD) (b : Ref sig .tc) (h0 : b ∉ hostOps0_W) (h1 : b ∉ hostOps0_1_W) (h2 : b ≠ main_v4)
    (h3 : b ≠ main_v5_0) (h4 : b ≠ main_v5_1) : W4 m c (Proc.devRef .tc b) = m ((c : Thread nD τ).loc b) :=
  calc W4 m c (Proc.devRef .tc b)
    _ = W3 m c (Proc.devRef .tc b) := V4_eq_V3 m c b h3 h4
    _ = W2 m c (Proc.devRef .tc b) := V3_eq_V2 m c b h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

/-! ### The arguments end as launched -/

theorem W4_main_arg0 (c : Dev nD) : W4 m c (Proc.devRef .tc main_arg0) = m ((c : Thread nD τ).loc main_arg0) :=
  W4_of_unwritten m c main_arg0 (by decide) (by decide) (by decide) (by decide) (by decide)
theorem W4_main_arg1 (c : Dev nD) : W4 m c (Proc.devRef .tc main_arg1) = m ((c : Thread nD τ).loc main_arg1) :=
  W4_of_unwritten m c main_arg1 (by decide) (by decide) (by decide) (by decide) (by decide)
theorem W4_main_arg2 (c : Dev nD) : W4 m c (Proc.devRef .tc main_arg2) = m ((c : Thread nD τ).loc main_arg2) :=
  W4_of_unwritten m c main_arg2 (by decide) (by decide) (by decide) (by decide) (by decide)
theorem W4_main_arg3 (c : Dev nD) : W4 m c (Proc.devRef .tc main_arg3) = m ((c : Thread nD τ).loc main_arg3) :=
  W4_of_unwritten m c main_arg3 (by decide) (by decide) (by decide) (by decide) (by decide)
theorem W4_main_arg4 (c : Dev nD) : W4 m c (Proc.devRef .tc main_arg4) = m ((c : Thread nD τ).loc main_arg4) :=
  W4_of_unwritten m c main_arg4 (by decide) (by decide) (by decide) (by decide) (by decide)
theorem W4_main_arg5 (c : Dev nD) : W4 m c (Proc.devRef .tc main_arg5) = m ((c : Thread nD τ).loc main_arg5) :=
  W4_of_unwritten m c main_arg5 (by decide) (by decide) (by decide) (by decide) (by decide)
theorem W4_main_arg6 (c : Dev nD) : W4 m c (Proc.devRef .tc main_arg6) = m ((c : Thread nD τ).loc main_arg6) :=
  W4_of_unwritten m c main_arg6 (by decide) (by decide) (by decide) (by decide) (by decide)
theorem W4_main_arg7 (c : Dev nD) : W4 m c (Proc.devRef .tc main_arg7) = m ((c : Thread nD τ).loc main_arg7) :=
  W4_of_unwritten m c main_arg7 (by decide) (by decide) (by decide) (by decide) (by decide)
theorem W4_main_arg8 (c : Dev nD) : W4 m c (Proc.devRef .tc main_arg8) = m ((c : Thread nD τ).loc main_arg8) :=
  W4_of_unwritten m c main_arg8 (by decide) (by decide) (by decide) (by decide) (by decide)
theorem W4_main_arg9 (c : Dev nD) : W4 m c (Proc.devRef .tc main_arg9) = m ((c : Thread nD τ).loc main_arg9) :=
  W4_of_unwritten m c main_arg9 (by decide) (by decide) (by decide) (by decide) (by decide)
theorem W4_main_arg10 (c : Dev nD) : W4 m c (Proc.devRef .tc main_arg10) = m ((c : Thread nD τ).loc main_arg10) :=
  W4_of_unwritten m c main_arg10 (by decide) (by decide) (by decide) (by decide) (by decide)
theorem W4_main_arg11 (c : Dev nD) : W4 m c (Proc.devRef .tc main_arg11) = m ((c : Thread nD τ).loc main_arg11) :=
  W4_of_unwritten m c main_arg11 (by decide) (by decide) (by decide) (by decide) (by decide)
theorem W4_main_arg12 (c : Dev nD) : W4 m c (Proc.devRef .tc main_arg12) = m ((c : Thread nD τ).loc main_arg12) :=
  W4_of_unwritten m c main_arg12 (by decide) (by decide) (by decide) (by decide) (by decide)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator register. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W2`, left at `W3`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · icases Howes with ⟨%W, Howes⟩
      iexists W; isplitr; · ipureintro; exact fun _ _ => Or.inl trivial
      iexact Howes
    isplitl [Hgen]; · iexact Hgen
    iexact Hrest
  hin c := by
    show _ ⊢ (Pipeline.ΦA spec0 c : sProp 𝕄)
    unfold Pipeline.ΦA
    iintro ⟨Hgen, -, Hscoped⟩
    isplitl [Hscoped]; · iexact Hscoped
    iexact Hgen
  hout c := by
    rw [Pipeline.ownSems0_none]
    show (Pipeline.ΦA spec0 c : sProp 𝕄) ⊢ _
    unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    icases Howes with ⟨%W, -, Howes⟩; iexists W; iexact Howes

set_option backward.isDefEq.respectTransparency.types false in
/-- Region 1 over the thread state: entered from every unscoped buffer at `W3`, left at `W4`, the core owing nothing.
    Its invariant holds the carried scratch at named contents between the points; at the first point and after the last
    it is the launch's invariant, by the region's entry and exit lemmas. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · icases Howes with ⟨%W, Howes⟩
      iexists W; isplitr; · ipureintro; exact fun _ _ => Or.inl trivial
      iexact Howes
    isplitl [Hgen]; · iexact Hgen
    iexact Hrest
  hin c := by
    have hlaunch : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hgen, -, Hscoped⟩
      isplitl [Hscoped]; · iexact Hscoped
      iexact Hgen
    exact hlaunch.trans (hin1 (V3 m) c)
  hout c := by
    rw [Pipeline.ownSems0_none]
    have hlaunch : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hscoped, Hgen⟩
      isplitl [Hgen]; · iexact Hgen
      isplitr; · iempintro
      iexact Hscoped
    exact (hout1 (V3 m) c).trans hlaunch
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Harr, Howes, Hgen, Hrest⟩
    imodintro
    isplitl [Harr Hrest Hgen]
    · isplitl [Harr Hrest]
      · iapply hjoin; isplitl [Harr] <;> iassumption
      iexact Hgen
    icases Howes with ⟨%W, -, Howes⟩; iexists W; iexact Howes

/-! ## The program as segments, and the launch -/

/-- The four segments in order: the two host stretches, each from its boundary's contents, and the two regions. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m) ]

/-- The program is the run of its segments. -/
theorem main_run (c : Dev nD) : main (F := F) c = Pipeline.Seg.run (segs m) := by
  rw [main_chain c, Pipeline.Seg.run_eq_chain]
  rfl

set_option backward.isDefEq.respectTransparency.types false in
/-- THE RUN: from any memory with zero counters every weakly fair execution of the program terminates, nothing
    faulting, and every final state has each unscoped buffer of every core at the last boundary's contents `W4`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h => h)

/-- THE FRAME: every argument array ends as launched, each read off the last boundary's contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c),
      (h c _ (mem_uc main_arg10 (by decide))).trans (W4_main_arg10 m c),
      (h c _ (mem_uc main_arg11 (by decide))).trans (W4_main_arg11 m c),
      (h c _ (mem_uc main_arg12 (by decide))).trans (W4_main_arg12 m c)⟩) (run_all m ρ)

end Cert.Kernel.Hand

end
-- ==== Proof.KI.Region0.lean ====
/-
  Region 0 (the fused LinTrans / E-projection kernel, a grid of 4 row tiles), at the contents `V` the core's buffers hold
  when the region is entered: each window's block at a point, what the body leaves in the output's staging buffer
  (its one store of the payload of the six loaded blocks), the body's triple, the proof data and the body obligation.
-/
import proofs.«406561_j274877907022_3_alg».proof.Proof.Gen.KernelIdeal.Launch
import proofs.«406561_j274877907022_3_alg».proof.Proof.Gen.KernelIdeal.Skeleton
import proofs.«406561_j274877907022_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole staging buffer -/

abbrev r0_0 : Rect S1024x768 := Rect.unit (s := S1024x768) ![0, 0] S1024x768.size inb_S1024x768_S1024x768_0_0
abbrev r0_1 : Rect S768x768 := Rect.unit (s := S768x768) ![0, 0] S768x768.size inb_S768x768_S768x768_0_0
abbrev r0_2 : Rect S768 := Rect.unit (s := S768) ![0] S768.size inb_S768_S768_0
abbrev r0_3 : Rect S768x256 := Rect.unit (s := S768x256) ![0, 0] S768x256.size inb_S768x256_S768x256_0_0
abbrev r0_4 : Rect S256 := Rect.unit (s := S256) ![0] S256.size inb_S256_S256_0
abbrev r0_5 : Rect S1024x256 := Rect.unit (s := S1024x256) ![0, 0] S1024x256.size inb_S1024x256_S1024x256_0_0
abbrev r0_6 : Rect S1024x256 := Rect.unit (s := S1024x256) ![0, 0] S1024x256.size inb_S1024x256_S1024x256_0_0

/-- The output's staging buffer after the body, from the input windows' blocks: its one store, of the payload. -/
def out0_6 (x0 : Vec F S1024x768 .f32) (x1 : Vec F S768x768 .f32) (x2 : Vec F S768 .f32) (x3 : Vec F S768x256 .f32) (x4 : Vec F S256 .f32) (x5 : Vec F S1024x256 .f32) : Vec F S1024x256 .bf16 :=
  View.canon [⟨r0_6, k0_pay1 (View.ld x0 r0_0) (View.ld x1 r0_1) (View.ld x2 r0_2) (View.ld x3 r0_3) (View.ld x4 r0_4) (View.ld x5 r0_5)⟩]

/-- The store takes the whole buffer, so it covers it. -/
theorem cover0_6 (p0 : Vec F S1024x256 .bf16) (y : S1024x256.Idx) :
    ∃ pc ∈ ([⟨r0_6, p0⟩] : List (View.Piece (Elt F) S1024x256 .bf16)), y ∈ pc.1.set :=
  View.cover_of_tiled [⟨r0_6, p0⟩] S1024x256.size (by rfl) y

set_option maxHeartbeats 1000000 in
/-- The kernel body on whole staging memrefs, the inputs' at contents `xW` and the output's at anything, runs to the
    continuation holding the inputs' as they were and the output's at `out0_6` of the inputs'. -/
theorem sound_kernel0 (c : Dev nD) (E : Set ℕ) (i : grid0.Coords)
    (arg1 : Memref sig .tc .vmem S1024x768 .f32) (harg1 : arg1.IsWhole) (arg2 : Memref sig .tc .vmem S768x768 .f32) (harg2 : arg2.IsWhole)
    (arg3 : Memref sig .tc .vmem S768 .f32) (harg3 : arg3.IsWhole) (arg4 : Memref sig .tc .vmem S768x256 .f32) (harg4 : arg4.IsWhole)
    (arg5 : Memref sig .tc .vmem S256 .f32) (harg5 : arg5.IsWhole) (arg6 : Memref sig .tc .vmem S1024x256 .f32) (harg6 : arg6.IsWhole)
    (arg7 : Memref sig .tc .vmem S1024x256 .bf16) (harg7 : arg7.IsWhole)
    (x0 : Vec F S1024x768 .f32) (x1 : Vec F S768x768 .f32) (x2 : Vec F S768 .f32) (x3 : Vec F S768x256 .f32) (x4 : Vec F S256 .f32) (x5 : Vec F S1024x256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__fused_age_e_kernel i arg1 harg1 arg2 harg2 arg3 harg3 arg4 harg4 arg5 harg5 arg6 harg6 arg7 harg7) K := by
  simp only [cc0__fused_age_e_kernel_eq_skeleton]; unfold cc0__fused_age_e_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover0_6 _)

/-! ## The pipeline's proof data -/

/-- The proof data of pipeline 0 on core `c`: the arrays as the region finds them; after the body at point `t` each
    input's buffer at its block and the output's at `out0_6` of the input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so the body's triple applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Region1Runs.lean ====
/-
  Region 1 (the main kernel, a grid of 8 row tiles by 4 column tiles, the column axis innermost): the body's two cases.
  At a point with column tile 0 (case A) both branches are taken: the body computes the row tile's `h` into the scratch, stores the
  `o_c` tile from it, and stores the `o_f` tile. At the other points (case B) neither is: the body reads `h` back from the
  scratch, stores the `o_c` tile, and leaves the `o_f` buffer and the scratch as it found them.
-/
import proofs.«406561_j274877907022_3_alg».proof.Proof.Gen.KernelIdeal.Launch
import proofs.«406561_j274877907022_3_alg».proof.Proof.Gen.KernelIdeal.Skeleton
import proofs.«406561_j274877907022_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## The body's branch conditions -/

/-- The condition of the first branch (compute `h`), from the grid coordinates. -/
abbrev cond1_0 (i : grid1.Coords) : Prop := (Scalar.cmpi .ne (Scalar.extui (Scalar.cmpi .eq (BitVec.ofNat 32 (i 1).val) 0#32)) 0#32) = 1#1
/-- It holds at the points with column tile 0. -/
theorem hcond1_0 : ∀ t : Fin cfg1.N, cond1_0 (grid1.coords t) ↔ t.val % 4 = 0 :=
  (by decide +kernel : ∀ t : Fin grid1.N, cond1_0 (grid1.coords t) ↔ t.val % 4 = 0)
/-- The condition of the second branch (store `o_f`). -/
abbrev cond1_1 (i : grid1.Coords) : Prop := k1_cond2 i = 1#1
theorem hcond1_1 : ∀ t : Fin cfg1.N, cond1_1 (grid1.coords t) ↔ t.val % 4 = 0 :=
  (by decide +kernel : ∀ t : Fin grid1.N, cond1_1 (grid1.coords t) ↔ t.val % 4 = 0)

set_option maxHeartbeats 2000000 in
/-- CASE A. On whole staging memrefs — the inputs' at contents `xW`, the outputs' and the scratch at anything — the body runs to
    the continuation holding the inputs' as they were and the two outputs' buffers and the scratch with their pieces written. -/
noncomputable def kernelRun1_A (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole)
    (hc0 : cond1_0 i) (hc1 : cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) :
    Σ' (L7 : List (View.Piece (Elt F) S1024x1024 .f32)) (L8 : List (View.Piece (Elt F) S1024x50 .f32)), { LS : List (View.Piece (Elt F) S1024x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact HS

set_option maxHeartbeats 2000000 in
/-- CASE B. The inputs' memrefs at contents `xW`, the `o_f` buffer at contents `xi8` handed back untouched, the scratch at the contents
    `xs` the point before left and handed back untouched, the `o_c` buffer at anything: the body runs to the continuation holding
    the `o_c` buffer with its pieces written. -/
noncomputable def kernelRun1_B (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole)
    (hc0 : ¬cond1_0 i) (hc1 : ¬cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) (xs : Vec F S1024x256 .bf16) :
    { L7 : List (View.Piece (Elt F) S1024x1024 .f32) //
      ∀ (xi8 : Vec F S1024x50 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7) ∗ owns (c : Thread nD τ) arg10 fullShare xi8 ∗ owns (c : Thread nD τ) arg11 fullShare xs) -∗ K ⟨⟩))
          ⊢ wp frame (wpE (defs₀ (F := F)) Variants.none c none) E (cc1__main_kernel i arg2 harg2 arg3 harg3 arg4 harg4 arg5 harg5 arg6 harg6 arg7 harg7 arg8 harg8 arg9 harg9 arg10 harg10 arg11 harg11) K } := by
  refine ⟨?_, fun xi8 E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5; obtain rfl := harg8.eq_unread hf6
    obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact HS

end Cert.KernelIdeal.Hand

end
-- ==== Proof.KI.Region1.lean ====
/-
  Region 1 (the main kernel) at the contents `V` the core's buffers hold when the region is entered: each window's block at a
  point; what the two output buffers and the scratch hold after each point, by recursion on the point — at a point with
  column tile 0 what case A's stores leave, at the others the `o_c` tile case B stores, the `o_f` buffer and the scratch as
  the point before left them —; the invariant that carries the scratch from point to point; the proof data; and the body
  obligation. The `o_f` window is written back at column tile 3, where the body stores nothing into it: its buffer still
  holds what column tile 0 stored, which is what the recursion records.
-/
import proofs.«406561_j274877907022_3_alg».proof.Proof.KI.Region1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle, and where the `o_f` window is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem liveAt1_7 : ∀ t : Fin cfg1.N, cfg1.idle 7 (grid1.coords t) = false := by decide +kernel
/-- At column tile 0 the body stores the `o_f` tile: the window is live. -/
theorem liveAt1_8 : ∀ t : Fin cfg1.N, t.val % 4 = 0 → cfg1.idle 8 (grid1.coords t) = false := by decide +kernel
/-- At the other column tiles it stores nothing into it: the window is idle. -/
theorem idleAt1_8 : ∀ t : Fin cfg1.N, ¬ t.val % 4 = 0 → cfg1.idle 8 (grid1.coords t) = true := by decide +kernel

/-! ## The memrefs the body is called with -/

abbrev ms1_0 (t : Fin cfg1.N) : Memref sig .tc .vmem S1024x768 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S768x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S50x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S50 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x1024 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x50 .f32 := win1_8.stage (cfg1.slots t 8)
abbrev hs1_8 (t : Fin cfg1.N) : (ms1_8 t).IsWhole := hstage1_8 ((cfg1.slots t 8).cast nbuf1_8)
/-- The scratch that carries `h` over the column tiles of a row tile: a whole scoped buffer of the kernel's own. -/
abbrev scM1 : Memref sig .tc .vmem S1024x256 .bf16 := Memref.whole cc1_scratch0
abbrev VS1 : View sig .tc .vmem S1024x256 .bf16 := scM1.view
/-- One staging buffer of each output window, through which its contents are stated (the choice does not matter). -/
abbrev VO1_7 : View sig .tc .vmem S1024x1024 .f32 := (Memref.whole cc1_stg7_0 : Memref sig .tc .vmem S1024x1024 .f32).view
abbrev VO1_8 : View sig .tc .vmem S1024x50 .f32 := (Memref.whole cc1_stg8_0 : Memref sig .tc .vmem S1024x50 .f32).view

/-- The core's scoped buffers that are neither a staging buffer of this region nor its scratch, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The region's invariant as the launch hands it over: the other scoped buffers, the scratch at anything, the generator register. -/
theorem PhiA1_split (c : Dev nD) :
    (Pipeline.ΦA spec1 c : sProp 𝕄) ⊢ iprop(others1 (F := F) c ∗ (∃ d, owns (c : Thread nD τ) scM1 fullShare d) ∗ (∃ r, prngReg c r)) := by
  unfold Pipeline.ΦA others1; rw [scopedRest1_eq]
  iintro ⟨⟨H0, H1, H2, H3, H4, H5, H6, H7, H8, H9, ⟨%fs, HS⟩⟩, Hg⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [HS]
  · iexists fs; rw [owns_whole]; iexact HS
  iexact Hg

/-- And back: with the scratch at any contents the invariant is the launch's again. -/
theorem PhiA1_join (c : Dev nD) :
    iprop(others1 (F := F) c ∗ (∃ d, owns (c : Thread nD τ) scM1 fullShare d) ∗ (∃ r, prngReg c r)) ⊢ (Pipeline.ΦA spec1 c : sProp 𝕄) := by
  unfold Pipeline.ΦA others1; rw [scopedRest1_eq]; simp only [scM1, owns_whole]
  iintro ⟨⟨H0, H1, H2, H3, H4, H5, H6, H7, H8, H9⟩, ⟨%d, HS⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists d; iexact HS

/-! ## What each case's stores cover -/

theorem coverA_7 (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole) (hc0 : cond1_0 i) (hc1 : cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) (y : S1024x1024.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).1 S1024x1024.size (by sl_kernel_rfl) y
theorem coverA_8 (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole) (hc0 : cond1_0 i) (hc1 : cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) (y : S1024x50.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.1 S1024x50.size (by sl_kernel_rfl) y
theorem coverA_S (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole) (hc0 : cond1_0 i) (hc1 : cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) (y : S1024x256.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6).2.2.1 S1024x256.size (by sl_kernel_rfl) y
theorem coverB_7 (c : Dev nD) (i : grid1.Coords) (arg2 : Memref sig .tc .vmem S1024x768 .f32) (harg2 : arg2.IsWhole) (arg3 : Memref sig .tc .vmem S768x256 .f32) (harg3 : arg3.IsWhole) (arg4 : Memref sig .tc .vmem S256 .f32) (harg4 : arg4.IsWhole) (arg5 : Memref sig .tc .vmem S4096x256 .bf16) (harg5 : arg5.IsWhole) (arg6 : Memref sig .tc .vmem S1024 .f32) (harg6 : arg6.IsWhole) (arg7 : Memref sig .tc .vmem S50x256 .f32) (harg7 : arg7.IsWhole) (arg8 : Memref sig .tc .vmem S50 .f32) (harg8 : arg8.IsWhole) (arg9 : Memref sig .tc .vmem S1024x1024 .f32) (harg9 : arg9.IsWhole) (arg10 : Memref sig .tc .vmem S1024x50 .f32) (harg10 : arg10.IsWhole) (arg11 : Memref sig .tc .vmem S1024x256 .bf16) (harg11 : arg11.IsWhole) (hc0 : ¬cond1_0 i) (hc1 : ¬cond1_1 i) (x0 : Vec F S1024x768 .f32) (x1 : Vec F S768x256 .f32) (x2 : Vec F S256 .f32) (x3 : Vec F S4096x256 .bf16) (x4 : Vec F S1024 .f32) (x5 : Vec F S50x256 .f32) (x6 : Vec F S50 .f32) (xs : Vec F S1024x256 .bf16) (y : S1024x1024.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 xs).1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 xs).1 S1024x1024.size (by sl_kernel_rfl) y

/-! ## What the outputs and the scratch hold after each point -/

/-- Case A's run at point `t`, on the point's memrefs and input blocks. -/
abbrev runA (c : Dev nD) (t : Fin cfg1.N) (h0 : t.val % 4 = 0) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((hcond1_0 t).mpr h0) ((hcond1_1 t).mpr h0) (iblk1 V c 0 t) (iblk1 V c 1 t) (iblk1 V c 2 t) (iblk1 V c 3 t) (iblk1 V c 4 t) (iblk1 V c 5 t) (iblk1 V c 6 t)
/-- Case B's run at point `t`, the scratch at `xs`. -/
abbrev runB (c : Dev nD) (t : Fin cfg1.N) (h0 : ¬ t.val % 4 = 0) (xs : Vec F S1024x256 .bf16) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((hcond1_0 t).mp h)) (fun h => h0 ((hcond1_1 t).mp h)) (iblk1 V c 0 t) (iblk1 V c 1 t) (iblk1 V c 2 t) (iblk1 V c 3 t) (iblk1 V c 4 t) (iblk1 V c 5 t) (iblk1 V c 6 t) xs

/-- What case A leaves in the `o_c` buffer, the `o_f` buffer and the scratch: its pieces read back over junk. -/
def outA_7 (c : Dev nD) (t : Fin cfg1.N) (h0 : t.val % 4 = 0) : Vec F S1024x1024 .f32 :=
  VO1_7.read (Elt F) (VO1_7.writes (Elt F) VO1_7.junk (runA V c t h0).1)
def outA_8 (c : Dev nD) (t : Fin cfg1.N) (h0 : t.val % 4 = 0) : Vec F S1024x50 .f32 :=
  VO1_8.read (Elt F) (VO1_8.writes (Elt F) VO1_8.junk (runA V c t h0).2.1)
def soutA (c : Dev nD) (t : Fin cfg1.N) (h0 : t.val % 4 = 0) : Vec F S1024x256 .bf16 :=
  VS1.read (Elt F) (VS1.writes (Elt F) VS1.junk (runA V c t h0).2.2.1)
/-- What case B leaves in the `o_c` buffer. -/
def outB_7 (c : Dev nD) (t : Fin cfg1.N) (h0 : ¬ t.val % 4 = 0) (xs : Vec F S1024x256 .bf16) : Vec F S1024x1024 .f32 :=
  VO1_7.read (Elt F) (VO1_7.writes (Elt F) VO1_7.junk (runB V c t h0 xs).1)

/-- After the body at position `n`: the `o_c` buffer, the `o_f` buffer, the scratch. At column tile 0 what case A leaves; at
    the others the `o_c` tile of case B over the scratch the point before left, and the `o_f` buffer and the scratch as that
    point left them. -/
def outsAt1 (c : Dev nD) : (n : ℕ) → n < cfg1.N → Vec F S1024x1024 .f32 × Vec F S1024x50 .f32 × Vec F S1024x256 .bf16
  | 0, hn => (outA_7 V c ⟨0, hn⟩ (Nat.zero_mod _), outA_8 V c ⟨0, hn⟩ (Nat.zero_mod _), soutA V c ⟨0, hn⟩ (Nat.zero_mod _))
  | n + 1, hn =>
    if h0 : (n + 1) % 4 = 0 then
      (outA_7 V c ⟨n + 1, hn⟩ h0, outA_8 V c ⟨n + 1, hn⟩ h0, soutA V c ⟨n + 1, hn⟩ h0)
    else
      (outB_7 V c ⟨n + 1, hn⟩ h0 (outsAt1 c n (Nat.lt_of_succ_lt hn)).2.2, (outsAt1 c n (Nat.lt_of_succ_lt hn)).2.1, (outsAt1 c n (Nat.lt_of_succ_lt hn)).2.2)

theorem outsAt1_A (c : Dev nD) (t : Fin cfg1.N) (h0 : t.val % 4 = 0) :
    outsAt1 V c t.val t.isLt = (outA_7 V c t h0, outA_8 V c t h0, soutA V c t h0) := by
  obtain ⟨n, hn⟩ := t
  cases n with
  | zero => exact rfl
  | succ n => exact (dif_pos h0).trans rfl

theorem outsAt1_B (c : Dev nD) (t : Fin cfg1.N) (h0 : ¬ t.val % 4 = 0) :
    outsAt1 V c t.val t.isLt = (outB_7 V c t h0 (outsAt1 V c (t.val - 1) (Nat.lt_of_le_of_lt (Nat.sub_le _ _) t.isLt)).2.2,
      (outsAt1 V c (t.val - 1) (Nat.lt_of_le_of_lt (Nat.sub_le _ _) t.isLt)).2.1,
      (outsAt1 V c (t.val - 1) (Nat.lt_of_le_of_lt (Nat.sub_le _ _) t.isLt)).2.2) := by
  obtain ⟨n, hn⟩ := t
  cases n with
  | zero => exact absurd (Nat.zero_mod _) h0
  | succ n => exact (dif_neg h0).trans rfl

/-- The region invariant before position `n`: before the first point the launch's; afterwards the other scoped buffers, the
    scratch at what the point before left in it, and the generator register. -/
def PhiS1 (c : Dev nD) : (n : ℕ) → n ≤ cfg1.N → sProp 𝕄
  | 0, _ => Pipeline.ΦA spec1 c
  | n + 1, hn => iprop(others1 (F := F) c ∗ owns (c : Thread nD τ) scM1 fullShare ((outsAt1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(others1 (F := F) c ∗ owns (c : Thread nD τ) scM1 fullShare ((outsAt1 V c n hn).2.2) ∗ (∃ r, prngReg c r)) := rfl
theorem PhiS1_pos (c : Dev nD) (n : ℕ) (h : n ≤ cfg1.N) (hz : n ≠ 0) :
    PhiS1 V c n h = iprop(others1 (F := F) c ∗ owns (c : Thread nD τ) scM1 fullShare ((outsAt1 V c (n - 1) (by omega)).2.2) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
    | ⟨8, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]
theorem after1_8 (c : Dev nD) (t : Fin cfg1.N) : (dat1 V c).after 8 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Region1

end Cert.KernelIdeal.Hand

end
-- ==== Proof.KI.Region1Body.lean ====
/-
  Region 1: the body obligation. At a point with column tile 0 case A's run applies (the outputs' buffers and the scratch at
  anything); at the others case B's (the scratch at what the point before left, the `o_f` buffer handed back as found). At
  column tile 3 the `o_f` window is written back: its buffer holds what the point before left, by induction back to the
  store at column tile 0.
-/
import proofs.«406561_j274877907022_3_alg».proof.Proof.KI.Region1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Region1Body

variable (V : (c : Dev nD) → (b : Ref sig .tc) → Buf (Elt F) ((c : Thread nD τ).loc b))

/-- The `o_f` window's block is never cut. -/
theorem hclip1_8 : ∀ (i : grid1.Coords) a, (cfg1.win 8).clip i a = none := fun _ _ => rfl

/-- At a point that is not at column tile 0 the `o_f` buffer holds what the point before left in it: after column tile 0
    the tile stored there, afterwards (the window idle, not written back) the same again. -/
theorem before1_8_B (c : Dev nD) (d) : ∀ (n : ℕ) (hn : n < cfg1.N) (h0 : ¬ n % 4 = 0),
    (dat1 V c).before 8 ⟨n, hn⟩ d = (outsAt1 V c (n - 1) (Nat.lt_of_le_of_lt (Nat.sub_le _ _) hn)).2.1 := by
  intro n
  induction n with
  | zero => intro hn h0; exact absurd (Nat.zero_mod _) h0
  | succ n ih =>
    intro hn h0
    have hn' : n < cfg1.N := Nat.lt_of_succ_lt hn
    have hfl : (cfg1.win 8).flush ⟨n, hn'⟩ = false := by
      cases hb : (cfg1.win 8).flush ⟨n, hn'⟩ with
      | false => rfl
      | true => exact absurd ((flush1_8 ⟨n, hn'⟩).mp hb) (by dsimp only; omega)
    rw [(dat1 V c).before_of_pos 8 ⟨n + 1, hn⟩ (Nat.succ_ne_zero n) ((cfg1.win 8).fetch_out rfl _)]
    show (if (cfg1.win 8).flush ⟨n, hn'⟩ = true then d else (dat1 V c).left 8 ⟨n, hn'⟩ d) = (outsAt1 V c n hn').2.1
    rw [hfl, if_neg Bool.false_ne_true]
    unfold Dat.left
    by_cases hp : n % 4 = 0
    · rw [liveAt1_8 ⟨n, hn'⟩ hp]
      dsimp only
      unfold Dat.kept
      rw [Pipeline.fill_of_clip_none 8 _ (hclip1_8 _) d ((dat1 V c).after 8 ⟨n, hn'⟩), Window.fill_cut, after1_8]
    · rw [idleAt1_8 ⟨n, hn'⟩ hp]
      dsimp only
      rw [ih hn' hp, outsAt1_B V c ⟨n, hn'⟩ hp]

theorem before1_8_B' (c : Dev nD) (t : Fin cfg1.N) (h0 : ¬ t.val % 4 = 0) (d) :
    (dat1 V c).before 8 t d = (outsAt1 V c (t.val - 1) (Nat.lt_of_le_of_lt (Nat.sub_le _ _) t.isLt)).2.1 :=
  before1_8_B V c d t.val t.isLt h0

/-- Before any point the invariant holds the other scoped buffers, the scratch at some contents, and the generator register. -/
theorem Phi_pre (c : Dev nD) (t : Fin cfg1.N) :
    (dat1 V c).Φ t.castSucc ⊢ iprop(others1 (F := F) c ∗ (∃ d, owns (c : Thread nD τ) scM1 fullShare d) ∗ (∃ r, prngReg c r)) := by
  rw [PhiS1_castSucc]
  by_cases hz : t.val = 0
  · rw [PhiS1_zero V c _ _ hz]; exact PhiA1_split c
  · rw [PhiS1_pos V c _ _ hz]
    iintro ⟨Ho, HS, Hg⟩
    isplitl [Ho]; · iexact Ho
    isplitl [HS]; · iexists _; iexact HS
    iexact Hg

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t]]
  rw [show (dat1 V c).leavesExact 1 t = owns (c : Thread nD τ) (ms1_1 t) fullShare ((dat1 V c).after 1 t) from by
    unfold Dat.leavesExact; rw [liveAt1_1 t]]
  rw [show (dat1 V c).leavesExact 2 t = owns (c : Thread nD τ) (ms1_2 t) fullShare ((dat1 V c).after 2 t) from by
    unfold Dat.leavesExact; rw [liveAt1_2 t]]
  rw [show (dat1 V c).leavesExact 3 t = owns (c : Thread nD τ) (ms1_3 t) fullShare ((dat1 V c).after 3 t) from by
    unfold Dat.leavesExact; rw [liveAt1_3 t]]
  rw [show (dat1 V c).leavesExact 4 t = owns (c : Thread nD τ) (ms1_4 t) fullShare ((dat1 V c).after 4 t) from by
    unfold Dat.leavesExact; rw [liveAt1_4 t]]
  rw [show (dat1 V c).leavesExact 5 t = owns (c : Thread nD τ) (ms1_5 t) fullShare ((dat1 V c).after 5 t) from by
    unfold Dat.leavesExact; rw [liveAt1_5 t]]
  rw [show (dat1 V c).leavesExact 6 t = owns (c : Thread nD τ) (ms1_6 t) fullShare ((dat1 V c).after 6 t) from by
    unfold Dat.leavesExact; rw [liveAt1_6 t]]
  rw [show (dat1 V c).leavesExact 7 t = owns (c : Thread nD τ) (ms1_7 t) fullShare ((dat1 V c).after 7 t) from by
    unfold Dat.leavesExact; rw [liveAt1_7 t]]
  rw [after1_0, after1_1, after1_2, after1_3, after1_4, after1_5, after1_6, after1_7]
  by_cases h0 : t.val % 4 = 0
  · rw [show (dat1 V c).leavesExact 8 t = owns (c : Thread nD τ) (ms1_8 t) fullShare ((dat1 V c).after 8 t) from by
      unfold Dat.leavesExact; rw [liveAt1_8 t h0], after1_8]
    rw [outsAt1_A V c t h0]
    dsimp only
    unfold outA_7 outA_8 soutA
    have hΦ := Phi_pre V c t
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := hΦ $$ HΦ
    icases HΦ' with ⟨Hoth, ⟨%ds, HS⟩, Hg⟩
    iapply ((runA V c t h0).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexists _; iexact HS
    iintro ⟨H0, H1, H2, H3, H4, H5, H6, ⟨%e7, H7⟩, ⟨%e8, H8⟩, ⟨%es, HS⟩⟩
    isplitl [Hoth HS Hg]
    · isplitl [Hoth]; · iexact Hoth
      isplitl [HS]
      · unfold owns; iexists _; isplitr
        swap; · iexact HS
        ipureintro; exact View.read_writes_of_cover _ _ _ _ _ (coverA_S c _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (coverA_7 c _ _ _ _ _ _ _ _ _ _ _ _ _ _ _ _ _ _ _ _ _ _ _ _ _ _ _ _ _ _)
    unfold owns; iexists _; isplitr
    swap; · iexact H8
    ipureintro; exact View.read_writes_of_cover _ _ _ _ _ (coverA_8 c _ _ _ _ _ _ _ _ _ _ _ _ _ _ _ _ _ _ _ _ _ _ _ _ _ _ _ _ _ _)
  · have hz : t.val ≠ 0 := fun h => h0 (by rw [h])
    rw [PhiS1_castSucc V c t, PhiS1_pos V c _ _ hz]
    rw [outsAt1_B V c t h0]
    dsimp only
    unfold outB_7
    by_cases h3 : t.val % 4 = 3
    · rw [show (dat1 V c).leavesExact 8 t = owns (c : Thread nD τ) (ms1_8 t) fullShare ((dat1 V c).after 8 t) from by
        unfold Dat.leavesExact; rw [idleAt1_8 t h0, (flush1_8 t).mpr h3], after1_8, outsAt1_B V c t h0]
      dsimp only
      simp only [before1_8_B' V c t h0]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB V c t h0 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, ⟨%e7, H7⟩, H8, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverB_7 c _ _ _ _ _ _ _ _ _ _ _ _ _ _ _ _ _ _ _ _ _ _ _ _ _ _ _ _ _ _ _)
      iexact H8
    · have hnf : (cfg1.win 8).flush t = false := by
        cases hb : (cfg1.win 8).flush t with
        | false => rfl
        | true => exact absurd ((flush1_8 t).mp hb) h3
      rw [Dat.leavesExact_idle (dat1 V c) 8 t (idleAt1_8 t h0) hnf]
      iintro ⟨⟨Hoth, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runB V c t h0 _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [HS]; · iexact HS
      iintro ⟨H0, H1, H2, H3, H4, H5, H6, ⟨%e7, H7⟩, H8, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverB_7 c _ _ _ _ _ _ _ _ _ _ _ _ _ _ _ _ _ _ _ _ _ _ _ _ _ _ _ _ _ _ _)
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- With the scratch's named contents forgotten the invariant is the launch's. -/
theorem scratch_forget (c : Dev nD) (x : Vec F S1024x256 .bf16) :
    iprop(others1 (F := F) c ∗ owns (c : Thread nD τ) scM1 fullShare x ∗ (∃ r, prngReg c r)) ⊢ (Pipeline.ΦA spec1 c : sProp 𝕄) := by
  have h : iprop(others1 (F := F) c ∗ owns (c : Thread nD τ) scM1 fullShare x ∗ (∃ r, prngReg c r))
      ⊢ (iprop(others1 (F := F) c ∗ (∃ d, owns (c : Thread nD τ) scM1 fullShare d) ∗ (∃ r, prngReg c r)) : sProp 𝕄) := by
    iintro ⟨Ho, HS, Hg⟩
    isplitl [Ho]; · iexact Ho
    isplitl [HS]; · iexists _; iexact HS
    iexact Hg
  exact h.trans (PhiA1_join c)

/-- After the last point the invariant gives the launch's back. -/
theorem hout1 (c : Dev nD) : (dat1 V c).Φ (Fin.last cfg1.N) ⊢ (Pipeline.ΦA spec1 c : sProp 𝕄) := by
  have hne : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ hne]
  exact scratch_forget c _

end Region1Body

end Cert.KernelIdeal.Hand

end
-- ==== Proof.KI.Run.lean ====
/-
  The launch of the whole program over its four segments: the three host transposes, the host gather of the indexed
  rows (the callee inlined), region 0 and region 1; nothing follows region 1.

  The core's buffer contents at the segment boundaries are a fold from the launch memory: after a host stretch, the
  stretch's operations applied in order; after a region, its windows' arrays at what the pipeline's write-backs leave
  (an input window's array as entered) and every other buffer as entered. No stretch and no region writes an argument
  array, so the fold at an argument walks back to the launch memory: that is the frame claim. Region 1 carries a
  scratch in its invariant, so its invariant at the first and after the last point is not the launch's by definition:
  the two are joined by the region's own entry and exit lemmas.
-/
import proofs.«406561_j274877907022_3_alg».proof.Proof.KI.Region0
import proofs.«406561_j274877907022_3_alg».proof.Proof.KI.Region1Body
import proofs.«406561_j274877907022_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each segment boundary: a fold from the launch memory -/

/-- Core `c`'s buffers at launch. -/
abbrev W0 : Dev nD → Valuation τ sig (Elt F) := fun c b => m (c, b)
/-- After the three transposes. -/
abbrev W1 : Dev nD → Valuation τ sig (Elt F) := fun c => StableHlo.after hostOps0 (W0 m c)
/-- After the host gather (region 0's entry). -/
abbrev W2 : Dev nD → Valuation τ sig (Elt F) := fun c => StableHlo.after hostOps0_1 (W1 m c)
/-- The same read at the TensorCore's references (what region 0's proof data take). -/
abbrev V2 : (c : Dev nD) → (b : Ref sig .tc) → Buf (Elt F) ((c : Thread nD τ).loc b) := fun c b => W2 m c b
/-- At region 0's exit (region 1's entry): region 0's arrays at what its pipeline leaves, every other buffer as entered. -/
def W3 (c : Dev nD) : Valuation τ sig (Elt F) :=
  Pipeline.withArrays spec0 c (W2 m c) fun w => (dat0 (V2 m) c).arrAt w cfg0.N
theorem W3_arr (c : Dev nD) (w : Fin cfg0.W) :
    W3 m c (Proc.devRef .tc (Pipeline.arrRef spec0 w)) = (dat0 (V2 m) c).arrAt w cfg0.N := by
  unfold W3; exact Pipeline.withArrays_arr spec0 launch0.win.arr_inj c _ _ w
theorem W3_of_ne (c : Dev nD) (b : Ref sig .tc) (hb : ∀ w, Pipeline.arrRef spec0 w ≠ b) :
    W3 m c (Proc.devRef .tc b) = W2 m c (Proc.devRef .tc b) := by
  unfold W3; exact Pipeline.withArrays_of_ne spec0 c _ _ b hb
/-- The same read at the TensorCore's references (what region 1's proof data take). -/
abbrev V3 : (c : Dev nD) → (b : Ref sig .tc) → Buf (Elt F) ((c : Thread nD τ).loc b) := fun c b => W3 m c b
theorem hF0 (c : Dev nD) (w : Fin cfg0.W) : (dat0 (V2 m) c).arrAt w cfg0.N = V3 m c (Pipeline.arrRef spec0 w) :=
  (W3_arr m c w).symm
theorem hrest0 (c : Dev nD) : ∀ b, b ∉ Finset.univ.image (Pipeline.arrRef spec0) → V3 m c b = V2 m c b :=
  fun b hb => W3_of_ne m c b fun w e => hb (Finset.mem_image.mpr ⟨w, Finset.mem_univ _, e⟩)

/-- At region 1's exit (the program's end): region 1's arrays at what its pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What each segment leaves unchanged -/

/-- Region 0 changes one buffer only, its output's array: an input window's array is read, never written back. -/
theorem V3_eq_V2 (c : Dev nD) (b : Ref sig .tc) (hb : b ≠ main_v4) : V3 m c b = V2 m c b := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => exact absurd rfl hb
    exact (W3_arr m c w).trans (((dat0 (V2 m) c).arrAt_in w hin _).trans (A_eq0 (V2 m) c w))
  · exact W3_of_ne m c b fun w e => h ⟨w, e⟩

/-- Region 0's output array at region 1's entry: what the pipeline's write-backs leave. -/
theorem V3_main_v4 (c : Dev nD) : V3 m c main_v4 = (dat0 (V2 m) c).arrAt 6 cfg0.N := W3_arr m c 6

/-- A buffer that is no array of region 0's is as region 0 found it. -/
theorem V3_of_ne (c : Dev nD) (b : Ref sig .tc) (hb : ∀ w, Pipeline.arrRef spec0 w ≠ b) : V3 m c b = V2 m c b :=
  W3_of_ne m c b hb

/-- Region 1 changes two buffers only, its outputs' arrays. -/
theorem V4_eq_V3 (c : Dev nD) (b : Ref sig .tc) (hb0 : b ≠ main_v5_0) (hb1 : b ≠ main_v5_1) : V4 m c b = V3 m c b := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => exact absurd rfl hb0
      | ⟨8, _⟩ => exact absurd rfl hb1
    exact (W4_arr m c w).trans (((dat1 (V3 m) c).arrAt_in w hin _).trans (A_eq1 (V3 m) c w))
  · exact W4_of_ne m c b fun w e => h ⟨w, e⟩

/-- The two results at the program's end: what region 1's write-backs leave in its output windows' arrays. -/
theorem W4_out0 (c : Dev nD) : W4 m c (Proc.devRef .tc main_v5_0) = (dat1 (V3 m) c).arrAt 7 cfg1.N := W4_arr m c 7
theorem W4_out1 (c : Dev nD) : W4 m c (Proc.devRef .tc main_v5_1) = (dat1 (V3 m) c).arrAt 8 cfg1.N := W4_arr m c 8

/-- A buffer that no host stretch writes and that is no output array of a region ends as launched. -/
theorem W4_of_unwritten (c : Dev nD) (b : Ref sig .tc) (h0 : b ∉ hostOps0_W) (h1 : b ∉ hostOps0_1_W) (h2 : b ≠ main_v4)
    (h3 : b ≠ main_v5_0) (h4 : b ≠ main_v5_1) : W4 m c (Proc.devRef .tc b) = m ((c : Thread nD τ).loc b) :=
  calc W4 m c (Proc.devRef .tc b)
    _ = W3 m c (Proc.devRef .tc b) := V4_eq_V3 m c b h3 h4
    _ = W2 m c (Proc.devRef .tc b) := V3_eq_V2 m c b h2
    _ = W1 m c (Proc.devRef .tc b) := StableHlo.after_of_writes_sub hostOps0_1 _ hostOps0_1_writes h1
    _ = W0 m c (Proc.devRef .tc b) := StableHlo.after_of_writes_sub hostOps0 _ hostOps0_writes h0
    _ = m ((c : Thread nD τ).loc b) := rfl

/-! ### The arguments end as launched -/

theorem W4_main_arg0 (c : Dev nD) : W4 m c (Proc.devRef .tc main_arg0) = m ((c : Thread nD τ).loc main_arg0) :=
  W4_of_unwritten m c main_arg0 (by decide) (by decide) (by decide) (by decide) (by decide)
theorem W4_main_arg1 (c : Dev nD) : W4 m c (Proc.devRef .tc main_arg1) = m ((c : Thread nD τ).loc main_arg1) :=
  W4_of_unwritten m c main_arg1 (by decide) (by decide) (by decide) (by decide) (by decide)
theorem W4_main_arg2 (c : Dev nD) : W4 m c (Proc.devRef .tc main_arg2) = m ((c : Thread nD τ).loc main_arg2) :=
  W4_of_unwritten m c main_arg2 (by decide) (by decide) (by decide) (by decide) (by decide)
theorem W4_main_arg3 (c : Dev nD) : W4 m c (Proc.devRef .tc main_arg3) = m ((c : Thread nD τ).loc main_arg3) :=
  W4_of_unwritten m c main_arg3 (by decide) (by decide) (by decide) (by decide) (by decide)
theorem W4_main_arg4 (c : Dev nD) : W4 m c (Proc.devRef .tc main_arg4) = m ((c : Thread nD τ).loc main_arg4) :=
  W4_of_unwritten m c main_arg4 (by decide) (by decide) (by decide) (by decide) (by decide)
theorem W4_main_arg5 (c : Dev nD) : W4 m c (Proc.devRef .tc main_arg5) = m ((c : Thread nD τ).loc main_arg5) :=
  W4_of_unwritten m c main_arg5 (by decide) (by decide) (by decide) (by decide) (by decide)
theorem W4_main_arg6 (c : Dev nD) : W4 m c (Proc.devRef .tc main_arg6) = m ((c : Thread nD τ).loc main_arg6) :=
  W4_of_unwritten m c main_arg6 (by decide) (by decide) (by decide) (by decide) (by decide)
theorem W4_main_arg7 (c : Dev nD) : W4 m c (Proc.devRef .tc main_arg7) = m ((c : Thread nD τ).loc main_arg7) :=
  W4_of_unwritten m c main_arg7 (by decide) (by decide) (by decide) (by decide) (by decide)
theorem W4_main_arg8 (c : Dev nD) : W4 m c (Proc.devRef .tc main_arg8) = m ((c : Thread nD τ).loc main_arg8) :=
  W4_of_unwritten m c main_arg8 (by decide) (by decide) (by decide) (by decide) (by decide)
theorem W4_main_arg9 (c : Dev nD) : W4 m c (Proc.devRef .tc main_arg9) = m ((c : Thread nD τ).loc main_arg9) :=
  W4_of_unwritten m c main_arg9 (by decide) (by decide) (by decide) (by decide) (by decide)
theorem W4_main_arg10 (c : Dev nD) : W4 m c (Proc.devRef .tc main_arg10) = m ((c : Thread nD τ).loc main_arg10) :=
  W4_of_unwritten m c main_arg10 (by decide) (by decide) (by decide) (by decide) (by decide)
theorem W4_main_arg11 (c : Dev nD) : W4 m c (Proc.devRef .tc main_arg11) = m ((c : Thread nD τ).loc main_arg11) :=
  W4_of_unwritten m c main_arg11 (by decide) (by decide) (by decide) (by decide) (by decide)
theorem W4_main_arg12 (c : Dev nD) : W4 m c (Proc.devRef .tc main_arg12) = m ((c : Thread nD τ).loc main_arg12) :=
  W4_of_unwritten m c main_arg12 (by decide) (by decide) (by decide) (by decide) (by decide)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V2 m) c
  | ⟨1, _⟩ => fun c => dat1 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator register. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W2`, left at `W3`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V2 m) c).loose
  hwaits := Pipeline.hwaits_of_owed_zero _ _ _ _ L lv 0 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec0 c (V2 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V2 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · icases Howes with ⟨%W, Howes⟩
      iexists W; isplitr; · ipureintro; exact fun _ _ => Or.inl trivial
      iexact Howes
    isplitl [Hgen]; · iexact Hgen
    iexact Hrest
  hin c := by
    show _ ⊢ (Pipeline.ΦA spec0 c : sProp 𝕄)
    unfold Pipeline.ΦA
    iintro ⟨Hgen, -, Hscoped⟩
    isplitl [Hscoped]; · iexact Hscoped
    iexact Hgen
  hout c := by
    rw [Pipeline.ownSems0_none]
    show (Pipeline.ΦA spec0 c : sProp 𝕄) ⊢ _
    unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V2 m c) (V3 m c) ((pdats m 0 c).arrAt · cfg0.N) (hF0 m c) (hrest0 m c)
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    icases Howes with ⟨%W, -, Howes⟩; iexists W; iexact Howes

set_option backward.isDefEq.respectTransparency.types false in
/-- Region 1 over the thread state: entered from every unscoped buffer at `W3`, left at `W4`, the core owing nothing.
    Its invariant holds the carried scratch at named contents between the points; at the first point and after the last
    it is the launch's invariant, by the region's entry and exit lemmas. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hbufs, Hgen, Howes⟩, -, -⟩
    ihave Hsp := hsplit $$ Hbufs
    icases Hsp with ⟨Harr, Hrest⟩
    imodintro
    isplitl [Harr]; · iexact Harr
    isplitr
    · unfold Pipeline.prefHeld; rw [show (Finset.univ : Finset (Fin 0)) = ∅ from rfl, BI.bigSep_empty]; iempintro
    isplitl [Howes]
    · icases Howes with ⟨%W, Howes⟩
      iexists W; isplitr; · ipureintro; exact fun _ _ => Or.inl trivial
      iexact Howes
    isplitl [Hgen]; · iexact Hgen
    iexact Hrest
  hin c := by
    have hlaunch : iprop((∃ r, prngReg c r) ∗ Pipeline.prefHeld (pcfgs (F := F) 1).pre c (fun _ => fullShare) (adm (F := F) 1).1
        ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hgen, -, Hscoped⟩
      isplitl [Hscoped]; · iexact Hscoped
      iexact Hgen
    exact hlaunch.trans (hin1 (V3 m) c)
  hout c := by
    rw [Pipeline.ownSems0_none]
    have hlaunch : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hscoped, Hgen⟩
      isplitl [Hgen]; · iexact Hgen
      isplitr; · iempintro
      iexact Hscoped
    exact (hout1 (V3 m) c).trans hlaunch
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Harr, Howes, Hgen, Hrest⟩
    imodintro
    isplitl [Harr Hrest Hgen]
    · isplitl [Harr Hrest]
      · iapply hjoin; isplitl [Harr] <;> iassumption
      iexact Hgen
    icases Howes with ⟨%W, -, Howes⟩; iexists W; iexact Howes

/-! ## The program as segments, and the launch -/

/-- The four segments in order: the two host stretches, each from its boundary's contents, and the two regions. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .region (reg0 m),
    .region (reg1 m) ]

/-- The program is the run of its segments. -/
theorem main_run (c : Dev nD) : main (F := F) c = Pipeline.Seg.run (segs m) := by
  rw [main_chain c, Pipeline.Seg.run_eq_chain]
  rfl

set_option backward.isDefEq.respectTransparency.types false in
/-- THE RUN: from any memory with zero counters every weakly fair execution of the program terminates, nothing
    faulting, and every final state has each unscoped buffer of every core at the last boundary's contents `W4`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W4 m c b)
    (hfin := fun c s' => by
      iintro ⟨⟨Hbufs, -⟩, HSI⟩
      unfold StableHlo.held
      imodintro
      iapply (pointsTo_read_all (Pipeline.ucRefs τ sig) (fun b => (((c : Thread nD τ)).1, b)) (W4 m c) s')
      isplitl [Hbufs] <;> iassumption)
    (hQ := fun s h => h)

/-- THE FRAME: every argument array ends as launched, each read off the last boundary's contents. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c),
      (h c _ (mem_uc main_arg9 (by decide))).trans (W4_main_arg9 m c),
      (h c _ (mem_uc main_arg10 (by decide))).trans (W4_main_arg10 m c),
      (h c _ (mem_uc main_arg11 (by decide))).trans (W4_main_arg11 m c),
      (h c _ (mem_uc main_arg12 (by decide))).trans (W4_main_arg12 m c)⟩) (run_all m ρ)

end Cert.KernelIdeal.Hand

end
-- ==== Proof.Spec.lean ====
/-
  The mathematics both programs compute, as functions of rows of extended reals.

  A row `x` of the node table goes through LinTrans: the affine image `z = x · Wᵀ + b`, the min-max scaling
  `u = (z - min z) / (max z - min z)` over the row's 768 entries, and the L2 normalisation `u / max (√(Σ u²)) ε`.
  Every step reads only the row itself, so LinTrans of a gathered row is the gathered row of LinTrans: the kernel
  gathers the indexed rows first and transforms 4096 of them, the reference transforms all 20000 and gathers.
  The rest is the same on both sides: `E = tanh (age · W_prjLᵀ + b_prjL)`, `EW = E ⊙ outW`,
  `h = tanh (t · W_prjTᵀ + b_prjT)`, `o_c = h · EWᵀ + outb`, `o_f = h · W_fc3ᵀ + b_fc3`.
  A change of float format is the identity on the extended reals, so the kernel's bf16 roundings do not appear.
-/
import Idealize.ShloMosaic.PureOps.Ideal

noncomputable section

namespace Cert.Spec

open Idealize.ShloMosaic

/-- The affine image of a row: entry `j` of `x · Wᵀ + b`. -/
def lin {k n : ℕ} (x : Fin k → EReal) (W : Fin n → Fin k → EReal) (b : Fin n → EReal) : Fin n → EReal :=
  fun j => (∑ d : Fin k, x d * W j d) + b j

/-- The least entry of a row, folded from `+∞` (the word both programs start the fold from). -/
def rowMin {n : ℕ} (z : Fin n → EReal) : EReal :=
  (Finset.univ : Finset (Fin n)).fold min (Ideal.ofBits .f32 0x7F800000#32) z

/-- The greatest entry of a row, folded from `-∞`. -/
def rowMax {n : ℕ} (z : Fin n → EReal) : EReal :=
  (Finset.univ : Finset (Fin n)).fold max (Ideal.ofBits .f32 0xFF800000#32) z

/-- Min-max scaling of a row: `(z - min z) / (max z - min z)`. -/
def scaled {n : ℕ} (z : Fin n → EReal) : Fin n → EReal :=
  fun j => Ideal.div (z j - rowMin z) (rowMax z - rowMin z)

/-- L2 normalisation of a row with the floor `ε` (the f32 word of 1e-12) under the norm. -/
def normalised {n : ℕ} (u : Fin n → EReal) : Fin n → EReal :=
  fun j => Ideal.div (u j) (max (Ideal.sqrt (∑ d : Fin n, u d * u d)) (Ideal.ofBits .f32 0x2B8CBCCC#32))

/-- LinTrans of one row of the node table. -/
def lintrans (x : Fin 768 → EReal) (Wage : Fin 768 → Fin 768 → EReal) (bage : Fin 768 → EReal) : Fin 768 → EReal :=
  normalised (scaled (lin x Wage bage))

/-- Row `k` of `E ⊙ outW`, from the node row `x` that index `k` selects. -/
def ewRow (x : Fin 768 → EReal) (Wage : Fin 768 → Fin 768 → EReal) (bage : Fin 768 → EReal)
    (WprjL : Fin 256 → Fin 768 → EReal) (bprjL : Fin 256 → EReal) (outWk : Fin 256 → EReal) : Fin 256 → EReal :=
  fun d => Ideal.tanh (lin (lintrans x Wage bage) WprjL bprjL d) * outWk d

/-- Row `n` of `h = tanh (t · W_prjTᵀ + b_prjT)`. -/
def hRow (tn : Fin 768 → EReal) (WprjT : Fin 256 → Fin 768 → EReal) (bprjT : Fin 256 → EReal) : Fin 256 → EReal :=
  fun d => Ideal.tanh (lin tn WprjT bprjT d)

/-- Entry `(n, k)` of `o_c = h · EWᵀ + outb`: `hn` is row `n` of `h`, `ewk` row `k` of `E ⊙ outW`. -/
def ocEntry (hn ewk : Fin 256 → EReal) (outbk : EReal) : EReal :=
  (∑ d : Fin 256, hn d * ewk d) + outbk

/-- Entry `(n, f)` of `o_f = h · W_fc3ᵀ + b_fc3`. -/
def ofEntry (hn : Fin 256 → EReal) (Wfc3f : Fin 256 → EReal) (bfc3f : EReal) : EReal :=
  (∑ d : Fin 256, hn d * Wfc3f d) + bfc3f

end Cert.Spec

end
-- ==== Proof.LibGatherRows.lean ====
/-
  A row gather (`x[idx]` along one axis of a rank-2 table) read at an index, in both layouts.

  Table `[N, C]`, start indices `[E, 1]`, result `[E, C]`: result element `(e, k)` is the table's
  `(r, k)`, where `r` is the index word `idx[e, 0]` read as a signed integer and clamped into
  `[0, N - 1]` (a negative number reads as row 0, one past the end as the last row).
  The transposed layout (table `[C, N]`, result `[C, E]`) gathers along axis 1 the same way.
  Beside them: the index wrap `i < 0 ? i + N : i` of a signed 32-bit word in `[-N, N)` lands in `[0, N)`.
-/
import Idealize.ShloMosaic.PureOps
import Idealize.ShloMosaic.Lib.ValueIdx

noncomputable section

namespace Idealize.ShloMosaic.RowGather

open Idealize.ShloMosaic Idealize.ShloMosaic.ValueIdx

variable {α : Type}

/-- Gather of whole rows: table `[N, C]`, indices `[E, 1]`, result `[E, C]`. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Gather of whole columns: table `[C, N]`, indices `[E, 1]`, result `[C, E]`. -/
abbrev colDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

/-- The row an index word names: read signed, clamped into `[0, N - 1]`. -/
def clampRow (N : Nat) (hN : 0 < N) {w : Nat} (i : BitVec w) : Fin N :=
  ⟨min i.toInt.toNat (N - 1), by omega⟩

/-- THE ROW GATHER READ AT `(e, k)`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

/-- THE COLUMN GATHER READ AT `(k, e)`. -/
theorem gather_cols_apply {C N E w : Nat} (hN : 0 < N)
    (wf : GatherDims.WF ⟨2, ![C, N]⟩ ⟨2, ![E, 1]⟩ ⟨2, ![C, E]⟩ [0] [1] [] [1] [] 1 ![C, 1])
    (x : (⟨2, ![C, N]⟩ : Shape).Idx → α) (idx : IVec ⟨2, ![E, 1]⟩ w) (e : Fin E) (k : Fin C) :
    Host.gather (colDims C N E wf) x idx (ix2 k e)
      = x (ix2 k (clampRow N hN (idx (ix2 e (0 : Fin 1))))) := by
  unfold Host.gather
  congr 1
  funext a
  refine Fin.ext ?_
  match a with
  | ⟨0, _⟩ =>
    show (colDims C N E wf).start (ix2 k e) idx 0 + (colDims C N E wf).batchCoord (ix2 k e) 0
      + (colDims C N E wf).offCoord (ix2 k e) 0 = _
    rw [GatherDims.batchCoord_eq_zero _ _ _ List.not_mem_nil]
    unfold GatherDims.start
    rw [dif_neg (show (0 : Fin 2) ∉ (colDims C N E wf).startIndexMap from (by decide : (0 : Fin 2) ∉ [(1 : Fin 2)]))]
    simp only [Nat.add_zero, Nat.zero_add]
    unfold GatherDims.offCoord
    rw [dif_pos ((GatherDims.mem_sKept _ _).mpr ⟨(by decide : (0 : Fin 2) ∉ [(1 : Fin 2)]), List.not_mem_nil⟩)]
    rfl
  | ⟨1, _⟩ =>
    show (colDims C N E wf).start (ix2 k e) idx 1 + (colDims C N E wf).batchCoord (ix2 k e) 1
      + (colDims C N E wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims C N E wf).startIndexMap from List.mem_singleton.mpr rfl)]
    have hsi : (colDims C N E wf).siIdx (ix2 k e) ⟨List.idxOf (1 : Fin 2) (colDims C N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The wrapped index `i < 0 ? i + 100000 : i` as the programs spell it. -/
def wrap (i : BitVec 32) : BitVec 32 :=
  Scalar.select (IntOp.cmpi .slt i 0#32) (IntOp.addi i 100000#32) i

/-- The three constants read as signed integers. -/
private theorem toInt_zero32 : (0#32 : BitVec 32).toInt = 0 := by decide
private theorem toInt_n32 : (100000#32 : BitVec 32).toInt = 100000 := by decide
private theorem toInt_m32 : (99999#32 : BitVec 32).toInt = 99999 := by decide

/-- On a negative word the wrap adds `100000`. -/
private theorem wrap_of_neg (i : BitVec 32) (h : i.toInt < 0) : wrap i = i + 100000#32 := by
  have hs : i.slt 0#32 = true := by
    rw [BitVec.slt_iff_toInt_lt, toInt_zero32]; exact h
  show (if BitVec.ofBool (i.slt 0#32) = 1 then i + 100000#32 else i) = _
  rw [hs]; rfl

/-- On a non-negative word the wrap is the identity. -/
private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

/-- The wrapped word, read signed, lies in `[0, 99999]`. -/
private theorem wrap_toInt_range (i : BitVec 32) (h1 : -100000 ≤ i.toInt) (h2 : i.toInt < 100000) :
    0 ≤ (wrap i).toInt ∧ (wrap i).toInt ≤ 99999 := by
  by_cases hneg : i.toInt < 0
  · rw [wrap_of_neg i hneg, BitVec.toInt_add, toInt_n32,
      Int.bmod_eq_of_le_mul_two (by omega) (by omega)]
    omega
  · rw [wrap_of_nonneg i (by omega)]; omega

/-- Both range tests hold of a word whose signed reading lies in `[0, 99999]`. -/
private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

/-- A word in `[-100000, 100000)` wraps into `[0, 100000)`: both range tests of the wrapped word hold. -/
theorem wrap_inb (i : BitVec 32) (h1 : -100000 ≤ i.toInt) (h2 : i.toInt < 100000) :
    IntOp.cmpi .sge (wrap i) 0#32 = 1#1 ∧ IntOp.cmpi .sle (wrap i) 99999#32 = 1#1 := by
  exact range_tests (wrap i) (wrap_toInt_range i h1 h2)

/-- A word that is a row number `n < 100000` is its own wrap, and in range. -/
theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.SpecArr.lean ====
/-
  The specification at the level of whole arrays: each result array, index by index, as the row-level functions of
  `Spec` applied to rows of the argument arrays. Two spellings of each: over the arguments as given (the reference's
  side: weights as `[out, in]` matrices, the node table indexed through `Endx`), and over what the kernels are handed
  (weights already transposed to `[in, out]`, the gathered rows `x_g`, the intermediate `EW`).
  The row an index word selects is the word wrapped (`i < 0 ? i + 20000 : i`) and then read signed and clamped into
  the table, as a gather reads it.
-/
import proofs.«406561_j274877907022_3_alg».proof.Proof.Spec
import proofs.«406561_j274877907022_3_alg».proof.Proof.LibGatherRows
import Idealize.ShloMosaic.Lib.ValueIdx

noncomputable section

namespace Cert.SpecArr

open Idealize.ShloMosaic Idealize.ShloMosaic.ValueIdx

/-- A rank-2 array as a function of its two coordinates. -/
def m2 {α : Type} {a b : ℕ} (x : (⟨2, ![a, b]⟩ : Shape).Idx → α) : Fin a → Fin b → α := fun p q => x (ix2 p q)
/-- A rank-1 array as a function of its coordinate. -/
def m1 {α : Type} {a : ℕ} (x : (⟨1, ![a]⟩ : Shape).Idx → α) : Fin a → α := fun p => x (ix1 p)
/-- The first and second coordinate of a rank-2 index, at their literal types. -/
def c0 {a b : ℕ} (i : (⟨2, ![a, b]⟩ : Shape).Idx) : Fin a := ⟨(i 0).val, (i 0).isLt⟩
def c1 {a b : ℕ} (i : (⟨2, ![a, b]⟩ : Shape).Idx) : Fin b := ⟨(i 1).val, (i 1).isLt⟩

theorem c0_ix2 {a b : ℕ} (p : Fin a) (q : Fin b) : c0 (ix2 p q) = p := rfl
theorem c1_ix2 {a b : ℕ} (p : Fin a) (q : Fin b) : c1 (ix2 p q) = q := rfl

/-- The index word wrapped as both programs wrap it: a negative index counts from the end of the 20000 rows. -/
def wrapW (e : BitVec 32) : BitVec 32 :=
  Scalar.select (IntOp.cmpi .slt e 0#32) (IntOp.addi e 20000#32) e

/-- The table row an index word selects: wrapped, then read signed and clamped into `[0, 19999]`. -/
def rowOf (e : BitVec 32) : Fin 20000 := RowGather.clampRow 20000 (by decide) (wrapW e)

/-! ## Over the arguments as given -/

/-- `o_c`: entry `(n, k)` from row `n` of `t`, the node row `Endx[k]` selects, row `k` of `outW` and `outb[k]`. -/
def ocArr (t : (⟨2, ![8192, 768]⟩ : Shape).Idx → EReal) (age : (⟨2, ![20000, 768]⟩ : Shape).Idx → EReal)
    (endx : (⟨1, ![4096]⟩ : Shape).Idx → BitVec 32) (Wage : (⟨2, ![768, 768]⟩ : Shape).Idx → EReal) (bage : (⟨1, ![768]⟩ : Shape).Idx → EReal)
    (WprjT : (⟨2, ![256, 768]⟩ : Shape).Idx → EReal) (bprjT : (⟨1, ![256]⟩ : Shape).Idx → EReal)
    (WprjL : (⟨2, ![256, 768]⟩ : Shape).Idx → EReal) (bprjL : (⟨1, ![256]⟩ : Shape).Idx → EReal)
    (outW : (⟨2, ![4096, 256]⟩ : Shape).Idx → EReal) (outb : (⟨1, ![4096]⟩ : Shape).Idx → EReal) :
    (⟨2, ![8192, 4096]⟩ : Shape).Idx → EReal :=
  fun i => Spec.ocEntry (Spec.hRow (m2 t (c0 i)) (m2 WprjT) (m1 bprjT))
    (Spec.ewRow (m2 age (rowOf (m1 endx (c1 i)))) (m2 Wage) (m1 bage) (m2 WprjL) (m1 bprjL) (m2 outW (c1 i)))
    (m1 outb (c1 i))

/-- `o_f`: entry `(n, f)` from row `n` of `t`, row `f` of `W_fc3` and `b_fc3[f]`. -/
def ofArr (t : (⟨2, ![8192, 768]⟩ : Shape).Idx → EReal)
    (WprjT : (⟨2, ![256, 768]⟩ : Shape).Idx → EReal) (bprjT : (⟨1, ![256]⟩ : Shape).Idx → EReal)
    (Wfc3 : (⟨2, ![50, 256]⟩ : Shape).Idx → EReal) (bfc3 : (⟨1, ![50]⟩ : Shape).Idx → EReal) :
    (⟨2, ![8192, 50]⟩ : Shape).Idx → EReal :=
  fun i => Spec.ofEntry (Spec.hRow (m2 t (c0 i)) (m2 WprjT) (m1 bprjT)) (m2 Wfc3 (c1 i)) (m1 bfc3 (c1 i))

/-! ## Over what the kernels are handed: transposed weights `[in, out]`, gathered rows, the intermediate `EW` -/

/-- A transposed weight matrix `[in, out]` read as rows of the `[out, in]` matrix it transposes. -/
def tr {a b : ℕ} (Wt : (⟨2, ![a, b]⟩ : Shape).Idx → EReal) : Fin b → Fin a → EReal := fun j d => Wt (ix2 d j)

/-- `EW = E ⊙ outW` from the gathered rows `x_g`: entry `(k, d)`. -/
def ewArr (xg : (⟨2, ![4096, 768]⟩ : Shape).Idx → EReal) (WtAge : (⟨2, ![768, 768]⟩ : Shape).Idx → EReal) (bage : (⟨1, ![768]⟩ : Shape).Idx → EReal)
    (WtL : (⟨2, ![768, 256]⟩ : Shape).Idx → EReal) (bprjL : (⟨1, ![256]⟩ : Shape).Idx → EReal)
    (outW : (⟨2, ![4096, 256]⟩ : Shape).Idx → EReal) : (⟨2, ![4096, 256]⟩ : Shape).Idx → EReal :=
  fun i => Spec.ewRow (m2 xg (c0 i)) (tr WtAge) (m1 bage) (tr WtL) (m1 bprjL) (m2 outW (c0 i)) (c1 i)

/-- `o_c` from `t`, the transposed `W_prjT` and the intermediate `EW`: entry `(n, k)`. -/
def ocArrK (t : (⟨2, ![8192, 768]⟩ : Shape).Idx → EReal) (WtT : (⟨2, ![768, 256]⟩ : Shape).Idx → EReal) (bprjT : (⟨1, ![256]⟩ : Shape).Idx → EReal)
    (ew : (⟨2, ![4096, 256]⟩ : Shape).Idx → EReal) (outb : (⟨1, ![4096]⟩ : Shape).Idx → EReal) :
    (⟨2, ![8192, 4096]⟩ : Shape).Idx → EReal :=
  fun i => Spec.ocEntry (Spec.hRow (m2 t (c0 i)) (tr WtT) (m1 bprjT)) (m2 ew (c1 i)) (m1 outb (c1 i))

/-- `o_f` from `t` and the transposed `W_prjT`: entry `(n, f)`. -/
def ofArrK (t : (⟨2, ![8192, 768]⟩ : Shape).Idx → EReal) (WtT : (⟨2, ![768, 256]⟩ : Shape).Idx → EReal) (bprjT : (⟨1, ![256]⟩ : Shape).Idx → EReal)
    (Wfc3 : (⟨2, ![50, 256]⟩ : Shape).Idx → EReal) (bfc3 : (⟨1, ![50]⟩ : Shape).Idx → EReal) :
    (⟨2, ![8192, 50]⟩ : Shape).Idx → EReal :=
  fun i => Spec.ofEntry (Spec.hRow (m2 t (c0 i)) (tr WtT) (m1 bprjT)) (m2 Wfc3 (c1 i)) (m1 bfc3 (c1 i))

end Cert.SpecArr

end
-- ==== Proof.KI.Entry.lean ====
/-
  What the two host stretches before the first kernel region leave in the buffers, read index by index, for any
  contents `W` the buffers hold when the stretch starts.

  * The first stretch transposes three weight matrices: the result at `(d, j)` is the argument at `(j, d)`; it writes
    nothing else.
  * The second stretch is the index gather `AGE_inx[Endx]` in fill mode: the index word is wrapped
    (`i < 0 ? i + 20000 : i`), a row whose wrapped index falls outside `[0, 19999]` is replaced by a NaN row, every other
    row is the table row the wrapped word selects. With every index word in `[-20000, 20000)` the wrapped word lies in
    `[0, 19999]`, so no row is replaced: row `k` of the result is row `rowOf Endx[k]` of the table. It writes nothing but
    its own intermediate values and its result.
  * The precondition's last conjunct says exactly that every index word lies in `[-20000, 20000)`.
-/
import proofs.«406561_j274877907022_3_alg».proof.Proof.Gen.KernelIdeal.Launch
import proofs.«406561_j274877907022_3_alg».proof.Proof.Gen.KernelIdeal.Regions
import proofs.«406561_j274877907022_3_alg».proof.Defs
import proofs.«406561_j274877907022_3_alg».proof.Proof.SpecArr
import Idealize.ShloMosaic.Lib.StableHlo.Run
import Idealize.ShloMosaic.Lib.ValueIdx
import Idealize.ShloMosaic.Lib.ValueLayout
import Idealize.ShloMosaic.Lib.StableHlo.Predicate
import Idealize.ShloMosaic.Lib.ReduceAll

set_option maxRecDepth 16384

noncomputable section

namespace Cert.KernelIdeal.Entry

open Idealize.ShloMosaic Idealize.ShloMosaic.ValueIdx
open Cert.KernelIdeal Cert.KernelIdeal.Gen

/-! ## The two transposed weight matrices and what the first stretch keeps -/

/-- `W_age` transposed, read at an index. -/
theorem v0_apply (W : Valuation τ sig (Elt Ideal)) (d j : Fin 768) :
    (StableHlo.after hostOps0 W (Proc.devRef .tc main_v0) : S768x768.Idx → EReal) (ix2 d j)
      = (W (Proc.devRef .tc main_arg3) : S768x768.Idx → EReal) (ix2 j d) := by
  dsimp only [hostOps0]
  after_results
  exact transpose_ix2_apply _ _ d j

/-- `W_prjT` transposed, read at an index. -/
theorem v1_apply (W : Valuation τ sig (Elt Ideal)) (d : Fin 768) (j : Fin 256) :
    (StableHlo.after hostOps0 W (Proc.devRef .tc main_v1) : S768x256.Idx → EReal) (ix2 d j)
      = (W (Proc.devRef .tc main_arg5) : S256x768.Idx → EReal) (ix2 j d) := by
  dsimp only [hostOps0]
  after_results
  exact transpose_ix2_apply _ _ d j

/-- `W_prjL` transposed, read at an index. -/
theorem v2_apply (W : Valuation τ sig (Elt Ideal)) (d : Fin 768) (j : Fin 256) :
    (StableHlo.after hostOps0 W (Proc.devRef .tc main_v2) : S768x256.Idx → EReal) (ix2 d j)
      = (W (Proc.devRef .tc main_arg7) : S256x768.Idx → EReal) (ix2 j d) := by
  dsimp only [hostOps0]
  after_results
  exact transpose_ix2_apply _ _ d j

/-- The three transposes write only their own results. -/
theorem keeps0 (W : Valuation τ sig (Elt Ideal)) (b : Ref sig .tc) (h : b ∉ ([main_v0, main_v1, main_v2] : List (Ref sig .tc))) :
    StableHlo.after hostOps0 W (Proc.devRef .tc b) = W (Proc.devRef .tc b) :=
  StableHlo.after_of_writes_sub hostOps0 W hostOps0_writes h

/-- The index-gather stretch writes only its own twenty-three values. -/
theorem keeps0_1 (W : Valuation τ sig (Elt Ideal)) (b : Ref sig .tc) (h : b ∉ hostOps0_1_W) :
    StableHlo.after hostOps0_1 W (Proc.devRef .tc b) = W (Proc.devRef .tc b) :=
  StableHlo.after_of_writes_sub hostOps0_1 W hostOps0_1_writes h

/-! ## Index words: the wrap of a word in `[-20000, 20000)` lands in `[0, 19999]` -/

private theorem toInt_0 : (0#32 : BitVec 32).toInt = 0 := by decide
private theorem toInt_20000 : (20000#32 : BitVec 32).toInt = 20000 := by decide
private theorem toInt_19999 : (19999#32 : BitVec 32).toInt = 19999 := by decide

/-- The wrapped word's signed reading: a negative index has `20000` added, any other is kept. -/
theorem wrapW_toInt (e : BitVec 32) (h1 : -20000 ≤ e.toInt) (h2 : e.toInt < 20000) :
    (SpecArr.wrapW e).toInt = if e.toInt < 0 then e.toInt + 20000 else e.toInt := by
  unfold SpecArr.wrapW Scalar.select IntOp.cmpi IntOp.addi
  by_cases hneg : e.toInt < 0
  · have hs : e.slt 0#32 = true := by rw [BitVec.slt_iff_toInt_lt, toInt_0]; exact hneg
    simp only [hs, BitVec.ofBool_true, if_true, if_pos hneg]
    rw [BitVec.toInt_add, toInt_20000, Int.bmod_eq_of_le_mul_two (by omega) (by omega)]
  · have hs : e.slt 0#32 = false := by
      rw [BitVec.slt_eq_decide, toInt_0]; exact decide_eq_false hneg
    simp only [hs, BitVec.ofBool_false, if_neg hneg]
    rw [if_neg (by decide)]

/-- So it lies in `[0, 19999]`. -/
theorem wrapW_range (e : BitVec 32) (h1 : -20000 ≤ e.toInt) (h2 : e.toInt < 20000) :
    0 ≤ (SpecArr.wrapW e).toInt ∧ (SpecArr.wrapW e).toInt ≤ 19999 := by
  rw [wrapW_toInt e h1 h2]; split <;> omega

/-- Both range tests of the gather's fill mask hold of a word whose signed reading lies in `[0, 19999]`. -/
theorem mask_bit (v : BitVec 32) (h : 0 ≤ v.toInt ∧ v.toInt ≤ 19999) :
    IntOp.andi (IntOp.cmpi .sge v 0#32) (IntOp.cmpi .sle v 19999#32) = 1#1 := by
  have ha : (0#32 : BitVec 32).sle v = true := by rw [BitVec.sle_iff_toInt_le, toInt_0]; exact h.1
  have hb : v.sle 19999#32 = true := by rw [BitVec.sle_iff_toInt_le, toInt_19999]; exact h.2
  show IntOp.andi (BitVec.ofBool ((0#32 : BitVec 32).sle v)) (BitVec.ofBool (v.sle 19999#32)) = 1#1
  rw [ha, hb]; decide

/-! ## Broadcasts and the unit-axis `and`-reduction read at an index -/

section Reads
variable {α : Type}

/-- A vector laid as an `[n, 1]` column reads, at `(p, 0)`, the vector at `p`. -/
theorem bcast_col_apply {n : Nat} (h : (⟨1, ![n]⟩ : Shape).BroadcastsInDim ⟨2, ![n, 1]⟩ ![0])
    (v : (⟨1, ![n]⟩ : Shape).Idx → α) (i : (⟨2, ![n, 1]⟩ : Shape).Idx) :
    broadcastInDim ⟨2, ![n, 1]⟩ ![0] h v i = v (ix1 ⟨(i 0).val, idx2_lt0 i⟩) := by
  simp only [broadcastInDim]
  congr 1
  funext a
  have ha : a = 0 := Subsingleton.elim _ _
  subst ha
  apply Fin.ext
  have hp := idx2_lt0 i
  split
  · next h1 => change n = 1 at h1; show (0 : Nat) = (i 0).val; omega
  · rfl

/-- A vector laid along the first axis of an `[n, m]` rectangle reads, at `(p, q)`, the vector at `p`. -/
theorem bcast_row_apply {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

end Reads

/-- A left fold by `and` from `1` over bits that are all `1` is `1`. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from `1` of a mask that is `1` everywhere is `1` everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x hx _

/-! ## The index gather: `AGE_inx[Endx]` in fill mode, read at an index -/

section Take

/-- The index vector wrapped, element by element. -/
def wrapV (e : IVec S4096 32) : IVec S4096 32 :=
  select (cmpi .slt e (broadcastInDim S4096 ![] bcast_S_S4096 (constantI S_ 32 0#32)))
    (addi e (broadcastInDim S4096 ![] bcast_S_S4096 (constantI S_ 32 20000#32))) e

private theorem wrapV_apply (e : IVec S4096 32) (q : S4096.Idx) : wrapV e q = SpecArr.wrapW (e q) := rfl

/-- The wrapped indices as the gather's `[4096, 1]` start-index column. -/
def colV (e : IVec S4096 32) : IVec S4096x1 32 := broadcastInDim S4096x1 ![0] bcast_S4096_S4096x1_0 (wrapV e)

/-- The fill mask before its reduction: both range tests of the wrapped index, per row. -/
def maskV (e : IVec S4096 32) : IVec S4096x1 1 :=
  andi (cmpi .sge (colV e) (broadcastInDim S4096x1 ![] bcast_S_S4096x1 (constantI S_ 32 0#32)))
    (cmpi .sle (colV e) (broadcastInDim S4096x1 ![0, 1] bcast_S1x1_S4096x1_0_1
      (broadcastInDim S1x1 ![1] bcast_S1_S1x1_1 (constantI S1 32 19999#32))))

/-- With every index word in `[-20000, 20000)` the mask is all ones. -/
private theorem maskV_one (e : IVec S4096 32) (hr : ∀ q : S4096.Idx, -20000 ≤ (e q).toInt ∧ (e q).toInt < 20000)
    (i : S4096x1.Idx) : maskV e i = 1#1 := by
  show IntOp.andi (IntOp.cmpi .sge (colV e i) 0#32) (IntOp.cmpi .sle (colV e i) 19999#32) = 1#1
  unfold colV
  rw [bcast_col_apply, wrapV_apply]
  exact mask_bit _ (wrapW_range _ (hr _).1 (hr _).2)

/-- THE TAKE READ AT `(k, d)`: with every index word in `[-20000, 20000)` no row is filled, and row `k` of the result is
    the table row the wrapped word selects. -/
theorem take_apply (x : S20000x768.Idx → EReal) (e : IVec S4096 32)
    (hr : ∀ q : S4096.Idx, -20000 ≤ (e q).toInt ∧ (e q).toInt < 20000) (k : Fin 4096) (d : Fin 768) :
    select
        (broadcastInDim S4096x768 ![0] bcast_S4096_S4096x768_0
          (Host.reduce IntOp.andi (maskV e) (constantI S_ 1 1#1) reducesTo_S4096x1_S4096_d1 h_S_))
        (Host.gather gather_S20000x768_S4096x1_S4096x768_1_0_n_n_0_1_1768 x (colV e))
        (broadcastInDim S4096x768 ![] bcast_S_S4096x768 (constant (F := Ideal) S_ .f32 0x7FC00000#32)) (ix2 k d)
      = x (ix2 (SpecArr.rowOf (e (ix1 k))) d) := by
  rw [select_apply, bcast_row_apply, reduce_andi_ones _ _ _ _ rfl (maskV_one e hr), select_one]
  refine (RowGather.gather_rows_apply (by decide) gather_S20000x768_S4096x1_S4096x768_1_0_n_n_0_1_1768_wf x (colV e) k d).trans ?_
  unfold colV
  rw [bcast_col_apply, wrapV_apply]
  rfl

end Take

/-- The gathered node rows, read at an index: row `k` is the table row `Endx[k]` selects. -/
theorem v3_apply (W : Valuation τ sig (Elt Ideal))
    (hr : ∀ k : Fin 4096, -20000 ≤ ((W (Proc.devRef .tc main_arg2) : S4096.Idx → BitVec 32) (ix1 k)).toInt
      ∧ ((W (Proc.devRef .tc main_arg2) : S4096.Idx → BitVec 32) (ix1 k)).toInt < 20000)
    (k : Fin 4096) (d : Fin 768) :
    (StableHlo.after hostOps0_1 W (Proc.devRef .tc main_v3) : S4096x768.Idx → EReal) (ix2 k d)
      = (W (Proc.devRef .tc main_arg1) : S20000x768.Idx → EReal)
          (ix2 (SpecArr.rowOf ((W (Proc.devRef .tc main_arg2) : S4096.Idx → BitVec 32) (ix1 k))) d) := by
  have hr' : ∀ q : S4096.Idx, -20000 ≤ ((W (Proc.devRef .tc main_arg2) : S4096.Idx → BitVec 32) q).toInt
      ∧ ((W (Proc.devRef .tc main_arg2) : S4096.Idx → BitVec 32) q).toInt < 20000 := fun q => by
    rw [eq_ix1 q]; exact hr _
  dsimp only [hostOps0_1]
  after_results_simp
  simp only [StableHlo.TRef.ofBuf, StableHlo.TRef.toBuf, cast_eq]
  exact take_apply _ _ hr' k d

/-! ## The index range out of the precondition -/

/-- The scalar shape has one index. -/
private instance : Subsingleton Cert.Pre_finite_inputs.S_.Idx := ⟨fun a b => funext fun d => d.elim0⟩

private theorem toInt_neg20000 : (4294947296#32 : BitVec 32).toInt = -20000 := by decide

/-- The precondition's last conjunct, `all((Endx ≥ -20000) ∧ (Endx < 20000))`, read at one index word. -/
theorem endx_range [hPre_finite_inputs : Cert.Pre_finite_inputs.Facts]
    (m : (ℓ : Loc nD τ sig) → Buf (Elt Ideal) ℓ) (h : Cert.Pre_KernelIdeal m) (c : Dev nD) (k : Fin 4096) :
    -20000 ≤ ((m ((c.tc : Thread nD τ).loc main_arg2) : S4096.Idx → BitVec 32) (ix1 k)).toInt
      ∧ ((m ((c.tc : Thread nD τ).loc main_arg2) : S4096.Idx → BitVec 32) (ix1 k)).toInt < 20000 := by
  have h0 := congrFun (h c) ix0
  dsimp only [Cert.Pre_finite_inputs.fn, Cert.Pre_finite_inputs.fn_part1, Cert.Pre_finite_inputs.fn_part2,
    Cert.Pre_finite_inputs.fn_part3] at h0
  have h1 := (IntOp.andi_eq_one.1 h0).2
  have h2 := IntOp.andi_eq_one.1 (Host.reduce_andi_all _ _ _ _ _ h1 (ix1 k))
  have ha : (4294947296#32 : BitVec 32).sle ((m ((c.tc : Thread nD τ).loc main_arg2) : S4096.Idx → BitVec 32) (ix1 k)) = true :=
    (StableHlo.Predicate.ofBool_eq_one_iff _).1 h2.1
  have hb : ((m ((c.tc : Thread nD τ).loc main_arg2) : S4096.Idx → BitVec 32) (ix1 k)).slt 20000#32 = true :=
    (StableHlo.Predicate.ofBool_eq_one_iff _).1 h2.2
  rw [BitVec.sle_iff_toInt_le, toInt_neg20000] at ha
  rw [BitVec.slt_iff_toInt_lt, toInt_20000] at hb
  exact ⟨ha, hb⟩

end Cert.KernelIdeal.Entry

end
-- ==== Proof.KI.Value0.lean ====
/-
  Region 0's value: what the fused LinTrans / E-projection kernel leaves in its output array.

  The body's one store writes, into the output's 1024 × 256 tile, the payload of the six loaded blocks. Read at
  row `r`, lane `d` of the tile the payload is the row-level specification `Spec.ewRow` of row `r` of the blocks: the two
  products are sums over the contraction index, the lane minimum, maximum and sum of a row are folds over the row, the
  keepdims columns and their spreading over the lanes read the row's own entry, and a change of float format is the
  identity. The weights' and biases' blocks are the whole arrays at every point; the row blocks of the gathered rows,
  of `outW` and of the output sit at rows `1024 t … 1024 t + 1023` at point `t`. So what point `t` writes back is its
  block of the one whole-array function `SpecArr.ewArr`, the four blocks tile the 4096 rows, and the array ends holding it.
-/
import proofs.«406561_j274877907022_3_alg».proof.Proof.KI.Region0
import proofs.«406561_j274877907022_3_alg».proof.Proof.SpecArr
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace V0
/-! ## Column forms of the layout operations -/

section Layout
variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Lane reductions of a `[a, b]` vector along its rows -/

/-- The source index over row `r` with lane `k` inserted is `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The least entry of row `r`: the lane minimum read at a row. -/
theorem rowMin_read (z : FVec Ideal S1024x768 .f32) (h : S1024x768.Reduces [1] S1024) (hφ : FKind.Formats .f32)
    (hacc : (0x7F800000#32 : BitVec 32) = FKind.minimumf.neutral .f32 hφ) (r : Fin 1024) :
    multiReduction .minimumf [1] S1024 z 0x7F800000#32 h hφ hacc (ix1 r) = Spec.rowMin (fun j : Fin 768 => z (ix2 r j)) := by
  refine (multiReduction_minimumf_eq_fold z _ h hφ hacc (ix1 r)).trans ?_
  refine (h.fold_filter_drop_single _ _ z (ix1 r)).trans ?_
  have e : (z ∘ h.lift (ix1 r)) = fun j : Fin 768 => z (ix2 r j) := funext fun k => congrArg z (lift_row h r k)
  rw [e]; rfl

/-- The greatest entry of row `r`. -/
theorem rowMax_read (z : FVec Ideal S1024x768 .f32) (h : S1024x768.Reduces [1] S1024) (hφ : FKind.Formats .f32)
    (hacc : (0xFF800000#32 : BitVec 32) = FKind.maximumf.neutral .f32 hφ) (r : Fin 1024) :
    multiReduction .maximumf [1] S1024 z 0xFF800000#32 h hφ hacc (ix1 r) = Spec.rowMax (fun j : Fin 768 => z (ix2 r j)) := by
  refine (multiReduction_maximumf_eq_fold z _ h hφ hacc (ix1 r)).trans ?_
  refine (h.fold_filter_drop_single _ _ z (ix1 r)).trans ?_
  have e : (z ∘ h.lift (ix1 r)) = fun j : Fin 768 => z (ix2 r j) := funext fun k => congrArg z (lift_row h r k)
  rw [e]; rfl

/-- The sum of row `r`. -/
theorem rowSum_read (v : FVec Ideal S1024x768 .f32) (h : S1024x768.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ j : Fin 768, v (ix2 r j) :=
  (Ideal.multiReduction_add_single v _ h hφ hacc (ix1 r)).trans
    (Finset.sum_congr rfl fun k _ => congrArg v (lift_row h r k))

/-! ## The two products at an index -/

theorem lhsA_0 (i : S1024x768.Idx) (q : dot_S1024x768_S768x768_S1024x768_1_0_0_1_n_n.contr.Idx) :
    (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide), dif_pos (show (0 : Fin S1024x768.rank) ∈ dot_S1024x768_S768x768_S1024x768_1_0_0_1_n_n.lhsNonContracting by decide)]
  rfl
theorem lhsA_1 (i : S1024x768.Idx) (q : dot_S1024x768_S768x768_S1024x768_1_0_0_1_n_n.contr.Idx) :
    (dot_S1024x768_S768x768_S1024x768_1_0_0_1_n_n.lhsIdx i q 1).val = (q ⟨0, by decide⟩).val :=
  dot_S1024x768_S768x768_S1024x768_1_0_0_1_n_n.lhsIdx_val_of_single rfl i q
theorem rhsA_0 (i : S1024x768.Idx) (q : dot_S1024x768_S768x768_S1024x768_1_0_0_1_n_n.contr.Idx) :
    (dot_S1024x768_S768x768_S1024x768_1_0_0_1_n_n.rhsIdx i q 0).val = (q ⟨0, by decide⟩).val :=
  dot_S1024x768_S768x768_S1024x768_1_0_0_1_n_n.rhsIdx_val_of_single rfl i q
theorem rhsA_1 (i : S1024x768.Idx) (q : dot_S1024x768_S768x768_S1024x768_1_0_0_1_n_n.contr.Idx) :
    (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide), dif_pos (show (1 : Fin S768x768.rank) ∈ dot_S1024x768_S768x768_S1024x768_1_0_0_1_n_n.rhsNonContracting by decide)]
  rfl

/-- The product into a zero accumulator read at `(r, j)`: row `r` of the left operand against column `j` of the right. -/
theorem matmulA_apply {φ₁ φ₂ : FTy} (l : FVec Ideal S1024x768 φ₁) (w : FVec Ideal S768x768 φ₂) (r : Fin 1024) (j : Fin 768) :
    matmul dot_S1024x768_S768x768_S1024x768_1_0_0_1_n_n none l w (constant (F := Ideal) S1024x768 .f32 0x00000000#32) (ix2 r j)
      = ∑ k : Fin 768, l (ix2 r k) * w (ix2 k j) := by
  show FloatOps.matmul dot_S1024x768_S768x768_S1024x768_1_0_0_1_n_n none l w (constant (F := Ideal) S1024x768 .f32 0x00000000#32) (ix2 r j) = _
  rw [Ideal.matmul_constant_zero_apply, ← Equiv.sum_comp (ValueIdx.contrEquiv1 dot_S1024x768_S768x768_S1024x768_1_0_0_1_n_n 768 rfl rfl).symm]
  refine Finset.sum_congr rfl fun k _ => ?_
  have hk := ValueIdx.contrEquiv1_symm_val dot_S1024x768_S768x768_S1024x768_1_0_0_1_n_n 768 rfl rfl k
  have el : dot_S1024x768_S768x768_S1024x768_1_0_0_1_n_n.lhsIdx (ix2 r j) ((ValueIdx.contrEquiv1 dot_S1024x768_S768x768_S1024x768_1_0_0_1_n_n 768 rfl rfl).symm k) = ix2 r k := funext fun a => Fin.ext (by
    match a with
    | ⟨0, _⟩ => exact lhsA_0 _ _
    | ⟨1, _⟩ => exact (lhsA_1 _ _).trans hk)
  have er : dot_S1024x768_S768x768_S1024x768_1_0_0_1_n_n.rhsIdx (ix2 r j) ((ValueIdx.contrEquiv1 dot_S1024x768_S768x768_S1024x768_1_0_0_1_n_n 768 rfl rfl).symm k) = ix2 k j := funext fun a => Fin.ext (by
    match a with
    | ⟨0, _⟩ => exact (rhsA_0 _ _).trans hk
    | ⟨1, _⟩ => exact rhsA_1 _ _)
  rw [el, er]

theorem lhsB_0 (i : S1024x256.Idx) (q : dot_S1024x768_S768x256_S1024x256_1_0_0_1_n_n.contr.Idx) :
    (dot_S1024x768_S768x256_S1024x256_1_0_0_1_n_n.lhsIdx i q 0).val = (i 0).val := by
  unfold DotDims.lhsIdx
  rw [dif_neg (show ¬(0 : Fin S1024x768.rank) ∈ dot_S1024x768_S768x256_S1024x256_1_0_0_1_n_n.lhsBatch by decide), dif_pos (show (0 : Fin S1024x768.rank) ∈ dot_S1024x768_S768x256_S1024x256_1_0_0_1_n_n.lhsNonContracting by decide)]
  rfl
theorem lhsB_1 (i : S1024x256.Idx) (q : dot_S1024x768_S768x256_S1024x256_1_0_0_1_n_n.contr.Idx) :
    (dot_S1024x768_S768x256_S1024x256_1_0_0_1_n_n.lhsIdx i q 1).val = (q ⟨0, by decide⟩).val :=
  dot_S1024x768_S768x256_S1024x256_1_0_0_1_n_n.lhsIdx_val_of_single rfl i q
theorem rhsB_0 (i : S1024x256.Idx) (q : dot_S1024x768_S768x256_S1024x256_1_0_0_1_n_n.contr.Idx) :
    (dot_S1024x768_S768x256_S1024x256_1_0_0_1_n_n.rhsIdx i q 0).val = (q ⟨0, by decide⟩).val :=
  dot_S1024x768_S768x256_S1024x256_1_0_0_1_n_n.rhsIdx_val_of_single rfl i q
theorem rhsB_1 (i : S1024x256.Idx) (q : dot_S1024x768_S768x256_S1024x256_1_0_0_1_n_n.contr.Idx) :
    (dot_S1024x768_S768x256_S1024x256_1_0_0_1_n_n.rhsIdx i q 1).val = (i 1).val := by
  unfold DotDims.rhsIdx
  rw [dif_neg (show ¬(1 : Fin S768x256.rank) ∈ dot_S1024x768_S768x256_S1024x256_1_0_0_1_n_n.rhsBatch by decide), dif_pos (show (1 : Fin S768x256.rank) ∈ dot_S1024x768_S768x256_S1024x256_1_0_0_1_n_n.rhsNonContracting by decide)]
  rfl

/-- The product into a zero accumulator read at `(r, j)`: row `r` of the left operand against column `j` of the right. -/
theorem matmulB_apply {φ₁ φ₂ : FTy} (l : FVec Ideal S1024x768 φ₁) (w : FVec Ideal S768x256 φ₂) (r : Fin 1024) (j : Fin 256) :
    matmul dot_S1024x768_S768x256_S1024x256_1_0_0_1_n_n none l w (constant (F := Ideal) S1024x256 .f32 0x00000000#32) (ix2 r j)
      = ∑ k : Fin 768, l (ix2 r k) * w (ix2 k j) := by
  show FloatOps.matmul dot_S1024x768_S768x256_S1024x256_1_0_0_1_n_n none l w (constant (F := Ideal) S1024x256 .f32 0x00000000#32) (ix2 r j) = _
  rw [Ideal.matmul_constant_zero_apply, ← Equiv.sum_comp (ValueIdx.contrEquiv1 dot_S1024x768_S768x256_S1024x256_1_0_0_1_n_n 768 rfl rfl).symm]
  refine Finset.sum_congr rfl fun k _ => ?_
  have hk := ValueIdx.contrEquiv1_symm_val dot_S1024x768_S768x256_S1024x256_1_0_0_1_n_n 768 rfl rfl k
  have el : dot_S1024x768_S768x256_S1024x256_1_0_0_1_n_n.lhsIdx (ix2 r j) ((ValueIdx.contrEquiv1 dot_S1024x768_S768x256_S1024x256_1_0_0_1_n_n 768 rfl rfl).symm k) = ix2 r k := funext fun a => Fin.ext (by
    match a with
    | ⟨0, _⟩ => exact lhsB_0 _ _
    | ⟨1, _⟩ => exact (lhsB_1 _ _).trans hk)
  have er : dot_S1024x768_S768x256_S1024x256_1_0_0_1_n_n.rhsIdx (ix2 r j) ((ValueIdx.contrEquiv1 dot_S1024x768_S768x256_S1024x256_1_0_0_1_n_n 768 rfl rfl).symm k) = ix2 k j := funext fun a => Fin.ext (by
    match a with
    | ⟨0, _⟩ => exact (rhsB_0 _ _).trans hk
    | ⟨1, _⟩ => exact rhsB_1 _ _)
  rw [el, er]

/-! ## The payload as four stages over a tile of 1024 rows -/

/-- The affine stage `x · Wt + b` (the weight already transposed, the bias spread over the rows). -/
def affT (x0 : Vec Ideal S1024x768 .f32) (x1 : Vec Ideal S768x768 .f32) (x2 : Vec Ideal S768 .f32) : FVec Ideal S1024x768 .f32 :=
  addf (matmul dot_S1024x768_S768x768_S1024x768_1_0_0_1_n_n none
      (truncf .bf16 (shapeCast S1024x768 x0 Gen.shapeCasts_S1024x768_S1024x768) Gen.bitsLt_bf16_f32)
      (truncf .bf16 (shapeCast S768x768 x1 Gen.shapeCasts_S768x768_S768x768) Gen.bitsLt_bf16_f32)
      (constant S1024x768 .f32 0x00000000#32))
    (broadcastTo S1024x768 (shapeCast S1x768 x2 Gen.shapeCasts_S768_S1x768) Gen.broadcasts_S1x768_S1024x768)

/-- The rows' minima and maxima, as columns. -/
def minCol (z : FVec Ideal S1024x768 .f32) : FVec Ideal S1024x1 .f32 :=
  shapeCast S1024x1 (multiReduction .minimumf [1] S1024 z 0x7F800000#32 Gen.reduces_S1024x768_S1024 (.inl rfl) rfl) Gen.shapeCasts_S1024_S1024x1
def maxCol (z : FVec Ideal S1024x768 .f32) : FVec Ideal S1024x1 .f32 :=
  shapeCast S1024x1 (multiReduction .maximumf [1] S1024 z 0xFF800000#32 Gen.reduces_S1024x768_S1024 (.inl rfl) rfl) Gen.shapeCasts_S1024_S1024x1

/-- Min-max scaling of every row. -/
def scaleT (z : FVec Ideal S1024x768 .f32) : FVec Ideal S1024x768 .f32 :=
  divf (subf z (broadcastTo S1024x768 (minCol z) Gen.broadcasts_S1024x1_S1024x768))
    (broadcastTo S1024x768 (subf (maxCol z) (minCol z)) Gen.broadcasts_S1024x1_S1024x768)

/-- The rows' floored L2 norms, as a column. -/
def normCol (u : FVec Ideal S1024x768 .f32) : FVec Ideal S1024x1 .f32 :=
  maximumf (sqrt (shapeCast S1024x1 (multiReduction .add [1] S1024 (mulf u u) 0x00000000#32 Gen.reduces_S1024x768_S1024 (.inl rfl) rfl) Gen.shapeCasts_S1024_S1024x1))
    (broadcast S1024x1 (Scalar.ofBits .f32 0x2B8CBCCC#32 : Ideal .f32))

/-- L2 normalisation of every row. -/
def normT (u : FVec Ideal S1024x768 .f32) : FVec Ideal S1024x768 .f32 :=
  divf u (broadcastTo S1024x768 (normCol u) Gen.broadcasts_S1024x1_S1024x768)

/-- The projection stage: `tanh (a · Wt + b) ⊙ w`. -/
def projT (a : FVec Ideal S1024x768 .f32) (x3 : Vec Ideal S768x256 .f32) (x4 : Vec Ideal S256 .f32) (x5 : Vec Ideal S1024x256 .f32) : FVec Ideal S1024x256 .bf16 :=
  truncf .bf16 (mulf (tanh (addf (matmul dot_S1024x768_S768x256_S1024x256_1_0_0_1_n_n none
      (truncf .bf16 a Gen.bitsLt_bf16_f32)
      (truncf .bf16 (shapeCast S768x256 x3 Gen.shapeCasts_S768x256_S768x256) Gen.bitsLt_bf16_f32)
      (constant S1024x256 .f32 0x00000000#32))
    (broadcastTo S1024x256 (shapeCast S1x256 x4 Gen.shapeCasts_S256_S1x256) Gen.broadcasts_S1x256_S1024x256))) x5) Gen.bitsLt_bf16_f32

/-- The payload is the four stages composed. -/
theorem pay0_stages (x0 : Vec Ideal S1024x768 .f32) (x1 : Vec Ideal S768x768 .f32) (x2 : Vec Ideal S768 .f32)
    (x3 : Vec Ideal S768x256 .f32) (x4 : Vec Ideal S256 .f32) (x5 : Vec Ideal S1024x256 .f32) :
    k0_pay1 x0 x1 x2 x3 x4 x5 = projT (normT (scaleT (affT x0 x1 x2))) x3 x4 x5 := rfl

theorem affT_apply (x0 : Vec Ideal S1024x768 .f32) (x1 : Vec Ideal S768x768 .f32) (x2 : Vec Ideal S768 .f32) (r : Fin 1024) (j : Fin 768) :
    affT x0 x1 x2 (ix2 r j) = Spec.lin (SpecArr.m2 x0 r) (SpecArr.tr x1) (SpecArr.m1 x2) j := by
  unfold affT
  rw [shapeCast_self, shapeCast_self, addf_apply, matmulA_apply, broadcastTo_1b_ab_apply, shapeCast_a_1a_apply]
  rfl

theorem minCol_apply (z : FVec Ideal S1024x768 .f32) (r : Fin 1024) (u : Fin 1) :
    minCol z (ix2 r u) = Spec.rowMin (fun j : Fin 768 => z (ix2 r j)) :=
  (shapeCast_a_a1_apply _ _ r u).trans (rowMin_read z _ _ _ r)

theorem maxCol_apply (z : FVec Ideal S1024x768 .f32) (r : Fin 1024) (u : Fin 1) :
    maxCol z (ix2 r u) = Spec.rowMax (fun j : Fin 768 => z (ix2 r j)) :=
  (shapeCast_a_a1_apply _ _ r u).trans (rowMax_read z _ _ _ r)

theorem scaleT_apply (z : FVec Ideal S1024x768 .f32) (r : Fin 1024) (j : Fin 768) :
    scaleT z (ix2 r j) = Spec.scaled (fun j : Fin 768 => z (ix2 r j)) j := by
  unfold scaleT
  rw [divf_apply, subf_apply, broadcastTo_a1_ab_apply, broadcastTo_a1_ab_apply, subf_apply, minCol_apply, maxCol_apply]
  rfl

theorem normCol_apply (u : FVec Ideal S1024x768 .f32) (r : Fin 1024) (o : Fin 1) :
    normCol u (ix2 r o) = max (Ideal.sqrt (∑ d : Fin 768, u (ix2 r d) * u (ix2 r d))) (Ideal.ofBits .f32 0x2B8CBCCC#32) := by
  unfold normCol
  rw [maximumf_apply]
  exact congrArg (fun s => max (Ideal.sqrt s) (Ideal.ofBits .f32 0x2B8CBCCC#32))
    ((shapeCast_a_a1_apply _ _ r o).trans (rowSum_read (mulf u u) _ _ _ r))

theorem normT_apply (u : FVec Ideal S1024x768 .f32) (r : Fin 1024) (j : Fin 768) :
    normT u (ix2 r j) = Spec.normalised (fun j : Fin 768 => u (ix2 r j)) j := by
  unfold normT
  rw [divf_apply, broadcastTo_a1_ab_apply, normCol_apply]
  rfl

theorem projT_apply (a : FVec Ideal S1024x768 .f32) (x3 : Vec Ideal S768x256 .f32) (x4 : Vec Ideal S256 .f32) (x5 : Vec Ideal S1024x256 .f32)
    (r : Fin 1024) (d : Fin 256) :
    projT a x3 x4 x5 (ix2 r d)
      = Ideal.tanh (Spec.lin (fun j : Fin 768 => a (ix2 r j)) (SpecArr.tr x3) (SpecArr.m1 x4) d) * x5 (ix2 r d) := by
  unfold projT
  rw [shapeCast_self]
  show Ideal.tanh (matmul (F := Ideal) dot_S1024x768_S768x256_S1024x256_1_0_0_1_n_n none (truncf .bf16 a Gen.bitsLt_bf16_f32) (truncf .bf16 x3 Gen.bitsLt_bf16_f32) (constant S1024x256 .f32 0x00000000#32) (ix2 r d)
      + broadcastTo S1024x256 (shapeCast S1x256 x4 Gen.shapeCasts_S256_S1x256) Gen.broadcasts_S1x256_S1024x256 (ix2 r d)) * x5 (ix2 r d) = _
  rw [matmulB_apply, broadcastTo_1b_ab_apply, shapeCast_a_1a_apply]
  rfl

/-- The payload at row `r`, lane `d` of the tile: the row-level specification of row `r` of the loaded blocks. -/
theorem pay0_apply (x0 : Vec Ideal S1024x768 .f32) (x1 : Vec Ideal S768x768 .f32) (x2 : Vec Ideal S768 .f32)
    (x3 : Vec Ideal S768x256 .f32) (x4 : Vec Ideal S256 .f32) (x5 : Vec Ideal S1024x256 .f32) (r : Fin 1024) (d : Fin 256) :
    k0_pay1 x0 x1 x2 x3 x4 x5 (ix2 r d)
      = Spec.ewRow (SpecArr.m2 x0 r) (SpecArr.tr x1) (SpecArr.m1 x2) (SpecArr.tr x3) (SpecArr.m1 x4) (SpecArr.m2 x5 r) d := by
  have e1 : (fun j : Fin 768 => affT x0 x1 x2 (ix2 r j)) = Spec.lin (SpecArr.m2 x0 r) (SpecArr.tr x1) (SpecArr.m1 x2) :=
    funext fun j => affT_apply x0 x1 x2 r j
  have e2 : (fun j : Fin 768 => scaleT (affT x0 x1 x2) (ix2 r j)) = Spec.scaled (Spec.lin (SpecArr.m2 x0 r) (SpecArr.tr x1) (SpecArr.m1 x2)) :=
    funext fun j => (scaleT_apply _ r j).trans (by rw [e1])
  have e3 : (fun j : Fin 768 => normT (scaleT (affT x0 x1 x2)) (ix2 r j)) = Spec.lintrans (SpecArr.m2 x0 r) (SpecArr.tr x1) (SpecArr.m1 x2) :=
    funext fun j => (normT_apply _ r j).trans (by rw [e2]; rfl)
  rw [pay0_stages, projT_apply, e3]
  rfl

/-! ## From the tile to the array -/

theorem hz2 : (![0, 0] : Fin 2 → Nat) = fun _ => 0 := funext fun a => by fin_cases a <;> rfl
theorem hz1 : (![0] : Fin 1 → Nat) = fun _ => 0 := funext fun a => by fin_cases a <;> rfl

/-- The payload at an index `y` of the tile is the array-level specification at an index `i` of the array, when the
    tile's row blocks hold the array's row of `i`, the other blocks are the whole arrays, and the lanes agree. -/
theorem pay0_eq_ewArr (xg : Vec Ideal S4096x768 .f32) (wa : Vec Ideal S768x768 .f32) (ba : Vec Ideal S768 .f32)
    (wl : Vec Ideal S768x256 .f32) (bl : Vec Ideal S256 .f32) (ow : Vec Ideal S4096x256 .f32)
    (x0 : Vec Ideal S1024x768 .f32) (x1 : Vec Ideal S768x768 .f32) (x2 : Vec Ideal S768 .f32)
    (x3 : Vec Ideal S768x256 .f32) (x4 : Vec Ideal S256 .f32) (x5 : Vec Ideal S1024x256 .f32)
    (y : S1024x256.Idx) (i : S4096x256.Idx)
    (h0 : SpecArr.m2 x0 (SpecArr.c0 y) = SpecArr.m2 xg (SpecArr.c0 i)) (h1 : x1 = wa) (h2 : x2 = ba) (h3 : x3 = wl) (h4 : x4 = bl)
    (h5 : SpecArr.m2 x5 (SpecArr.c0 y) = SpecArr.m2 ow (SpecArr.c0 i)) (hd : SpecArr.c1 y = SpecArr.c1 i) :
    k0_pay1 x0 x1 x2 x3 x4 x5 y = SpecArr.ewArr xg wa ba wl bl ow i := by
  subst h1 h2 h3 h4
  have hy : y = ix2 (SpecArr.c0 y) (SpecArr.c1 y) := funext fun a => by match a with | ⟨0, _⟩ => rfl | ⟨1, _⟩ => rfl
  calc k0_pay1 x0 x1 x2 x3 x4 x5 y = k0_pay1 x0 x1 x2 x3 x4 x5 (ix2 (SpecArr.c0 y) (SpecArr.c1 y)) := congrArg _ hy
    _ = Spec.ewRow (SpecArr.m2 x0 (SpecArr.c0 y)) (SpecArr.tr x1) (SpecArr.m1 x2) (SpecArr.tr x3) (SpecArr.m1 x4)
          (SpecArr.m2 x5 (SpecArr.c0 y)) (SpecArr.c1 y) := pay0_apply x0 x1 x2 x3 x4 x5 _ _
    _ = SpecArr.ewArr xg x1 x2 x3 x4 ow i := by unfold SpecArr.ewArr; rw [h0, h5, hd]

/-- The printed index maps over the grid: the row blocks of the gathered rows and of `outW` move with the output's,
    whose block index is the point; every other block index is 0. -/
theorem idx_facts0 : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = win0_6.index t (0 : Fin 2) ∧ win0_5.index t (1 : Fin 2) = 0
    ∧ win0_6.index t (0 : Fin 2) = t.val ∧ win0_6.index t (1 : Fin 2) = 0 :=
  (by decide +kernel : ∀ t : Fin grid0.N, _)

section Blocks

variable (V : (c : Dev nD) → (b : Ref sig .tc) → Buf (Elt Ideal) ((c : Thread nD τ).loc b))

/-- What point `t` writes back is its block of the array-level specification of the arrays as the region finds them. -/
theorem ew_flushed (c : Dev nD) (t : Fin cfg0.N) :
    (dat0 (F := Ideal) V c).flushed 6 t = ((cfg0.win 6).blk t).view.read (Elt Ideal)
      (SpecArr.ewArr (V c main_v3) (V c main_v0) (V c main_arg4) (V c main_v2) (V c main_arg8) (V c main_arg9)) := by
  show (cfg0.win 6).cut (grid0.coords t) ((dat0 (F := Ideal) V c).after 6 t) = _
  rw [after0_6]
  unfold out0_6
  rw [View.canon_unit_zero hz2]
  simp only [View.ld_unit_zero (S := S1024x768) hz2, View.ld_unit_zero (S := S768x768) hz2, View.ld_unit_zero (S := S768) hz1,
    View.ld_unit_zero (S := S768x256) hz2, View.ld_unit_zero (S := S256) hz1, View.ld_unit_zero (S := S1024x256) hz2]
  obtain ⟨e00, e01, e10, e11, e20, e30, e31, e40, e50, e51, e60, e61⟩ := idx_facts0 t
  funext j
  refine pay0_eq_ewArr (V c main_v3) (V c main_v0) (V c main_arg4) (V c main_v2) (V c main_arg8) (V c main_arg9)
    (iblk0 V c 0 t) (iblk0 V c 1 t) (iblk0 V c 2 t) (iblk0 V c 3 t) (iblk0 V c 4 t) (iblk0 V c 5 t) j
    (((cfg0.win 6).blk t).view.emb j) ?_ ?_ ?_ ?_ ?_ ?_ ?_
  · -- the gathered rows' block: row `1024 t + r` of the array
    funext k
    show V c main_v3 (((cfg0.win 0).blk t).view.emb (ix2 (SpecArr.c0 j) k))
      = V c main_v3 (ix2 (SpecArr.c0 (((cfg0.win 6).blk t).view.emb j)) k)
    refine congrArg _ (funext fun a => Fin.ext ?_)
    match a with
    | ⟨0, _⟩ => show win0_0.index t (0 : Fin 2) * 1024 + 1 * (j 0).val = win0_6.index t (0 : Fin 2) * 1024 + 1 * (j 0).val; rw [e00]
    | ⟨1, _⟩ => show win0_0.index t (1 : Fin 2) * 768 + 1 * k.val = k.val; rw [e01]; omega
  · funext y
    show V c main_v0 (((cfg0.win 1).blk t).view.emb y) = V c main_v0 y
    refine congrArg _ (funext fun a => Fin.ext ?_)
    match a with
    | ⟨0, _⟩ => show win0_1.index t (0 : Fin 2) * 768 + 1 * (y 0).val = (y 0).val; rw [e10]; omega
    | ⟨1, _⟩ => show win0_1.index t (1 : Fin 2) * 768 + 1 * (y 1).val = (y 1).val; rw [e11]; omega
  · funext y
    show V c main_arg4 (((cfg0.win 2).blk t).view.emb y) = V c main_arg4 y
    refine congrArg _ (funext fun a => Fin.ext ?_)
    match a with
    | ⟨0, _⟩ => show win0_2.index t (0 : Fin 1) * 768 + 1 * (y 0).val = (y 0).val; rw [e20]; omega
  · funext y
    show V c main_v2 (((cfg0.win 3).blk t).view.emb y) = V c main_v2 y
    refine congrArg _ (funext fun a => Fin.ext ?_)
    match a with
    | ⟨0, _⟩ => show win0_3.index t (0 : Fin 2) * 768 + 1 * (y 0).val = (y 0).val; rw [e30]; omega
    | ⟨1, _⟩ => show win0_3.index t (1 : Fin 2) * 256 + 1 * (y 1).val = (y 1).val; rw [e31]; omega
  · funext y
    show V c main_arg8 (((cfg0.win 4).blk t).view.emb y) = V c main_arg8 y
    refine congrArg _ (funext fun a => Fin.ext ?_)
    match a with
    | ⟨0, _⟩ => show win0_4.index t (0 : Fin 1) * 256 + 1 * (y 0).val = (y 0).val; rw [e40]; omega
  · funext k
    show V c main_arg9 (((cfg0.win 5).blk t).view.emb (ix2 (SpecArr.c0 j) k))
      = V c main_arg9 (ix2 (SpecArr.c0 (((cfg0.win 6).blk t).view.emb j)) k)
    refine congrArg _ (funext fun a => Fin.ext ?_)
    match a with
    | ⟨0, _⟩ => show win0_5.index t (0 : Fin 2) * 1024 + 1 * (j 0).val = win0_6.index t (0 : Fin 2) * 1024 + 1 * (j 0).val; rw [e50]
    | ⟨1, _⟩ => show win0_5.index t (1 : Fin 2) * 256 + 1 * k.val = k.val; rw [e51]; omega
  · refine Fin.ext ?_
    show (j 1).val = win0_6.index t (1 : Fin 2) * 256 + 1 * (j 1).val
    rw [e61]; omega

/-- An index of the array is in point `t`'s block iff each coordinate is in the block's range on its axis. -/
theorem mem_blk6 (t : Fin cfg0.N) (i : S4096x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v4).slice (win0_6.rect t)).set ↔ _
  rw [View.set_slice_whole, Rect.mem_set_unit]
  exact Iff.rfl

/-- Row `k` of the array is in the block of point `k / 1024`: the four row blocks tile the 4096 rows. -/
theorem ew_cover (i : S4096x256.Idx) :
    ∃ t : Fin cfg0.N, (cfg0.win 6).flush t = true ∧ i ∈ ((cfg0.win 6).blk t).view.set := by
  have hi0 : (i 0).val < 4096 := (i 0).isLt
  have hi1 : (i 1).val < 256 := (i 1).isLt
  have hN : cfg0.N = 4 := N_0
  have ht : (i 0).val / 1024 < cfg0.N := by rw [hN]; omega
  obtain ⟨-, -, -, -, -, -, -, -, -, -, e60, e61⟩ := idx_facts0 ⟨(i 0).val / 1024, ht⟩
  refine ⟨⟨(i 0).val / 1024, ht⟩, flush0_6 _, ?_⟩
  rw [mem_blk6]
  intro a
  match a with
  | ⟨0, _⟩ =>
    show win0_6.index ⟨(i 0).val / 1024, ht⟩ (0 : Fin 2) * 1024 ≤ (i 0).val ∧ (i 0).val < win0_6.index ⟨(i 0).val / 1024, ht⟩ (0 : Fin 2) * 1024 + 1024
    rw [e60]; show (i 0).val / 1024 * 1024 ≤ (i 0).val ∧ (i 0).val < (i 0).val / 1024 * 1024 + 1024; omega
  | ⟨1, _⟩ =>
    show win0_6.index ⟨(i 0).val / 1024, ht⟩ (1 : Fin 2) * 256 ≤ (i 1).val ∧ (i 1).val < win0_6.index ⟨(i 0).val / 1024, ht⟩ (1 : Fin 2) * 256 + 256
    rw [e61]; omega

end Blocks

end V0

/-- Region 0 leaves in its output array the array-level specification of `E ⊙ outW` over the arrays as it found them. -/
theorem ew_final (V : (c : Dev nD) → (b : Ref sig .tc) → Buf (Elt Ideal) ((c : Thread nD τ).loc b)) (c : Dev nD) :
    (dat0 (F := Ideal) V c).arrAt 6 cfg0.N
      = SpecArr.ewArr (V c main_v3) (V c main_v0) (V c main_arg4) (V c main_v2) (V c main_arg8) (V c main_arg9) :=
  (dat0 (F := Ideal) V c).arrAt_eq_of_cover 6
    (SpecArr.ewArr (V c main_v3) (V c main_v0) (V c main_arg4) (V c main_v2) (V c main_arg8) (V c main_arg9))
    (fun t _ => V0.ew_flushed V c t) V0.ew_cover

end Cert.KernelIdeal.Hand

end
-- ==== Proof.KI.Pay1.lean ====
/-
  The three values the main kernel stores, read at one index.

  Each stored value is a matrix product into a zero accumulator plus a bias row, the first one under a hyperbolic
  tangent. At the extended reals a change of float format is the identity, so each entry is a finite sum of products
  of the operands' entries plus one bias entry:
    h[r, d]   = tanh (Σ_k t[r, k] · Wt[k, d] + b[d])          (the weight handed over transposed, [in, out]),
    o_c[r, q] = Σ_k h[r, k] · ew[q, k] + outb[q]               (both operands contracted along their second axis),
    o_f[r, f] = Σ_k h[r, k] · W[f, k] + b[f].
  For each product the operand indices at an output index and a contraction position are computed coordinate by
  coordinate, and the sum over the one-axis contraction index is re-indexed over its coordinate.
-/
import proofs.«406561_j274877907022_3_alg».proof.Proof.Gen.KernelIdeal.Skeleton
import proofs.«406561_j274877907022_3_alg».proof.Proof.SpecArr
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.ValueIdx

/-! ## The product [1024, 768] × [768, 256]: rows of the left operand against columns of the right -/

/-- The left operand's row coordinate is the output's row. -/
theorem lhsA_0 (i : S1024x256.Idx) (q : dot_S1024x768_S768x256_S1024x256_1_0_0_1_n_n.contr.Idx) :
    (dot_S1024x768_S768x256_S1024x256_1_0_0_1_n_n.lhsIdx i q 0).val = (i 0).val := by
  unfold DotDims.lhsIdx
  rw [dif_neg (show ¬(0 : Fin S1024x768.rank) ∈ dot_S1024x768_S768x256_S1024x256_1_0_0_1_n_n.lhsBatch by decide), dif_pos (show (0 : Fin S1024x768.rank) ∈ dot_S1024x768_S768x256_S1024x256_1_0_0_1_n_n.lhsNonContracting by decide)]
  rfl
/-- The left operand's column coordinate is the contraction position. -/
theorem lhsA_1 (i : S1024x256.Idx) (q : dot_S1024x768_S768x256_S1024x256_1_0_0_1_n_n.contr.Idx) :
    (dot_S1024x768_S768x256_S1024x256_1_0_0_1_n_n.lhsIdx i q 1).val = (q ⟨0, by decide⟩).val :=
  dot_S1024x768_S768x256_S1024x256_1_0_0_1_n_n.lhsIdx_val_of_single rfl i q
/-- The right operand's row coordinate is the contraction position. -/
theorem rhsA_0 (i : S1024x256.Idx) (q : dot_S1024x768_S768x256_S1024x256_1_0_0_1_n_n.contr.Idx) :
    (dot_S1024x768_S768x256_S1024x256_1_0_0_1_n_n.rhsIdx i q 0).val = (q ⟨0, by decide⟩).val :=
  dot_S1024x768_S768x256_S1024x256_1_0_0_1_n_n.rhsIdx_val_of_single rfl i q
/-- The right operand's column coordinate is the output's column. -/
theorem rhsA_1 (i : S1024x256.Idx) (q : dot_S1024x768_S768x256_S1024x256_1_0_0_1_n_n.contr.Idx) :
    (dot_S1024x768_S768x256_S1024x256_1_0_0_1_n_n.rhsIdx i q 1).val = (i 1).val := by
  unfold DotDims.rhsIdx
  rw [dif_neg (show ¬(1 : Fin S768x256.rank) ∈ dot_S1024x768_S768x256_S1024x256_1_0_0_1_n_n.rhsBatch by decide), dif_pos (show (1 : Fin S768x256.rank) ∈ dot_S1024x768_S768x256_S1024x256_1_0_0_1_n_n.rhsNonContracting by decide)]
  rfl

/-- Entry (r, d) of the product into a zero accumulator: Σ_k a[r, k] · b[k, d]. -/
theorem matmulA_apply (a : FVec Ideal S1024x768 .bf16) (b : FVec Ideal S768x256 .bf16) (r : Fin 1024) (d : Fin 256) :
    matmul dot_S1024x768_S768x256_S1024x256_1_0_0_1_n_n none a b (constant (F := Ideal) S1024x256 .f32 0x00000000#32) (ix2 r d)
      = ∑ k : Fin 768, a (ix2 r k) * b (ix2 k d) := by
  simp only [matmul]
  rw [Ideal.matmul_constant_zero_apply, ← Equiv.sum_comp (contrEquiv1 dot_S1024x768_S768x256_S1024x256_1_0_0_1_n_n 768 rfl rfl).symm]
  refine Finset.sum_congr rfl fun k _ => ?_
  have hk := contrEquiv1_symm_val dot_S1024x768_S768x256_S1024x256_1_0_0_1_n_n 768 rfl rfl k
  have el : dot_S1024x768_S768x256_S1024x256_1_0_0_1_n_n.lhsIdx (ix2 r d) ((contrEquiv1 dot_S1024x768_S768x256_S1024x256_1_0_0_1_n_n 768 rfl rfl).symm k) = ix2 r k := funext fun ax => Fin.ext (by
    match ax with
    | ⟨0, _⟩ => exact lhsA_0 _ _
    | ⟨1, _⟩ => exact (lhsA_1 _ _).trans hk)
  have er : dot_S1024x768_S768x256_S1024x256_1_0_0_1_n_n.rhsIdx (ix2 r d) ((contrEquiv1 dot_S1024x768_S768x256_S1024x256_1_0_0_1_n_n 768 rfl rfl).symm k) = ix2 k d := funext fun ax => Fin.ext (by
    match ax with
    | ⟨0, _⟩ => exact (rhsA_0 _ _).trans hk
    | ⟨1, _⟩ => exact rhsA_1 _ _)
  rw [el, er]

/-- The hyperbolic tangent of a vector reads pointwise. -/
theorem tanh_apply {s : Shape} {φ : FTy} (a : FVec Ideal s φ) (i : s.Idx) : tanh a i = Ideal.tanh (a i) := rfl

/-- Entry (r, d) of the row block of h: tanh of the affine image of row r of t under the transposed weight. -/
theorem k1_pay1_apply (x0 : FVec Ideal S1024x768 .f32) (x1 : FVec Ideal S768x256 .f32) (x2 : FVec Ideal S256 .f32)
    (r : Fin 1024) (d : Fin 256) :
    k1_pay1 (F := Ideal) x0 x1 x2 (ix2 r d) = Spec.hRow (SpecArr.m2 x0 r) (SpecArr.tr x1) (SpecArr.m1 x2) d := by
  unfold k1_pay1
  rw [shapeCast_self, shapeCast_self, truncf_apply, tanh_apply, addf_apply, matmulA_apply,
    broadcastTo_1b_ab_apply, shapeCast_a_1a_apply]
  rfl

/-! ## The product [1024, 256] × [1024, 256]ᵀ: rows of the left operand against rows of the right -/

/-- The left operand's row coordinate is the output's row. -/
theorem lhsB_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
/-- The left operand's column coordinate is the contraction position. -/
theorem lhsB_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
/-- The right operand's row coordinate is the output's column. -/
theorem rhsB_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
/-- The right operand's column coordinate is the contraction position. -/
theorem rhsB_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- Entry (r, c) of the product into a zero accumulator: Σ_k a[r, k] · b[c, k]. -/
theorem matmulB_apply (a : FVec Ideal S1024x256 .bf16) (b : FVec Ideal S1024x256 .bf16) (r : Fin 1024) (c : Fin 1024) :
    matmul dot_S1024x256_S1024x256_S1024x1024_1_1_0_0_n_n none a b (constant (F := Ideal) S1024x1024 .f32 0x00000000#32) (ix2 r c)
      = ∑ k : Fin 256, a (ix2 r k) * b (ix2 c k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 r c) ((contrEquiv1 dot_S1024x256_S1024x256_S1024x1024_1_1_0_0_n_n 256 rfl rfl).symm k) = ix2 r k := funext fun ax => Fin.ext (by
    match ax with
    | ⟨0, _⟩ => exact lhsB_0 _ _
    | ⟨1, _⟩ => exact (lhsB_1 _ _).trans hk)
  have er : dot_S1024x256_S1024x256_S1024x1024_1_1_0_0_n_n.rhsIdx (ix2 r c) ((contrEquiv1 dot_S1024x256_S1024x256_S1024x1024_1_1_0_0_n_n 256 rfl rfl).symm k) = ix2 c k := funext fun ax => Fin.ext (by
    match ax with
    | ⟨0, _⟩ => exact rhsB_0 _ _
    | ⟨1, _⟩ => exact (rhsB_1 _ _).trans hk)
  rw [el, er]

/-- Entry (r, q) of the tile of o_c: row r of h against row q of the tile of EW, plus the bias entry q. -/
theorem k1_pay2_apply (h ew : FVec Ideal S1024x256 .bf16) (ob : FVec Ideal S1024 .f32) (r q : Fin 1024) :
    k1_pay2 (F := Ideal) h ew ob (ix2 r q) = Spec.ocEntry (SpecArr.m2 h r) (SpecArr.m2 ew q) (SpecArr.m1 ob q) := by
  unfold k1_pay2
  rw [shapeCast_self, addf_apply, matmulB_apply, broadcastTo_1b_ab_apply, shapeCast_a_1a_apply]
  rfl

/-! ## The product [1024, 256] × [50, 256]ᵀ -/

/-- The left operand's row coordinate is the output's row. -/
theorem lhsC_0 (i : S1024x50.Idx) (q : dot_S1024x256_S50x256_S1024x50_1_1_0_0_n_n.contr.Idx) :
    (dot_S1024x256_S50x256_S1024x50_1_1_0_0_n_n.lhsIdx i q 0).val = (i 0).val := by
  unfold DotDims.lhsIdx
  rw [dif_neg (show ¬(0 : Fin S1024x256.rank) ∈ dot_S1024x256_S50x256_S1024x50_1_1_0_0_n_n.lhsBatch by decide), dif_pos (show (0 : Fin S1024x256.rank) ∈ dot_S1024x256_S50x256_S1024x50_1_1_0_0_n_n.lhsNonContracting by decide)]
  rfl
/-- The left operand's column coordinate is the contraction position. -/
theorem lhsC_1 (i : S1024x50.Idx) (q : dot_S1024x256_S50x256_S1024x50_1_1_0_0_n_n.contr.Idx) :
    (dot_S1024x256_S50x256_S1024x50_1_1_0_0_n_n.lhsIdx i q 1).val = (q ⟨0, by decide⟩).val :=
  dot_S1024x256_S50x256_S1024x50_1_1_0_0_n_n.lhsIdx_val_of_single rfl i q
/-- The right operand's row coordinate is the output's column. -/
theorem rhsC_0 (i : S1024x50.Idx) (q : dot_S1024x256_S50x256_S1024x50_1_1_0_0_n_n.contr.Idx) :
    (dot_S1024x256_S50x256_S1024x50_1_1_0_0_n_n.rhsIdx i q 0).val = (i 1).val := by
  unfold DotDims.rhsIdx
  rw [dif_neg (show ¬(0 : Fin S50x256.rank) ∈ dot_S1024x256_S50x256_S1024x50_1_1_0_0_n_n.rhsBatch by decide), dif_pos (show (0 : Fin S50x256.rank) ∈ dot_S1024x256_S50x256_S1024x50_1_1_0_0_n_n.rhsNonContracting by decide)]
  rfl
/-- The right operand's column coordinate is the contraction position. -/
theorem rhsC_1 (i : S1024x50.Idx) (q : dot_S1024x256_S50x256_S1024x50_1_1_0_0_n_n.contr.Idx) :
    (dot_S1024x256_S50x256_S1024x50_1_1_0_0_n_n.rhsIdx i q 1).val = (q ⟨0, by decide⟩).val :=
  dot_S1024x256_S50x256_S1024x50_1_1_0_0_n_n.rhsIdx_val_of_single rfl i q

/-- Entry (r, c) of the product into a zero accumulator: Σ_k a[r, k] · b[c, k]. -/
theorem matmulC_apply (a : FVec Ideal S1024x256 .bf16) (b : FVec Ideal S50x256 .bf16) (r : Fin 1024) (c : Fin 50) :
    matmul dot_S1024x256_S50x256_S1024x50_1_1_0_0_n_n none a b (constant (F := Ideal) S1024x50 .f32 0x00000000#32) (ix2 r c)
      = ∑ k : Fin 256, a (ix2 r k) * b (ix2 c k) := by
  simp only [matmul]
  rw [Ideal.matmul_constant_zero_apply, ← Equiv.sum_comp (contrEquiv1 dot_S1024x256_S50x256_S1024x50_1_1_0_0_n_n 256 rfl rfl).symm]
  refine Finset.sum_congr rfl fun k _ => ?_
  have hk := contrEquiv1_symm_val dot_S1024x256_S50x256_S1024x50_1_1_0_0_n_n 256 rfl rfl k
  have el : dot_S1024x256_S50x256_S1024x50_1_1_0_0_n_n.lhsIdx (ix2 r c) ((contrEquiv1 dot_S1024x256_S50x256_S1024x50_1_1_0_0_n_n 256 rfl rfl).symm k) = ix2 r k := funext fun ax => Fin.ext (by
    match ax with
    | ⟨0, _⟩ => exact lhsC_0 _ _
    | ⟨1, _⟩ => exact (lhsC_1 _ _).trans hk)
  have er : dot_S1024x256_S50x256_S1024x50_1_1_0_0_n_n.rhsIdx (ix2 r c) ((contrEquiv1 dot_S1024x256_S50x256_S1024x50_1_1_0_0_n_n 256 rfl rfl).symm k) = ix2 c k := funext fun ax => Fin.ext (by
    match ax with
    | ⟨0, _⟩ => exact rhsC_0 _ _
    | ⟨1, _⟩ => exact (rhsC_1 _ _).trans hk)
  rw [el, er]

/-- Entry (r, f) of the row block of o_f: row r of h against row f of the weight, plus the bias entry f. -/
theorem k1_pay3_apply (h : FVec Ideal S1024x256 .bf16) (w : FVec Ideal S50x256 .f32) (b : FVec Ideal S50 .f32)
    (r : Fin 1024) (f : Fin 50) :
    k1_pay3 (F := Ideal) h w b (ix2 r f) = Spec.ofEntry (SpecArr.m2 h r) (SpecArr.m2 w f) (SpecArr.m1 b f) := by
  unfold k1_pay3
  rw [addf_apply, matmulC_apply, broadcastTo_1b_ab_apply, shapeCast_a_1a_apply]
  rfl

end Cert.KernelIdeal.Hand

end
-- ==== Proof.KI.Pieces1.lean ====
/-
  Region 1 (the main kernel): what each case's stores leave, in closed form. The stores the two runs make were found
  while the body was executed; here each is opened. Every access of the body but one goes through a whole staging
  buffer, so a load reads the buffer's contents and the one covering store leaves its payload; the exception is the
  load of the `EW` row tile, which reads rows `1024 * i₁ … 1024 * i₁ + 1023` of the `[4096, 256]` block at grid point
  `i`. At column tile 0 the scratch receives `h` and is read back whole before the two products; at the other column
  tiles the scratch is read as the point before left it.
-/
import proofs.«406561_j274877907022_3_alg».proof.Proof.KI.Region1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

section Pieces1

variable (V : (c : Dev nD) → (b : Ref sig .tc) → Buf (Elt F) ((c : Thread nD τ).loc b))

/-- The zero offsets of a whole-buffer access, however spelt. -/
private theorem hz2 : (![0, 0] : Fin 2 → Nat) = fun _ => 0 := funext fun a => by
  match a with | ⟨0, _⟩ => rfl | ⟨1, _⟩ => rfl
private theorem hz1 : (![0] : Fin 1 → Nat) = fun _ => 0 := funext fun a => by
  match a with | ⟨0, _⟩ => rfl

/-- The row tile of `EW` the body loads at grid point `i`: rows `1024 * i₁ …` of the `[4096, 256]` block. -/
def ewSlice (x3 : Vec F S4096x256 .bf16) (i : grid1.Coords) : Vec F S1024x256 .bf16 :=
  View.ld x3 (Rect.unit (s := S4096x256) (k1_off1 i) S1024x256.size (k1_off1_inb i))

/-- The slice's rows lie inside the block. -/
theorem ewSlice_row_lt (i : grid1.Coords) (r : Fin 1024) : 1024 * (i 1).val + r.val < 4096 := by
  have h := k1_off1_inb i 0
  rw [k1_off1_eq] at h
  change 1024 * (i 1).val + 1024 ≤ 4096 at h
  have := r.isLt
  omega

/-- The slice read at an index: row `r` of the slice is row `1024 * i₁ + r` of the block. -/
theorem ewSlice_apply (x3 : Vec F S4096x256 .bf16) (i : grid1.Coords) (r : Fin 1024) (d : Fin 256) :
    ewSlice x3 i (ix2 r d) = x3 (ix2 ⟨1024 * (i 1).val + r.val, ewSlice_row_lt i r⟩ d) := by
  unfold ewSlice
  refine congrArg x3 (funext fun a => Fin.ext ?_)
  match a with
  | ⟨0, _⟩ =>
    show k1_off1 i 0 + 1 * r.val = 1024 * (i 1).val + r.val
    rw [k1_off1_eq]
    show 1024 * (i 1).val + 1 * r.val = 1024 * (i 1).val + r.val
    omega
  | ⟨1, _⟩ =>
    show k1_off1 i 1 + 1 * d.val = d.val
    rw [k1_off1_eq]
    show 0 + 1 * d.val = d.val
    omega

/-- CASE A, the scratch: the row tile's `h`, from the point's blocks of `t`, `W_prjTᵀ` and `b_prjT`. -/
theorem soutA_eq (c : Dev nD) (t : Fin cfg1.N) (h0 : t.val % 4 = 0) :
    soutA V c t h0 = k1_pay1 (iblk1 V c 0 t) (iblk1 V c 1 t) (iblk1 V c 2 t) := by
  unfold soutA
  rw [View.read_writes_eq_canon _ _ _ (coverA_S _ _ _ _ _ _ _ _ _ _ _ _ _ _ _ _ _ _ _ _ _ _ _ _ _ _ _ _ _ _ _)]
  unfold kernelRun1_A
  dsimp only
  sl_unfold_run_names
  rw [View.canon_unit_zero hz2]
  simp only [View.readAt_eq_ld, Memref.IsWhole.read_unread, View.ld_unit_zero (S := S1024x768) hz2,
    View.ld_unit_zero (S := S768x256) hz2, View.ld_unit_zero (S := S256) hz1]

/-- CASE A, the `o_c` tile: from the `h` just stored, the row tile of `EW` and the point's block of `outb`. -/
theorem outA_7_eq (c : Dev nD) (t : Fin cfg1.N) (h0 : t.val % 4 = 0) :
    outA_7 V c t h0 = k1_pay2 (soutA V c t h0) (ewSlice (iblk1 V c 3 t) (grid1.coords t)) (iblk1 V c 4 t) := by
  rw [soutA_eq]
  unfold outA_7
  rw [View.read_writes_eq_canon _ _ _ (coverA_7 _ _ _ _ _ _ _ _ _ _ _ _ _ _ _ _ _ _ _ _ _ _ _ _ _ _ _ _ _ _ _)]
  unfold kernelRun1_A
  dsimp only
  sl_unfold_run_names
  rw [View.canon_unit_zero hz2]
  simp only [View.readCov_unit_zero (S := S1024x256) _ hz2, View.readAt_eq_ld, Memref.IsWhole.read_unread,
    View.ld_unit_zero (S := S1024x768) hz2, View.ld_unit_zero (S := S768x256) hz2, View.ld_unit_zero (S := S256) hz1,
    View.ld_unit_zero (S := S1024) hz1]
  rfl

/-- CASE A, the `o_f` tile: from the `h` just stored and the blocks of `W_fc3` and `b_fc3`. -/
theorem outA_8_eq (c : Dev nD) (t : Fin cfg1.N) (h0 : t.val % 4 = 0) :
    outA_8 V c t h0 = k1_pay3 (soutA V c t h0) (iblk1 V c 5 t) (iblk1 V c 6 t) := by
  rw [soutA_eq]
  unfold outA_8
  rw [View.read_writes_eq_canon _ _ _ (coverA_8 _ _ _ _ _ _ _ _ _ _ _ _ _ _ _ _ _ _ _ _ _ _ _ _ _ _ _ _ _ _ _)]
  unfold kernelRun1_A
  dsimp only
  sl_unfold_run_names
  rw [View.canon_unit_zero hz2]
  simp only [View.readCov_unit_zero (S := S1024x256) _ hz2, View.readAt_eq_ld, Memref.IsWhole.read_unread,
    View.ld_unit_zero (S := S1024x768) hz2, View.ld_unit_zero (S := S768x256) hz2, View.ld_unit_zero (S := S256) hz1,
    View.ld_unit_zero (S := S50x256) hz2, View.ld_unit_zero (S := S50) hz1]

/-- CASE B, the `o_c` tile: from the `h` the scratch holds, the row tile of `EW` and the point's block of `outb`. -/
theorem outB_7_eq (c : Dev nD) (t : Fin cfg1.N) (h0 : ¬ t.val % 4 = 0) (xs : Vec F S1024x256 .bf16) :
    outB_7 V c t h0 xs = k1_pay2 xs (ewSlice (iblk1 V c 3 t) (grid1.coords t)) (iblk1 V c 4 t) := by
  unfold outB_7
  rw [View.read_writes_eq_canon _ _ _ (coverB_7 _ _ _ _ _ _ _ _ _ _ _ _ _ _ _ _ _ _ _ _ _ _ _ _ _ _ _ _ _ _ _ _)]
  unfold kernelRun1_B
  dsimp only
  sl_unfold_run_names
  rw [View.canon_unit_zero hz2]
  simp only [View.readAt_eq_ld, Memref.IsWhole.read_unread, View.ld_unit_zero (S := S1024x256) hz2,
    View.ld_unit_zero (S := S1024) hz1]
  have hs : View.read (Elt F) scM1.view ((Memref.isWhole_whole _ : scM1.IsWhole).unread xs) = xs :=
    Memref.IsWhole.read_unread _ xs
  exact congrArg (fun z => k1_pay2 z (ewSlice (iblk1 V c 3 t) (grid1.coords t)) (iblk1 V c 4 t)) hs

end Pieces1

end Cert.KernelIdeal.Hand

end
-- ==== Proof.KI.Value1.lean ====
/-
  Region 1 (the main kernel), read as values: what its two output arrays hold after the last point.

  The grid is 8 row tiles by 4 column tiles, the column tile innermost: point `t` is row tile `t / 4`, column tile `t % 4`.
  At column tile 0 the body stores `h = tanh (t · W_prjTᵀ + b_prjT)` of the row tile's 1024 rows of `t` into a scratch
  buffer, and the scratch is carried unchanged over the row tile's other three points: after EVERY point it holds `h` of
  rows `1024 · (t / 4) …` of `t` (by induction on the point). From it every point stores the tile
  `o_c[1024 · (t / 4) + r, 1024 · (t % 4) + q] = Σ_d h[r, d] · EW[1024 · (t % 4) + q, d] + outb[1024 · (t % 4) + q]` and writes it
  back, and column tile 0 stores the tile `o_f[1024 · (t / 4) + r, f] = Σ_d h[r, d] · W_fc3[f, d] + b_fc3[f]`, which column
  tile 3 writes back as column tile 0 left it. Each written block is the block of ONE function of the arrays the region
  reads — the array-level specification — and the written blocks cover both arrays: the 32 tiles of `o_c`, the 8 row
  tiles of `o_f`.
-/
import proofs.«406561_j274877907022_3_alg».proof.Proof.KI.Region1
import proofs.«406561_j274877907022_3_alg».proof.Proof.KI.Pay1
import proofs.«406561_j274877907022_3_alg».proof.Proof.KI.Pieces1
import proofs.«406561_j274877907022_3_alg».proof.Proof.SpecArr
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace V1

/-! ## Where each window's block sits: the printed index maps over the grid -/

/-- Point `t` is row tile `t / 4` and column tile `t % 4`; the row-blocked windows move with the row tile, the bias
    window of `o_c` with the column tile, and the whole-array windows stay at block 0. -/
theorem idx_facts1 : ∀ t : Fin cfg1.N,
    win1_0.index t (0 : Fin 2) = t.val / 4 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = t.val % 4
    ∧ win1_5.index t (0 : Fin 2) = 0 ∧ win1_5.index t (1 : Fin 2) = 0
    ∧ win1_6.index t (0 : Fin 1) = 0
    ∧ win1_7.index t (0 : Fin 2) = t.val / 4 ∧ win1_7.index t (1 : Fin 2) = t.val % 4
    ∧ win1_8.index t (0 : Fin 2) = t.val / 4 ∧ win1_8.index t (1 : Fin 2) = 0
    ∧ (grid1.coords t 1).val = t.val % 4 :=
  (by decide +kernel : ∀ t : Fin grid1.N, _)

section Blocks

variable {F : FTy → Type} [FloatOps F]
variable (V : (c : Dev nD) → (b : Ref sig .tc) → Buf (Elt F) ((c : Thread nD τ).loc b))

/-- The block of `t` at a point: rows `1024 · (t / 4) …` of the array. -/
theorem iblk1_0_apply (c : Dev nD) (t : Fin cfg1.N) (x : S1024x768.Idx) (k : S8192x768.Idx)
    (hk0 : (k 0).val = 1024 * (t.val / 4) + (x 0).val) (hk1 : (k 1).val = (x 1).val) :
    (iblk1 V c 0 t : Vec F S1024x768 .f32) x = (V c main_arg0 : S8192x768.Idx → Elt F .f32) k := by
  obtain ⟨e0, e1, -⟩ := idx_facts1 t
  unfold iblk1
  rw [View.read_apply]
  show V c main_arg0 _ = V c main_arg0 _
  refine congrArg (V c main_arg0) ?_
  funext a
  apply Fin.ext
  match a with
  | ⟨0, _⟩ => show win1_0.index t 0 * 1024 + 1 * (x 0).val = (k 0).val; rw [e0, hk0]; omega
  | ⟨1, _⟩ => show win1_0.index t 1 * 768 + 1 * (x 1).val = (k 1).val; rw [e1, hk1]; omega

end Blocks

section Blocks2

variable {F : FTy → Type} [FloatOps F]
variable (V : (c : Dev nD) → (b : Ref sig .tc) → Buf (Elt F) ((c : Thread nD τ).loc b))

theorem iblk1_1_eq (c : Dev nD) (t : Fin cfg1.N) :
    (iblk1 V c 1 t : Vec F S768x256 .f32) = (V c main_v1 : S768x256.Idx → Elt F .f32) := by
  obtain ⟨-, -, e0, e1, -⟩ := idx_facts1 t
  funext x
  unfold iblk1
  rw [View.read_apply]
  show V c main_v1 _ = V c main_v1 x
  refine congrArg (V c main_v1) ?_
  funext a
  apply Fin.ext
  match a with
  | ⟨0, _⟩ => show win1_1.index t 0 * 768 + 1 * (x 0).val = (x 0).val; rw [e0]; omega
  | ⟨1, _⟩ => show win1_1.index t 1 * 256 + 1 * (x 1).val = (x 1).val; rw [e1]; omega

theorem iblk1_2_eq (c : Dev nD) (t : Fin cfg1.N) :
    (iblk1 V c 2 t : Vec F S256 .f32) = (V c main_arg6 : S256.Idx → Elt F .f32) := by
  obtain ⟨-, -, -, -, e0, -⟩ := idx_facts1 t
  funext x
  unfold iblk1
  rw [View.read_apply]
  show V c main_arg6 _ = V c main_arg6 x
  refine congrArg (V c main_arg6) ?_
  funext a
  apply Fin.ext
  match a with
  | ⟨0, _⟩ => show win1_2.index t 0 * 256 + 1 * (x 0).val = (x 0).val; rw [e0]; omega

theorem iblk1_5_eq (c : Dev nD) (t : Fin cfg1.N) :
    (iblk1 V c 5 t : Vec F S50x256 .f32) = (V c main_arg11 : S50x256.Idx → Elt F .f32) := by
  obtain ⟨-, -, -, -, -, -, -, -, e0, e1, -⟩ := idx_facts1 t
  funext x
  unfold iblk1
  rw [View.read_apply]
  show V c main_arg11 _ = V c main_arg11 x
  refine congrArg (V c main_arg11) ?_
  funext a
  apply Fin.ext
  match a with
  | ⟨0, _⟩ => show win1_5.index t 0 * 50 + 1 * (x 0).val = (x 0).val; rw [e0]; omega
  | ⟨1, _⟩ => show win1_5.index t 1 * 256 + 1 * (x 1).val = (x 1).val; rw [e1]; omega

theorem iblk1_6_eq (c : Dev nD) (t : Fin cfg1.N) :
    (iblk1 V c 6 t : Vec F S50 .f32) = (V c main_arg12 : S50.Idx → Elt F .f32) := by
  obtain ⟨-, -, -, -, -, -, -, -, -, -, e0, -⟩ := idx_facts1 t
  funext x
  unfold iblk1
  rw [View.read_apply]
  show V c main_arg12 _ = V c main_arg12 x
  refine congrArg (V c main_arg12) ?_
  funext a
  apply Fin.ext
  match a with
  | ⟨0, _⟩ => show win1_6.index t 0 * 50 + 1 * (x 0).val = (x 0).val; rw [e0]; omega

theorem iblk1_3_eq (c : Dev nD) (t : Fin cfg1.N) :
    (iblk1 V c 3 t : Vec F S4096x256 .bf16) = (V c main_v4 : S4096x256.Idx → Elt F .bf16) := by
  obtain ⟨-, -, -, -, -, e0, e1, -⟩ := idx_facts1 t
  funext x
  unfold iblk1
  rw [View.read_apply]
  show V c main_v4 _ = V c main_v4 x
  refine congrArg (V c main_v4) ?_
  funext a
  apply Fin.ext
  match a with
  | ⟨0, _⟩ => show win1_3.index t 0 * 4096 + 1 * (x 0).val = (x 0).val; rw [e0]; omega
  | ⟨1, _⟩ => show win1_3.index t 1 * 256 + 1 * (x 1).val = (x 1).val; rw [e1]; omega

/-- The block of `outb` at a point: entries `1024 · (t % 4) …`. -/
theorem iblk1_4_apply (c : Dev nD) (t : Fin cfg1.N) (x : S1024.Idx) (k : S4096.Idx)
    (hk : (k 0).val = 1024 * (t.val % 4) + (x 0).val) :
    (iblk1 V c 4 t : Vec F S1024 .f32) x = (V c main_arg10 : S4096.Idx → Elt F .f32) k := by
  obtain ⟨-, -, -, -, -, -, -, e0, -⟩ := idx_facts1 t
  unfold iblk1
  rw [View.read_apply]
  show V c main_arg10 _ = V c main_arg10 _
  refine congrArg (V c main_arg10) ?_
  funext a
  apply Fin.ext
  match a with
  | ⟨0, _⟩ => show win1_4.index t 0 * 1024 + 1 * (x 0).val = (k 0).val; rw [e0, hk]; omega

end Blocks2

/-! ## The scratch carries the row tile's `h`; the two output buffers hold the tile of the specification -/

section Values

variable (V : (c : Dev nD) → (b : Ref sig .tc) → Buf (Elt Ideal) ((c : Thread nD τ).loc b))

/-- The arrays the region reads, at their literal types. -/
abbrev tA (c : Dev nD) : S8192x768.Idx → EReal := V c main_arg0
abbrev wtA (c : Dev nD) : S768x256.Idx → EReal := V c main_v1
abbrev btA (c : Dev nD) : S256.Idx → EReal := V c main_arg6
abbrev ewA (c : Dev nD) : S4096x256.Idx → EReal := V c main_v4
abbrev obA (c : Dev nD) : S4096.Idx → EReal := V c main_arg10
abbrev wfA (c : Dev nD) : S50x256.Idx → EReal := V c main_arg11
abbrev bfA (c : Dev nD) : S50.Idx → EReal := V c main_arg12

/-- Row `r` of the block of `t` at a point is row `1024 · (t / 4) + r` of `t`. -/
theorem blk0_row (c : Dev nD) (t : Fin cfg1.N) (r : Fin 1024) (R : Fin 8192) (hR : R.val = 1024 * (t.val / 4) + r.val) :
    SpecArr.m2 (iblk1 V c 0 t : Vec Ideal S1024x768 .f32) r = SpecArr.m2 (tA V c) R :=
  funext fun d => iblk1_0_apply V c t (ix2 r d) (ix2 R d) hR rfl

/-- Row `q` of the slice of `EW` the body loads at a point is row `1024 · (t % 4) + q` of `EW`. -/
theorem ew_row (c : Dev nD) (t : Fin cfg1.N) (q : Fin 1024) (Q : Fin 4096) (hQ : Q.val = 1024 * (t.val % 4) + q.val) :
    SpecArr.m2 (ewSlice (iblk1 V c 3 t : Vec Ideal S4096x256 .bf16) (grid1.coords t)) q = SpecArr.m2 (ewA V c) Q := by
  have e : (grid1.coords t 1).val = t.val % 4 := (idx_facts1 t).2.2.2.2.2.2.2.2.2.2.2.2.2.2.2
  funext d
  show ewSlice (iblk1 V c 3 t : Vec Ideal S4096x256 .bf16) (grid1.coords t) (ix2 q d) = ewA V c (ix2 Q d)
  rw [ewSlice_apply, iblk1_3_eq V c t]
  refine congrArg (V c main_v4) ?_
  funext a
  apply Fin.ext
  match a with
  | ⟨0, _⟩ => show 1024 * (grid1.coords t 1).val + q.val = Q.val; rw [e, hQ]
  | ⟨1, _⟩ => rfl

/-- Entry `q` of the block of `outb` at a point is entry `1024 · (t % 4) + q` of `outb`. -/
theorem ob_entry (c : Dev nD) (t : Fin cfg1.N) (q : Fin 1024) (Q : Fin 4096) (hQ : Q.val = 1024 * (t.val % 4) + q.val) :
    SpecArr.m1 (iblk1 V c 4 t : Vec Ideal S1024 .f32) q = SpecArr.m1 (obA V c) Q :=
  iblk1_4_apply V c t (ix1 q) (ix1 Q) hQ

theorem hRow_congr {x x' : Fin 768 → EReal} {W W' : Fin 256 → Fin 768 → EReal} {b b' : Fin 256 → EReal}
    (hx : x = x') (hW : W = W') (hb : b = b') : Spec.hRow x W b = Spec.hRow x' W' b' := by subst hx hW hb; rfl

/-- What case A stores into the scratch at a point with column tile 0: row `r` is `h` of row `1024 · (t / 4) + r` of `t`. -/
theorem soutA_row (c : Dev nD) (t : Fin cfg1.N) (h0 : t.val % 4 = 0) (r : Fin 1024) (R : Fin 8192)
    (hR : R.val = 1024 * (t.val / 4) + r.val) :
    SpecArr.m2 (soutA V c t h0) r = Spec.hRow (SpecArr.m2 (tA V c) R) (SpecArr.tr (wtA V c)) (SpecArr.m1 (btA V c)) := by
  funext d
  show soutA V c t h0 (ix2 r d) = _
  rw [soutA_eq V c t h0]
  refine (k1_pay1_apply (iblk1 V c 0 t) (iblk1 V c 1 t) (iblk1 V c 2 t) r d).trans ?_
  exact congrFun (hRow_congr (blk0_row V c t r R hR) (congrArg SpecArr.tr (iblk1_1_eq V c t)) (congrArg SpecArr.m1 (iblk1_2_eq V c t))) d

/-- THE SCRATCH'S INVARIANT: after the body at position `n` the scratch holds `h` of row tile `n / 4` of `t` — stored at
    the row tile's first point, carried unchanged over its other three. -/
theorem scratch_row (c : Dev nD) : ∀ (n : ℕ) (hn : n < cfg1.N) (r : Fin 1024) (R : Fin 8192), R.val = 1024 * (n / 4) + r.val →
    SpecArr.m2 (outsAt1 V c n hn).2.2 r = Spec.hRow (SpecArr.m2 (tA V c) R) (SpecArr.tr (wtA V c)) (SpecArr.m1 (btA V c))
  | 0, hn, r, R, hR => by
    rw [outsAt1_A V c ⟨0, hn⟩ (Nat.zero_mod _)]
    dsimp only
    exact soutA_row V c ⟨0, hn⟩ (Nat.zero_mod _) r R hR
  | n + 1, hn, r, R, hR => by
    by_cases h0 : (n + 1) % 4 = 0
    · rw [outsAt1_A V c ⟨n + 1, hn⟩ h0]
      dsimp only
      exact soutA_row V c ⟨n + 1, hn⟩ h0 r R hR
    · rw [outsAt1_B V c ⟨n + 1, hn⟩ h0]
      dsimp only
      exact scratch_row c n (Nat.lt_of_succ_lt hn) r R (by omega)

end Values

section Values2

variable (V : (c : Dev nD) → (b : Ref sig .tc) → Buf (Elt Ideal) ((c : Thread nD τ).loc b))

theorem ocEntry_congr {h h' e e' : Fin 256 → EReal} {b b' : EReal} (hh : h = h') (he : e = e') (hb : b = b') :
    Spec.ocEntry h e b = Spec.ocEntry h' e' b' := by subst hh he hb; rfl
theorem ofEntry_congr {h h' w w' : Fin 256 → EReal} {b b' : EReal} (hh : h = h') (hw : w = w') (hb : b = b') :
    Spec.ofEntry h w b = Spec.ofEntry h' w' b' := by subst hh hw hb; rfl

/-- THE `o_c` BUFFER after the body at position `n`: entry `(r, q)` is the specification's entry
    `(1024 · (n / 4) + r, 1024 · (n % 4) + q)` — at column tile 0 from the `h` just stored, at the others from the `h` the
    scratch carried. -/
theorem oc_entry (c : Dev nD) (n : ℕ) (hn : n < cfg1.N) (r q : Fin 1024) (R : Fin 8192) (Q : Fin 4096)
    (hR : R.val = 1024 * (n / 4) + r.val) (hQ : Q.val = 1024 * (n % 4) + q.val) :
    (outsAt1 V c n hn).1 (ix2 r q)
      = Spec.ocEntry (Spec.hRow (SpecArr.m2 (tA V c) R) (SpecArr.tr (wtA V c)) (SpecArr.m1 (btA V c))) (SpecArr.m2 (ewA V c) Q) (SpecArr.m1 (obA V c) Q) := by
  by_cases h0 : n % 4 = 0
  · rw [outsAt1_A V c ⟨n, hn⟩ h0]
    dsimp only
    rw [outA_7_eq V c ⟨n, hn⟩ h0]
    refine (k1_pay2_apply (soutA V c ⟨n, hn⟩ h0) (ewSlice (iblk1 V c 3 ⟨n, hn⟩) (grid1.coords ⟨n, hn⟩)) (iblk1 V c 4 ⟨n, hn⟩) r q).trans ?_
    exact ocEntry_congr (soutA_row V c ⟨n, hn⟩ h0 r R hR) (ew_row V c ⟨n, hn⟩ q Q hQ) (ob_entry V c ⟨n, hn⟩ q Q hQ)
  · rw [outsAt1_B V c ⟨n, hn⟩ h0]
    dsimp only
    rw [outB_7_eq V c ⟨n, hn⟩ h0]
    refine (k1_pay2_apply _ (ewSlice (iblk1 V c 3 ⟨n, hn⟩) (grid1.coords ⟨n, hn⟩)) (iblk1 V c 4 ⟨n, hn⟩) r q).trans ?_
    exact ocEntry_congr (scratch_row V c (n - 1) _ r R (by omega)) (ew_row V c ⟨n, hn⟩ q Q hQ) (ob_entry V c ⟨n, hn⟩ q Q hQ)

/-- THE `o_f` BUFFER after the body at position `n`: entry `(r, f)` is the specification's entry `(1024 · (n / 4) + r, f)` —
    stored at the row tile's first point, kept over its other three. -/
theorem of_entry (c : Dev nD) : ∀ (n : ℕ) (hn : n < cfg1.N) (r : Fin 1024) (f : Fin 50) (R : Fin 8192), R.val = 1024 * (n / 4) + r.val →
    (outsAt1 V c n hn).2.1 (ix2 r f)
      = Spec.ofEntry (Spec.hRow (SpecArr.m2 (tA V c) R) (SpecArr.tr (wtA V c)) (SpecArr.m1 (btA V c))) (SpecArr.m2 (wfA V c) f) (SpecArr.m1 (bfA V c) f)
  | 0, hn, r, f, R, hR => by
    rw [outsAt1_A V c ⟨0, hn⟩ (Nat.zero_mod _)]
    dsimp only
    rw [outA_8_eq V c ⟨0, hn⟩ (Nat.zero_mod _)]
    refine (k1_pay3_apply (soutA V c ⟨0, hn⟩ (Nat.zero_mod _)) (iblk1 V c 5 ⟨0, hn⟩) (iblk1 V c 6 ⟨0, hn⟩) r f).trans ?_
    exact ofEntry_congr (soutA_row V c ⟨0, hn⟩ (Nat.zero_mod _) r R hR) (congrFun (congrArg SpecArr.m2 (iblk1_5_eq V c ⟨0, hn⟩)) f)
      (congrFun (congrArg SpecArr.m1 (iblk1_6_eq V c ⟨0, hn⟩)) f)
  | n + 1, hn, r, f, R, hR => by
    by_cases h0 : (n + 1) % 4 = 0
    · rw [outsAt1_A V c ⟨n + 1, hn⟩ h0]
      dsimp only
      rw [outA_8_eq V c ⟨n + 1, hn⟩ h0]
      refine (k1_pay3_apply (soutA V c ⟨n + 1, hn⟩ h0) (iblk1 V c 5 ⟨n + 1, hn⟩) (iblk1 V c 6 ⟨n + 1, hn⟩) r f).trans ?_
      exact ofEntry_congr (soutA_row V c ⟨n + 1, hn⟩ h0 r R hR) (congrFun (congrArg SpecArr.m2 (iblk1_5_eq V c ⟨n + 1, hn⟩)) f)
        (congrFun (congrArg SpecArr.m1 (iblk1_6_eq V c ⟨n + 1, hn⟩)) f)
    · rw [outsAt1_B V c ⟨n + 1, hn⟩ h0]
      dsimp only
      exact of_entry c n (Nat.lt_of_succ_lt hn) r f R (by omega)

/-- The same at any index of the tile, against the array-level specification at the index it sits at. -/
theorem oc_at (c : Dev nD) (n : ℕ) (hn : n < cfg1.N) (y : S1024x1024.Idx) (k : S8192x4096.Idx)
    (hk0 : (k 0).val = 1024 * (n / 4) + (y 0).val) (hk1 : (k 1).val = 1024 * (n % 4) + (y 1).val) :
    (outsAt1 V c n hn).1 y = SpecArr.ocArrK (V c main_arg0) (V c main_v1) (V c main_arg6) (V c main_v4) (V c main_arg10) k := by
  obtain ⟨r, q, rfl⟩ : ∃ (r q : Fin 1024), y = ix2 r q := ⟨y 0, y 1, eq_ix2 y⟩
  exact oc_entry V c n hn r q (SpecArr.c0 k) (SpecArr.c1 k) hk0 hk1

theorem of_at (c : Dev nD) (n : ℕ) (hn : n < cfg1.N) (y : S1024x50.Idx) (k : S8192x50.Idx)
    (hk0 : (k 0).val = 1024 * (n / 4) + (y 0).val) (hk1 : (k 1).val = (y 1).val) :
    (outsAt1 V c n hn).2.1 y = SpecArr.ofArrK (V c main_arg0) (V c main_v1) (V c main_arg6) (V c main_arg11) (V c main_arg12) k := by
  obtain ⟨r, f, rfl⟩ : ∃ (r : Fin 1024) (f : Fin 50), y = ix2 r f := ⟨y 0, y 1, eq_ix2 y⟩
  have e : SpecArr.c1 k = f := Fin.ext hk1
  show _ = Spec.ofEntry _ (SpecArr.m2 (wfA V c) (SpecArr.c1 k)) (SpecArr.m1 (bfA V c) (SpecArr.c1 k))
  rw [e]
  exact of_entry V c n hn r f (SpecArr.c0 k) hk0

end Values2

/-! ## From the tiles to the arrays -/

section Final

variable (V : (c : Dev nD) → (b : Ref sig .tc) → Buf (Elt Ideal) ((c : Thread nD τ).loc b))

/-- An index of `o_c` is in point `t`'s block iff each coordinate is in the block's range on its axis. -/
theorem mem_blk7 (t : Fin cfg1.N) (i : S8192x4096.Idx) :
    i ∈ ((cfg1.win 7).blk t).view.set ↔ ∀ a : Fin 2, win1_7.index t a * S1024x1024.size a ≤ (i a).val ∧ (i a).val < win1_7.index t a * S1024x1024.size a + S1024x1024.size a := by
  show i ∈ ((View.whole main_v5_0).slice (win1_7.rect t)).set ↔ _
  rw [View.set_slice_whole, Rect.mem_set_unit]
  exact Iff.rfl

/-- WHAT POINT `t` WRITES BACK INTO `o_c` is block `(t / 4, t % 4)` of the specification. -/
theorem flushed7_eq (c : Dev nD) (t : Fin cfg1.N) :
    (dat1 V c).flushed 7 t = ((cfg1.win 7).blk t).view.read (Elt Ideal)
      (SpecArr.ocArrK (V c main_arg0) (V c main_v1) (V c main_arg6) (V c main_v4) (V c main_arg10)) := by
  show (cfg1.win 7).cut (grid1.coords t) ((dat1 V c).after 7 t) = _
  rw [after1_7]
  obtain ⟨-, -, -, -, -, -, -, -, -, -, -, e0, e1, -⟩ := idx_facts1 t
  funext y
  rw [View.read_apply]
  refine oc_at V c t.val t.isLt _ _ ?_ ?_
  · show win1_7.index t 0 * 1024 + 1 * (y 0).val = 1024 * (t.val / 4) + (y 0).val
    rw [e0]; omega
  · show win1_7.index t 1 * 1024 + 1 * (y 1).val = 1024 * (t.val % 4) + (y 1).val
    rw [e1]; omega

/-- Every index of `o_c` is in the block of the point of its row tile and column tile. -/
theorem cover7 (i : S8192x4096.Idx) : ∃ t : Fin cfg1.N, (cfg1.win 7).flush t = true ∧ i ∈ ((cfg1.win 7).blk t).view.set := by
  have hN : cfg1.N = 32 := N_1
  have hi0 : (i 0).val < 8192 := (i 0).isLt
  have hi1 : (i 1).val < 4096 := (i 1).isLt
  obtain ⟨t, ht⟩ : ∃ t : Fin cfg1.N, t.val = 4 * ((i 0).val / 1024) + (i 1).val / 1024 := ⟨⟨_, by rw [hN]; omega⟩, rfl⟩
  obtain ⟨-, -, -, -, -, -, -, -, -, -, -, e0, e1, -⟩ := idx_facts1 t
  refine ⟨t, flush1_7 t, ?_⟩
  rw [mem_blk7]
  intro a
  match a with
  | ⟨0, _⟩ => show win1_7.index t 0 * 1024 ≤ (i 0).val ∧ (i 0).val < win1_7.index t 0 * 1024 + 1024; rw [e0]; omega
  | ⟨1, _⟩ => show win1_7.index t 1 * 1024 ≤ (i 1).val ∧ (i 1).val < win1_7.index t 1 * 1024 + 1024; rw [e1]; omega

end Final

section Final8

variable (V : (c : Dev nD) → (b : Ref sig .tc) → Buf (Elt Ideal) ((c : Thread nD τ).loc b))

/-- An index of `o_f` is in point `t`'s block iff each coordinate is in the block's range on its axis. -/
theorem mem_blk8 (t : Fin cfg1.N) (i : S8192x50.Idx) :
    i ∈ ((cfg1.win 8).blk t).view.set ↔ ∀ a : Fin 2, win1_8.index t a * S1024x50.size a ≤ (i a).val ∧ (i a).val < win1_8.index t a * S1024x50.size a + S1024x50.size a := by
  show i ∈ ((View.whole main_v5_1).slice (win1_8.rect t)).set ↔ _
  rw [View.set_slice_whole, Rect.mem_set_unit]
  exact Iff.rfl

/-- WHAT A POINT WRITES BACK INTO `o_f` — the buffer as column tile 0 of its row tile left it — is block `t / 4` of the
    specification. -/
theorem flushed8_eq (c : Dev nD) (t : Fin cfg1.N) :
    (dat1 V c).flushed 8 t = ((cfg1.win 8).blk t).view.read (Elt Ideal)
      (SpecArr.ofArrK (V c main_arg0) (V c main_v1) (V c main_arg6) (V c main_arg11) (V c main_arg12)) := by
  show (cfg1.win 8).cut (grid1.coords t) ((dat1 V c).after 8 t) = _
  rw [after1_8]
  obtain ⟨-, -, -, -, -, -, -, -, -, -, -, -, -, e0, e1, -⟩ := idx_facts1 t
  funext y
  rw [View.read_apply]
  refine of_at V c t.val t.isLt _ _ ?_ ?_
  · show win1_8.index t 0 * 1024 + 1 * (y 0).val = 1024 * (t.val / 4) + (y 0).val
    rw [e0]; omega
  · show win1_8.index t 1 * 50 + 1 * (y 1).val = (y 1).val
    rw [e1]; omega

/-- Every index of `o_f` is in the block the last point of its row tile writes back. -/
theorem cover8 (i : S8192x50.Idx) : ∃ t : Fin cfg1.N, (cfg1.win 8).flush t = true ∧ i ∈ ((cfg1.win 8).blk t).view.set := by
  have hN : cfg1.N = 32 := N_1
  have hi0 : (i 0).val < 8192 := (i 0).isLt
  have hi1 : (i 1).val < 50 := (i 1).isLt
  obtain ⟨t, ht⟩ : ∃ t : Fin cfg1.N, t.val = 4 * ((i 0).val / 1024) + 3 := ⟨⟨_, by rw [hN]; omega⟩, rfl⟩
  obtain ⟨-, -, -, -, -, -, -, -, -, -, -, -, -, e0, e1, -⟩ := idx_facts1 t
  refine ⟨t, (flush1_8 t).mpr (by omega), ?_⟩
  rw [mem_blk8]
  intro a
  match a with
  | ⟨0, _⟩ => show win1_8.index t 0 * 1024 ≤ (i 0).val ∧ (i 0).val < win1_8.index t 0 * 1024 + 1024; rw [e0]; omega
  | ⟨1, _⟩ => show win1_8.index t 1 * 50 ≤ (i 1).val ∧ (i 1).val < win1_8.index t 1 * 50 + 50; rw [e1]; omega

end Final8

end V1

section Arrays

variable (V : (c : Dev nD) → (b : Ref sig .tc) → Buf (Elt Ideal) ((c : Thread nD τ).loc b))

/-- THE ARRAY `o_c` after the region: every point writes back its own tile of the specification, and the 32 tiles cover
    the array. -/
theorem oc_final (c : Dev nD) :
    (dat1 (F := Ideal) V c).arrAt 7 cfg1.N = SpecArr.ocArrK (V c main_arg0) (V c main_v1) (V c main_arg6) (V c main_v4) (V c main_arg10) :=
  (dat1 V c).arrAt_eq_of_cover 7 (SpecArr.ocArrK (V c main_arg0) (V c main_v1) (V c main_arg6) (V c main_v4) (V c main_arg10))
    (fun t _ => V1.flushed7_eq V c t) V1.cover7

/-- THE ARRAY `o_f` after the region: the last point of each row tile writes back the row tile's block of the
    specification, and the 8 row tiles cover the array. -/
theorem of_final (c : Dev nD) :
    (dat1 (F := Ideal) V c).arrAt 8 cfg1.N = SpecArr.ofArrK (V c main_arg0) (V c main_v1) (V c main_arg6) (V c main_arg11) (V c main_arg12) :=
  (dat1 V c).arrAt_eq_of_cover 8 (SpecArr.ofArrK (V c main_arg0) (V c main_v1) (V c main_arg6) (V c main_arg11) (V c main_arg12))
    (fun t _ => V1.flushed8_eq V c t) V1.cover8

end Arrays

end Cert.KernelIdeal.Hand

end
-- ==== Proof.Combine.lean ====
/-
  The two spellings of the specification agree: `o_c` and `o_f` over the transposed weights, the gathered rows and the
  intermediate `EW` are `o_c` and `o_f` over the arguments as given, once each transposed weight is the transpose of its
  argument and row `k` of the gathered rows is the node row `Endx[k]` selects.
-/
import proofs.«406561_j274877907022_3_alg».proof.Proof.SpecArr

noncomputable section

namespace Cert.SpecArr

open Idealize.ShloMosaic Idealize.ShloMosaic.ValueIdx

theorem tr_eq_m2 {a b : ℕ} (Wt : (⟨2, ![a, b]⟩ : Shape).Idx → EReal) (W : (⟨2, ![b, a]⟩ : Shape).Idx → EReal)
    (h : ∀ (d : Fin a) (j : Fin b), Wt (ix2 d j) = W (ix2 j d)) : tr Wt = m2 W := by
  funext j d; exact h d j

theorem ocArrK_eq
    (t : (⟨2, ![8192, 768]⟩ : Shape).Idx → EReal) (age : (⟨2, ![20000, 768]⟩ : Shape).Idx → EReal)
    (endx : (⟨1, ![4096]⟩ : Shape).Idx → BitVec 32) (Wage : (⟨2, ![768, 768]⟩ : Shape).Idx → EReal) (bage : (⟨1, ![768]⟩ : Shape).Idx → EReal)
    (WprjT : (⟨2, ![256, 768]⟩ : Shape).Idx → EReal) (bprjT : (⟨1, ![256]⟩ : Shape).Idx → EReal)
    (WprjL : (⟨2, ![256, 768]⟩ : Shape).Idx → EReal) (bprjL : (⟨1, ![256]⟩ : Shape).Idx → EReal)
    (outW : (⟨2, ![4096, 256]⟩ : Shape).Idx → EReal) (outb : (⟨1, ![4096]⟩ : Shape).Idx → EReal)
    (WtAge : (⟨2, ![768, 768]⟩ : Shape).Idx → EReal) (hAge : ∀ (d j : Fin 768), WtAge (ix2 d j) = Wage (ix2 j d))
    (WtT : (⟨2, ![768, 256]⟩ : Shape).Idx → EReal) (hT : ∀ (d : Fin 768) (j : Fin 256), WtT (ix2 d j) = WprjT (ix2 j d))
    (WtL : (⟨2, ![768, 256]⟩ : Shape).Idx → EReal) (hL : ∀ (d : Fin 768) (j : Fin 256), WtL (ix2 d j) = WprjL (ix2 j d))
    (xg : (⟨2, ![4096, 768]⟩ : Shape).Idx → EReal)
    (hxg : ∀ (k : Fin 4096) (d : Fin 768), xg (ix2 k d) = age (ix2 (rowOf (endx (ix1 k))) d)) :
    ocArrK t WtT bprjT (ewArr xg WtAge bage WtL bprjL outW) outb
      = ocArr t age endx Wage bage WprjT bprjT WprjL bprjL outW outb := by
  funext i
  unfold ocArrK ocArr
  rw [tr_eq_m2 WtT WprjT hT]
  refine congrArg (fun e => Spec.ocEntry (Spec.hRow (m2 t (c0 i)) (m2 WprjT) (m1 bprjT)) e (m1 outb (c1 i))) ?_
  funext d
  show ewArr xg WtAge bage WtL bprjL outW (ix2 (c1 i) d) = _
  unfold ewArr
  rw [tr_eq_m2 WtAge Wage hAge, tr_eq_m2 WtL WprjL hL, c0_ix2, c1_ix2]
  have hrow : m2 xg (c1 i) = m2 age (rowOf (m1 endx (c1 i))) := by
    funext d'; exact hxg (c1 i) d'
  rw [hrow]

theorem ofArrK_eq
    (t : (⟨2, ![8192, 768]⟩ : Shape).Idx → EReal)
    (WprjT : (⟨2, ![256, 768]⟩ : Shape).Idx → EReal) (bprjT : (⟨1, ![256]⟩ : Shape).Idx → EReal)
    (Wfc3 : (⟨2, ![50, 256]⟩ : Shape).Idx → EReal) (bfc3 : (⟨1, ![50]⟩ : Shape).Idx → EReal)
    (WtT : (⟨2, ![768, 256]⟩ : Shape).Idx → EReal) (hT : ∀ (d : Fin 768) (j : Fin 256), WtT (ix2 d j) = WprjT (ix2 j d)) :
    ofArrK t WtT bprjT Wfc3 bfc3 = ofArr t WprjT bprjT Wfc3 bfc3 := by
  funext i
  unfold ofArrK ofArr
  rw [tr_eq_m2 WtT WprjT hT]

end Cert.SpecArr

end
-- ==== Proof.KI.Assembly.lean ====
/-
  The idealized kernel program's two results as the specification of the arguments.

  After the launch every unscoped buffer holds the last boundary's contents. The two result arrays are what region 1's
  write-backs leave: `o_c` and `o_f` over the transposed `W_prjT`, the intermediate `EW` and the arguments region 1
  reads; `EW` is what region 0's write-backs leave: the row-wise specification over the gathered rows and the transposed
  weights; the transposed weights are the host transposes of the arguments, and, with every index of `Endx` in range,
  row `k` of the gathered rows is the node row that index selects (the fill of out-of-range rows never applies).
  No host stretch and no region writes an argument.
-/
import proofs.«406561_j274877907022_3_alg».proof.Proof.KI.Run
import proofs.«406561_j274877907022_3_alg».proof.Proof.KI.Entry
import proofs.«406561_j274877907022_3_alg».proof.Proof.KI.Value0
import proofs.«406561_j274877907022_3_alg».proof.Proof.KI.Value1
import proofs.«406561_j274877907022_3_alg».proof.Proof.Combine

noncomputable section

namespace Cert.KernelIdeal.Hand

open Idealize.ShloMosaic Idealize.ShloMosaic.TcCoe Idealize.ShloMosaic.ValueIdx
open Idealize.SL Idealize.SL.Sem
open Cert.KernelIdeal.Gen

variable (m : (ℓ : Loc nD τ sig) → Buf (Elt Ideal) ℓ)

/-- A buffer neither host stretch writes holds its launch contents when region 0 is entered. -/
theorem V2_of_unwritten (c : Dev nD) (b : Ref sig .tc) (h0 : b ∉ ([main_v0, main_v1, main_v2] : List (Ref sig .tc))) (h1 : b ∉ hostOps0_1_W) :
    V2 (F := Ideal) m c b = m ((c.tc : Thread nD τ).loc b) :=
  (Entry.keeps0_1 (W1 m c) b h1).trans ((Entry.keeps0 (W0 m c) b h0).trans rfl)

/-- The three transposed weights at region 0's entry. -/
theorem V2_v0 (c : Dev nD) (d j : Fin 768) :
    (V2 (F := Ideal) m c main_v0 : S768x768.Idx → EReal) (ix2 d j) = ((m ((c.tc : Thread nD τ).loc main_arg3)) : S768x768.Idx → EReal) (ix2 j d) :=
  (congrFun (Entry.keeps0_1 (W1 m c) main_v0 (by decide)) (ix2 d j)).trans (Entry.v0_apply (W0 m c) d j)
theorem V2_v1 (c : Dev nD) (d : Fin 768) (j : Fin 256) :
    (V2 (F := Ideal) m c main_v1 : S768x256.Idx → EReal) (ix2 d j) = ((m ((c.tc : Thread nD τ).loc main_arg5)) : S256x768.Idx → EReal) (ix2 j d) :=
  (congrFun (Entry.keeps0_1 (W1 m c) main_v1 (by decide)) (ix2 d j)).trans (Entry.v1_apply (W0 m c) d j)
theorem V2_v2 (c : Dev nD) (d : Fin 768) (j : Fin 256) :
    (V2 (F := Ideal) m c main_v2 : S768x256.Idx → EReal) (ix2 d j) = ((m ((c.tc : Thread nD τ).loc main_arg7)) : S256x768.Idx → EReal) (ix2 j d) :=
  (congrFun (Entry.keeps0_1 (W1 m c) main_v2 (by decide)) (ix2 d j)).trans (Entry.v2_apply (W0 m c) d j)

/-- The gathered rows at region 0's entry, every index in range: row `k` is the node row `Endx[k]` selects. -/
theorem V2_v3 [hPre_finite_inputs : Cert.Pre_finite_inputs.Facts] (hpre : Cert.Pre_KernelIdeal m) (c : Dev nD) (k : Fin 4096) (d : Fin 768) :
    (V2 (F := Ideal) m c main_v3 : S4096x768.Idx → EReal) (ix2 k d)
      = ((m ((c.tc : Thread nD τ).loc main_arg1)) : S20000x768.Idx → EReal) (ix2 (SpecArr.rowOf (((m ((c.tc : Thread nD τ).loc main_arg2)) : S4096.Idx → BitVec 32) (ix1 k))) d) := by
  have h1 : W1 m c (Proc.devRef .tc main_arg1) = m ((c.tc : Thread nD τ).loc main_arg1) := Entry.keeps0 (W0 m c) main_arg1 (by decide)
  have h2 : W1 m c (Proc.devRef .tc main_arg2) = m ((c.tc : Thread nD τ).loc main_arg2) := Entry.keeps0 (W0 m c) main_arg2 (by decide)
  have hr : ∀ k : Fin 4096, -20000 ≤ ((W1 m c (Proc.devRef .tc main_arg2) : S4096.Idx → BitVec 32) (ix1 k)).toInt
      ∧ ((W1 m c (Proc.devRef .tc main_arg2) : S4096.Idx → BitVec 32) (ix1 k)).toInt < 20000 := by
    rw [h2]; exact fun k => Entry.endx_range m hpre c k
  have h := Entry.v3_apply (W1 m c) hr k d
  rw [h1, h2] at h
  exact h

/-- `o_c` after the launch. -/
theorem kernel_oc [hPre_finite_inputs : Cert.Pre_finite_inputs.Facts] (hpre : Cert.Pre_KernelIdeal m) (c : Dev nD) :
    W4 (F := Ideal) m c (Proc.devRef .tc main_v5_0)
      = SpecArr.ocArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [W4_out0, oc_final (V3 m) c,
    V3_eq_V2 m c main_arg0 (by decide), V3_eq_V2 m c main_v1 (by decide), V3_eq_V2 m c main_arg6 (by decide), V3_main_v4,
    V3_eq_V2 m c main_arg10 (by decide), ew_final (V2 m) c,
    V2_of_unwritten m c main_arg0 (by decide) (by decide), V2_of_unwritten m c main_arg6 (by decide) (by decide),
    V2_of_unwritten m c main_arg10 (by decide) (by decide), V2_of_unwritten m c main_arg4 (by decide) (by decide),
    V2_of_unwritten m c main_arg8 (by decide) (by decide), V2_of_unwritten m c main_arg9 (by decide) (by decide)]
  exact SpecArr.ocArrK_eq _ _ _ _ _ _ _ _ _ _ _ _ (V2_v0 m c) _ (V2_v1 m c) _ (V2_v2 m c) _ (V2_v3 m hpre c)

/-- `o_f` after the launch. -/
theorem kernel_of (c : Dev nD) :
    W4 (F := Ideal) m c (Proc.devRef .tc main_v5_1)
      = SpecArr.ofArr (m ((c.tc : Thread nD τ).loc main_arg0)) (m ((c.tc : Thread nD τ).loc main_arg5)) (m ((c.tc : Thread nD τ).loc main_arg6)) (m ((c.tc : Thread nD τ).loc main_arg11)) (m ((c.tc : Thread nD τ).loc main_arg12)) := by
  rw [W4_out1, of_final (V3 m) c,
    V3_eq_V2 m c main_arg0 (by decide), V3_eq_V2 m c main_v1 (by decide), V3_eq_V2 m c main_arg6 (by decide),
    V3_eq_V2 m c main_arg11 (by decide), V3_eq_V2 m c main_arg12 (by decide),
    V2_of_unwritten m c main_arg0 (by decide) (by decide), V2_of_unwritten m c main_arg6 (by decide) (by decide),
    V2_of_unwritten m c main_arg11 (by decide) (by decide), V2_of_unwritten m c main_arg12 (by decide) (by decide)]
  exact SpecArr.ofArrK_eq _ _ _ _ _ _ (V2_v1 m c)

end Cert.KernelIdeal.Hand

end
-- ==== Proof.RefValue.lean ====
/-
  The reference's results, read index by index, are the specification's entries.

  The reference applies LinTrans to all 20000 rows of the node table and gathers the indexed rows afterwards.
  Every step of LinTrans at row `r` reads row `r` only: the affine image is a sum over the row, the least and the
  greatest entry are folds over the row, the norm is a sum over the row. So the stage that holds LinTrans of the whole
  table, read at `(r, j)`, is `Spec.lintrans` of row `r` at `j`, and the gathered array at `(k, j)` is `Spec.lintrans`
  of the row the wrapped and clamped index word `Endx[k]` selects. The remaining stages are sums and pointwise
  operations read at an index.
-/
import proofs.«406561_j274877907022_3_alg».proof.Proof.Gen.ReferenceIdeal.Read
import proofs.«406561_j274877907022_3_alg».proof.Proof.Spec
import proofs.«406561_j274877907022_3_alg».proof.Proof.SpecArr

noncomputable section

namespace Cert.ReferenceIdeal.RefValue

open Idealize.ShloMosaic Idealize.ShloMosaic.ValueIdx Cert.ReferenceIdeal Cert.ReferenceIdeal.Gen Cert.ReferenceIdeal.Read Cert.SpecArr

/-! ## The affine image of a table row -/

theorem lidx_v1 (r : Fin 20000) (j k : Fin 768) : lidx_main_v1 (ix2 r j) k = ix2 r k :=
  funext fun a => match a with | ⟨0, _⟩ => rfl | ⟨1, _⟩ => rfl
theorem ridx_v1 (r : Fin 20000) (j k : Fin 768) : idx_main_v0 (ridx_main_v1 (ix2 r j) k) = ix2 j k :=
  funext fun a => match a with | ⟨0, _⟩ => rfl | ⟨1, _⟩ => rfl
theorem bidx_v3 (r : Fin 20000) (j : Fin 768) : idx_main_v2 (idx_main_v3 (ix2 r j)) = ix1 j :=
  funext fun a => match a with | ⟨0, _⟩ => rfl

/-- Stage `%4` at `(r, j)`: entry `j` of `x_r · Wᵀ + b`. -/
theorem lin_at (x1 : (⟨S20000x768, .f32⟩ : BufTy).Contents (Elt Ideal)) (x3 : (⟨S768x768, .f32⟩ : BufTy).Contents (Elt Ideal))
    (x4 : (⟨S768, .f32⟩ : BufTy).Contents (Elt Ideal)) (r : Fin 20000) (j : Fin 768) :
    val_main_v4 (F := Ideal) x1 x3 x4 (ix2 r j) = Spec.lin (m2 x1 r) (m2 x3) (m1 x4) j := by
  rw [val_main_v4_apply, val_main_v1_apply, val_main_v3_apply, val_main_v2_apply]
  simp only [val_main_v0_apply, Ideal.addf_def, lidx_v1, ridx_v1, bidx_v3]
  rfl

/-! ## The least and the greatest entry of a row -/

/-- The reduce over axis 1 of the `[20000, 768]` array keeps axis 0. -/
theorem reduces_d1 : S20000x768.Reduces [1] S20000 := by decide

/-- The index over row `r` with `k` inserted on axis 1 is `(r, k)`. -/
theorem lift_d1 (r : Fin 20000) (k : Fin 768) : reduces_d1.lift (ix1 r) k = ix2 r k :=
  funext fun a => match a with | ⟨0, _⟩ => rfl | ⟨1, _⟩ => rfl

/-- A min-reduce over axis 1 from `+∞`, at row `r`: the least entry of the row. -/
theorem reduce_min_at (y : S20000x768.Idx → EReal) (r : Fin 20000) :
    Host.reduce (FloatOps.minimumf (F := Ideal) (φ := .f32)) y (val_main_cst (F := Ideal)) reducesTo_S20000x768_S20000_d1 h_S_ (ix1 r)
      = Spec.rowMin (fun j : Fin 768 => y (ix2 r j)) := by
  rw [Host.reduce_eq_fold_single (FloatOps.minimumf (F := Ideal) (φ := .f32)) y _ reducesTo_S20000x768_S20000_d1 reduces_d1 h_S_ (ix1 r)]
  have e : (y ∘ reduces_d1.lift (ix1 r)) = (fun j : Fin 768 => y (ix2 r j)) := funext fun k => congrArg y (lift_d1 r k)
  rw [e]
  rfl

/-- A max-reduce over axis 1 from `-∞`, at row `r`: the greatest entry of the row. -/
theorem reduce_max_at (y : S20000x768.Idx → EReal) (r : Fin 20000) :
    Host.reduce (FloatOps.maximumf (F := Ideal) (φ := .f32)) y (val_main_cst_0 (F := Ideal)) reducesTo_S20000x768_S20000_d1 h_S_ (ix1 r)
      = Spec.rowMax (fun j : Fin 768 => y (ix2 r j)) := by
  rw [Host.reduce_eq_fold_single (FloatOps.maximumf (F := Ideal) (φ := .f32)) y _ reducesTo_S20000x768_S20000_d1 reduces_d1 h_S_ (ix1 r)]
  have e : (y ∘ reduces_d1.lift (ix1 r)) = (fun j : Fin 768 => y (ix2 r j)) := funext fun k => congrArg y (lift_d1 r k)
  rw [e]
  rfl

/-! ## LinTrans of a table row -/

section LinTrans
variable (x1 : (⟨S20000x768, .f32⟩ : BufTy).Contents (Elt Ideal)) (x3 : (⟨S768x768, .f32⟩ : BufTy).Contents (Elt Ideal))
  (x4 : (⟨S768, .f32⟩ : BufTy).Contents (Elt Ideal))

/-- Row `r` of stage `%4`, as a function of the column, is the affine image of table row `r`. -/
theorem lin_row (r : Fin 20000) :
    (fun j : Fin 768 => val_main_v4 (F := Ideal) x1 x3 x4 (ix2 r j)) = Spec.lin (m2 x1 r) (m2 x3) (m1 x4) :=
  funext fun j => lin_at x1 x3 x4 r j

/-- Stage `%5` at `r`: the least entry of the affine image of row `r`. -/
theorem min_at (r : Fin 20000) :
    val_main_v5 (F := Ideal) x1 x3 x4 (ix1 r) = Spec.rowMin (Spec.lin (m2 x1 r) (m2 x3) (m1 x4)) := by
  unfold val_main_v5
  rw [reduce_min_at, lin_row]

/-- Stage `%7` at `r`: the greatest entry of the affine image of row `r`. -/
theorem max_at (r : Fin 20000) :
    val_main_v7 (F := Ideal) x1 x3 x4 (ix1 r) = Spec.rowMax (Spec.lin (m2 x1 r) (m2 x3) (m1 x4)) := by
  unfold val_main_v7
  rw [reduce_max_at, lin_row]

theorem idx_v9_at (r : Fin 20000) (j : Fin 768) : idx_main_v6 (idx_main_v9 (ix2 r j)) = ix1 r :=
  funext fun a => match a with | ⟨0, _⟩ => rfl
theorem idx_v12_6_at (r : Fin 20000) (j : Fin 768) : idx_main_v6 (idx_main_v12 (ix2 r j)) = ix1 r :=
  funext fun a => match a with | ⟨0, _⟩ => rfl
theorem idx_v12_8_at (r : Fin 20000) (j : Fin 768) : idx_main_v8 (idx_main_v12 (ix2 r j)) = ix1 r :=
  funext fun a => match a with | ⟨0, _⟩ => rfl

/-- Stage `%13` at `(r, j)`: the min-max scaling of the affine image of row `r`. -/
theorem scaled_at (r : Fin 20000) (j : Fin 768) :
    val_main_v13 (F := Ideal) x1 x3 x4 (ix2 r j) = Spec.scaled (Spec.lin (m2 x1 r) (m2 x3) (m1 x4)) j := by
  rw [val_main_v13_apply, val_main_v10_apply, val_main_v12_apply, val_main_v11_apply, val_main_v9_apply,
    val_main_v8_apply, val_main_v6_apply]
  simp only [idx_v9_at, idx_v12_6_at, idx_v12_8_at]
  rw [min_at, max_at, lin_at]
  rfl

/-- Row `r` of stage `%13` as a function of the column. -/
theorem scaled_row (r : Fin 20000) :
    (fun j : Fin 768 => val_main_v13 (F := Ideal) x1 x3 x4 (ix2 r j)) = Spec.scaled (Spec.lin (m2 x1 r) (m2 x3) (m1 x4)) :=
  funext fun j => scaled_at x1 x3 x4 r j

theorem idx_v20_at (r : Fin 20000) (j : Fin 768) : idx_main_v20 (ix2 r j) = ix2 r (0 : Fin 1) :=
  funext fun a => match a with | ⟨0, _⟩ => rfl | ⟨1, _⟩ => rfl
theorem idx_v16_at (r : Fin 20000) : idx_main_v16 (ix2 r (0 : Fin 1)) = ix1 r :=
  funext fun a => match a with | ⟨0, _⟩ => rfl
theorem idx_v15_at (r : Fin 20000) (k : Fin 768) : idx_main_v15 (ix1 r) k = ix2 r k :=
  funext fun a => match a with | ⟨0, _⟩ => rfl | ⟨1, _⟩ => rfl

/-- Stage `%15` at `r`: the sum of the squares of the scaled row. -/
theorem sumsq_at (r : Fin 20000) :
    val_main_v15 (F := Ideal) x1 x3 x4 (ix1 r)
      = ∑ d : Fin 768, Spec.scaled (Spec.lin (m2 x1 r) (m2 x3) (m1 x4)) d * Spec.scaled (Spec.lin (m2 x1 r) (m2 x3) (m1 x4)) d := by
  rw [val_main_v15_apply, val_main_cst_1_apply, Ideal.ofBits_def, Ideal.ofBits_zero_f32, zero_add]
  refine Finset.sum_congr rfl fun k _ => ?_
  rw [idx_v15_at, val_main_v14_apply, Ideal.mulf_def, scaled_at]

/-- Stage `%21` at `(r, j)`: LinTrans of table row `r`, entry `j`. -/
theorem lintrans_at (r : Fin 20000) (j : Fin 768) :
    val_main_v21 (F := Ideal) x1 x3 x4 (ix2 r j) = Spec.lintrans (m2 x1 r) (m2 x3) (m1 x4) j := by
  rw [val_main_v21_apply, val_main_v20_apply, val_main_v19_apply, val_main_v17_apply, val_main_v16_apply,
    val_main_v18_apply, val_main_cst_2_apply, idx_v20_at, idx_v16_at, sumsq_at, scaled_at]
  rfl

end LinTrans

/-! ## The gathered rows -/

theorem idx_v33_at (k : Fin 4096) : idx_main_v33 (ix2 k (0 : Fin 1)) = ix1 k :=
  funext fun a => match a with | ⟨0, _⟩ => rfl

/-- The index word the gather reads at row `k`: the word `Endx[k]`, wrapped. -/
theorem word_at (x2 : (⟨S4096, .i32⟩ : BufTy).Contents (Elt Ideal)) (k : Fin 4096) :
    val_main_v33 (F := Ideal) x2 (ix2 k (0 : Fin 1)) = wrapW (x2 (ix1 k)) := by
  rw [val_main_v33_apply, idx_v33_at, val_main_v32_apply, val_main_v29_apply, val_main_v31_apply, val_main_v28_apply,
    val_main_v30_apply, val_main_c_apply, val_main_c_3_apply]
  rfl

/-- Stage `%34` at `(k, d)`: LinTrans of the table row that `Endx[k]` selects, entry `d`. -/
theorem gather_at (x1 : (⟨S20000x768, .f32⟩ : BufTy).Contents (Elt Ideal)) (x2 : (⟨S4096, .i32⟩ : BufTy).Contents (Elt Ideal))
    (x3 : (⟨S768x768, .f32⟩ : BufTy).Contents (Elt Ideal)) (x4 : (⟨S768, .f32⟩ : BufTy).Contents (Elt Ideal))
    (k : Fin 4096) (d : Fin 768) :
    val_main_v34 (F := Ideal) x1 x2 x3 x4 (ix2 k d) = Spec.lintrans (m2 x1 (rowOf (x2 (ix1 k)))) (m2 x3) (m1 x4) d := by
  unfold val_main_v34
  have hg : gather_S20000x768_S4096x1_S4096x768_1_0_n_n_0_1_1768
      = RowGather.rowDims 20000 768 4096 gather_S20000x768_S4096x1_S4096x768_1_0_n_n_0_1_1768_wf := rfl
  rw [hg]
  refine (RowGather.gather_rows_apply (by decide) _ (val_main_v21 (F := Ideal) x1 x3 x4)
    (val_main_v33 (F := Ideal) x2) k d).trans ?_
  rw [word_at]
  exact lintrans_at x1 x3 x4 _ d

/-! ## The rows of `E ⊙ outW` and of `h` -/

theorem lidx_v36 (k : Fin 4096) (d : Fin 256) (q : Fin 768) : lidx_main_v36 (ix2 k d) q = ix2 k q :=
  funext fun a => match a with | ⟨0, _⟩ => rfl | ⟨1, _⟩ => rfl
theorem ridx_v36 (k : Fin 4096) (d : Fin 256) (q : Fin 768) : idx_main_v35 (ridx_main_v36 (ix2 k d) q) = ix2 d q :=
  funext fun a => match a with | ⟨0, _⟩ => rfl | ⟨1, _⟩ => rfl
theorem bidx_v38 (k : Fin 4096) (d : Fin 256) : idx_main_v37 (idx_main_v38 (ix2 k d)) = ix1 d :=
  funext fun a => match a with | ⟨0, _⟩ => rfl

/-- Stage `%41` at `(k, d)`: row `k` of `E ⊙ outW`, entry `d`. -/
theorem ew_at (x1 : (⟨S20000x768, .f32⟩ : BufTy).Contents (Elt Ideal)) (x2 : (⟨S4096, .i32⟩ : BufTy).Contents (Elt Ideal))
    (x3 : (⟨S768x768, .f32⟩ : BufTy).Contents (Elt Ideal)) (x4 : (⟨S768, .f32⟩ : BufTy).Contents (Elt Ideal))
    (x7 : (⟨S256x768, .f32⟩ : BufTy).Contents (Elt Ideal)) (x8 : (⟨S256, .f32⟩ : BufTy).Contents (Elt Ideal))
    (x9 : (⟨S4096x256, .f32⟩ : BufTy).Contents (Elt Ideal)) (k : Fin 4096) (d : Fin 256) :
    val_main_v41 (F := Ideal) x1 x2 x3 x4 x7 x8 x9 (ix2 k d)
      = Spec.ewRow (m2 x1 (rowOf (x2 (ix1 k)))) (m2 x3) (m1 x4) (m2 x7) (m1 x8) (m2 x9 k) d := by
  rw [val_main_v41_apply, val_main_v40_apply, val_main_v39_apply, val_main_v36_apply, val_main_v38_apply,
    val_main_v37_apply, bidx_v38]
  simp only [val_main_v35_apply, lidx_v36, ridx_v36, gather_at]
  rfl

theorem lidx_v23 (n : Fin 8192) (d : Fin 256) (q : Fin 768) : lidx_main_v23 (ix2 n d) q = ix2 n q :=
  funext fun a => match a with | ⟨0, _⟩ => rfl | ⟨1, _⟩ => rfl
theorem ridx_v23 (n : Fin 8192) (d : Fin 256) (q : Fin 768) : idx_main_v22 (ridx_main_v23 (ix2 n d) q) = ix2 d q :=
  funext fun a => match a with | ⟨0, _⟩ => rfl | ⟨1, _⟩ => rfl
theorem bidx_v25 (n : Fin 8192) (d : Fin 256) : idx_main_v24 (idx_main_v25 (ix2 n d)) = ix1 d :=
  funext fun a => match a with | ⟨0, _⟩ => rfl

/-- Stage `%27` at `(n, d)`: row `n` of `h`, entry `d`. -/
theorem h_at (x0 : (⟨S8192x768, .f32⟩ : BufTy).Contents (Elt Ideal)) (x5 : (⟨S256x768, .f32⟩ : BufTy).Contents (Elt Ideal))
    (x6 : (⟨S256, .f32⟩ : BufTy).Contents (Elt Ideal)) (n : Fin 8192) (d : Fin 256) :
    val_main_v27 (F := Ideal) x0 x5 x6 (ix2 n d) = Spec.hRow (m2 x0 n) (m2 x5) (m1 x6) d := by
  rw [val_main_v27_apply, val_main_v26_apply, val_main_v23_apply, val_main_v25_apply, val_main_v24_apply, bidx_v25]
  simp only [val_main_v22_apply, lidx_v23, ridx_v23]
  rfl

/-! ## The two results -/

theorem lidx_v43 (n : Fin 8192) (k : Fin 4096) (d : Fin 256) : lidx_main_v43 (ix2 n k) d = ix2 n d :=
  funext fun a => match a with | ⟨0, _⟩ => rfl | ⟨1, _⟩ => rfl
theorem ridx_v43 (n : Fin 8192) (k : Fin 4096) (d : Fin 256) : idx_main_v42 (ridx_main_v43 (ix2 n k) d) = ix2 k d :=
  funext fun a => match a with | ⟨0, _⟩ => rfl | ⟨1, _⟩ => rfl
theorem bidx_v45 (n : Fin 8192) (k : Fin 4096) : idx_main_v44 (idx_main_v45 (ix2 n k)) = ix1 k :=
  funext fun a => match a with | ⟨0, _⟩ => rfl

/-- The reference's `o_c` is the specification's. -/
theorem ref_oc (x0 : (⟨S8192x768, .f32⟩ : BufTy).Contents (Elt Ideal)) (x1 : (⟨S20000x768, .f32⟩ : BufTy).Contents (Elt Ideal))
    (x2 : (⟨S4096, .i32⟩ : BufTy).Contents (Elt Ideal)) (x3 : (⟨S768x768, .f32⟩ : BufTy).Contents (Elt Ideal))
    (x4 : (⟨S768, .f32⟩ : BufTy).Contents (Elt Ideal)) (x5 : (⟨S256x768, .f32⟩ : BufTy).Contents (Elt Ideal))
    (x6 : (⟨S256, .f32⟩ : BufTy).Contents (Elt Ideal)) (x7 : (⟨S256x768, .f32⟩ : BufTy).Contents (Elt Ideal))
    (x8 : (⟨S256, .f32⟩ : BufTy).Contents (Elt Ideal)) (x9 : (⟨S4096x256, .f32⟩ : BufTy).Contents (Elt Ideal))
    (x10 : (⟨S4096, .f32⟩ : BufTy).Contents (Elt Ideal)) :
    val_main_v46 (F := Ideal) x0 x1 x2 x3 x4 x5 x6 x7 x8 x9 x10 = ocArr x0 x1 x2 x3 x4 x5 x6 x7 x8 x9 x10 := by
  funext i
  obtain ⟨n, k, rfl⟩ : ∃ (n : Fin 8192) (k : Fin 4096), i = ix2 n k := ⟨i 0, i 1, eq_ix2 i⟩
  rw [val_main_v46_apply, val_main_v43_apply, val_main_v45_apply, val_main_v44_apply, bidx_v45]
  simp only [val_main_v42_apply, lidx_v43, ridx_v43, h_at, ew_at]
  rfl

theorem lidx_v48 (n : Fin 8192) (f : Fin 50) (d : Fin 256) : lidx_main_v48 (ix2 n f) d = ix2 n d :=
  funext fun a => match a with | ⟨0, _⟩ => rfl | ⟨1, _⟩ => rfl
theorem ridx_v48 (n : Fin 8192) (f : Fin 50) (d : Fin 256) : idx_main_v47 (ridx_main_v48 (ix2 n f) d) = ix2 f d :=
  funext fun a => match a with | ⟨0, _⟩ => rfl | ⟨1, _⟩ => rfl
theorem bidx_v50 (n : Fin 8192) (f : Fin 50) : idx_main_v49 (idx_main_v50 (ix2 n f)) = ix1 f :=
  funext fun a => match a with | ⟨0, _⟩ => rfl

/-- The reference's `o_f` is the specification's. -/
theorem ref_of (x0 : (⟨S8192x768, .f32⟩ : BufTy).Contents (Elt Ideal)) (x5 : (⟨S256x768, .f32⟩ : BufTy).Contents (Elt Ideal))
    (x6 : (⟨S256, .f32⟩ : BufTy).Contents (Elt Ideal)) (x11 : (⟨S50x256, .f32⟩ : BufTy).Contents (Elt Ideal))
    (x12 : (⟨S50, .f32⟩ : BufTy).Contents (Elt Ideal)) :
    val_main_v51 (F := Ideal) x0 x5 x6 x11 x12 = ofArr x0 x5 x6 x11 x12 := by
  funext i
  obtain ⟨n, f, rfl⟩ : ∃ (n : Fin 8192) (f : Fin 50), i = ix2 n f := ⟨i 0, i 1, eq_ix2 i⟩
  rw [val_main_v51_apply, val_main_v48_apply, val_main_v50_apply, val_main_v49_apply, bidx_v50]
  simp only [val_main_v47_apply, lidx_v48, ridx_v48, h_at]
  rfl

end Cert.ReferenceIdeal.RefValue

end
-- ==== Proof.lean ====
/-
  The certificate of the fused node-feature kernel against its jnp reference, over the extended reals.

  Both programs compute, for the 8192 rows of `t` and the 4096 indices `Endx`,
  `o_c = h · (E ⊙ outW)ᵀ + outb` and `o_f = h · W_fc3ᵀ + b_fc3` with `h = tanh (t · W_prjTᵀ + b_prjT)`,
  `E = tanh (A · W_prjLᵀ + b_prjL)` and `A` the LinTrans (affine image, min-max scaling, L2 normalisation) of the
  node rows that `Endx` selects. LinTrans acts on each row by itself, so the kernel's order — gather the 4096 rows,
  then transform them — gives what the reference's order — transform all 20000 rows, then gather — gives; the sums
  of the matrix products are the same sums whatever their tiling, and a change of float format is the identity on
  the extended reals. The one place the programs differ is an index outside the table: the kernel's gather fills
  such a row with a constant, the reference's reads the nearest row; the precondition keeps every index inside
  `[-20000, 20000)`, where both read the row the wrapped index names.

  The frames: each region's body is run at every grid point over proof data that names what every staging buffer
  holds after the body (region 1's scratch carried through the invariant, its `o_f` buffer kept from column tile 0
  to the write-back at column tile 3), and the program is launched over its four segments.
-/
import proofs.«406561_j274877907022_3_alg».proof.Defs
import proofs.«406561_j274877907022_3_alg».proof.Proof.Gen.Kernel
import proofs.«406561_j274877907022_3_alg».proof.Proof.Gen.KernelIdeal
import proofs.«406561_j274877907022_3_alg».proof.Proof.Gen.ReferenceIdeal
import proofs.«406561_j274877907022_3_alg».proof.Proof.Gen.Pre_finite_inputs
import proofs.«406561_j274877907022_3_alg».proof.Proof.Gen.ReferenceIdeal.Run
import proofs.«406561_j274877907022_3_alg».proof.Proof.Gen.ReferenceIdeal.Read
import proofs.«406561_j274877907022_3_alg».proof.Proof.K.Run
import proofs.«406561_j274877907022_3_alg».proof.Proof.KI.Assembly
import proofs.«406561_j274877907022_3_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a host program: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with `o_c` and `o_f` at the specification of the arguments. -/
theorem algebraic : Cert.algebraic_KernelIdeal_ReferenceIdeal := by
  intro m ρ m' ρ' hpre hagree
  refine ⟨fun c => SpecArr.ocArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => SpecArr.ofArr (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.Hand.run_all (F := Ideal) m ρ)
    refine ⟨(h c _ (Cert.KernelIdeal.Hand.mem_uc Cert.KernelIdeal.main_v5_0 (by decide))).trans (Cert.KernelIdeal.Hand.kernel_oc m hpre c),
      (h c _ (Cert.KernelIdeal.Hand.mem_uc Cert.KernelIdeal.main_v5_1 (by decide))).trans (Cert.KernelIdeal.Hand.kernel_of m c),
      (h c _ (Cert.KernelIdeal.Hand.mem_uc Cert.KernelIdeal.main_arg0 (by decide))).trans (Cert.KernelIdeal.Hand.W4_main_arg0 m c),
      (h c _ (Cert.KernelIdeal.Hand.mem_uc Cert.KernelIdeal.main_arg1 (by decide))).trans (Cert.KernelIdeal.Hand.W4_main_arg1 m c),
      (h c _ (Cert.KernelIdeal.Hand.mem_uc Cert.KernelIdeal.main_arg2 (by decide))).trans (Cert.KernelIdeal.Hand.W4_main_arg2 m c),
      (h c _ (Cert.KernelIdeal.Hand.mem_uc Cert.KernelIdeal.main_arg3 (by decide))).trans (Cert.KernelIdeal.Hand.W4_main_arg3 m c),
      (h c _ (Cert.KernelIdeal.Hand.mem_uc Cert.KernelIdeal.main_arg4 (by decide))).trans (Cert.KernelIdeal.Hand.W4_main_arg4 m c),
      (h c _ (Cert.KernelIdeal.Hand.mem_uc Cert.KernelIdeal.main_arg5 (by decide))).trans (Cert.KernelIdeal.Hand.W4_main_arg5 m c),
      (h c _ (Cert.KernelIdeal.Hand.mem_uc Cert.KernelIdeal.main_arg6 (by decide))).trans (Cert.KernelIdeal.Hand.W4_main_arg6 m c),
      (h c _ (Cert.KernelIdeal.Hand.mem_uc Cert.KernelIdeal.main_arg7 (by decide))).trans (Cert.KernelIdeal.Hand.W4_main_arg7 m c),
      (h c _ (Cert.KernelIdeal.Hand.mem_uc Cert.KernelIdeal.main_arg8 (by decide))).trans (Cert.KernelIdeal.Hand.W4_main_arg8 m c),
      (h c _ (Cert.KernelIdeal.Hand.mem_uc Cert.KernelIdeal.main_arg9 (by decide))).trans (Cert.KernelIdeal.Hand.W4_main_arg9 m c),
      (h c _ (Cert.KernelIdeal.Hand.mem_uc Cert.KernelIdeal.main_arg10 (by decide))).trans (Cert.KernelIdeal.Hand.W4_main_arg10 m c),
      (h c _ (Cert.KernelIdeal.Hand.mem_uc Cert.KernelIdeal.main_arg11 (by decide))).trans (Cert.KernelIdeal.Hand.W4_main_arg11 m c),
      (h c _ (Cert.KernelIdeal.Hand.mem_uc Cert.KernelIdeal.main_arg12 (by decide))).trans (Cert.KernelIdeal.Hand.W4_main_arg12 m c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v46_eq, Cert.ReferenceIdeal.RefValue.ref_oc,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1]
    · rw [Cert.ReferenceIdeal.Read.val_main_v51_eq, Cert.ReferenceIdeal.RefValue.ref_of,
        (hagree c).1, (hagree c).2.2.2.2.2.1, (hagree c).2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
